-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S100000x5 : Shape := ⟨2, ![100000, 5]⟩
abbrev S2x220000 : Shape := ⟨2, ![2, 220000]⟩
abbrev S100000 : Shape := ⟨1, ![100000]⟩
abbrev S28x128 : Shape := ⟨2, ![28, 128]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S28x128 : S_.BroadcastsInDim S28x128 (![] : Fin 0 → Fin S28x128.rank)
  reducesTo_S28x128_S_d0_1 : S28x128.ReducesTo [0, 1] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_

variable [Facts]

def fn_part3 {F : FTy → Type} [FloatOps F] (main_arg0 : IVec S100000x1 32) (main_arg15 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S100000x1 32 := broadcastInDim S100000x1 ![] bcast_S_S100000x1 main_c_22
  let main_v60 : IVec S100000x1 1 := cmpi .sge main_arg0 main_v59
  let main_c_23 : IVec S_ 1 := constantI S_ 1 1#1
  let main_v61 : IVec S_ 1 := (fun x v => Host.reduce IntOp.andi x v reducesTo_S100000x1_S_d0_1 h_S_) main_v60 main_c_23
  let main_v62 : IVec S_ 1 := andi main_v58 main_v61
  main_v62

def fn_part2 {F : FTy → Type} [FloatOps F] (main_arg0 : IVec S100000x1 32) (main_arg11 : FVec F S1 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg14
  let main_cst_18 : FVec F S_ .f32 := constant S_ .f32 0x7F800000#32
  let main_v50 : FVec F S128x1 .f32 := broadcastInDim S128x1 ![] bcast_S_S128x1 main_cst_18
  fn_part3 (F := F) main_arg0 main_arg15 main_v48 main_v49 main_v50

def fn_part1 {F : FTy → Type} [FloatOps F] (main_arg0 : IVec S100000x1 32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg10
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg0 main_arg11 main_arg12 main_arg13 main_arg14 main_arg15 main_v33

def fn {F : FTy → Type} [FloatOps F] (main_arg0 : IVec S100000x1 32) (main_arg1 : FVec F S100000x5 .f32) (main_arg2 : IVec S2x220000 32) (main_arg3 : IVec S2x220000 32) (main_arg4 : IVec S100000 32) (main_arg5 : FVec F S28x128 .f32) (main_arg6 : FVec F S5x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) : IVec S_ 1 :=
  let main_v0 : FVec F S100000x5 .f32 := Host.absf main_arg1
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S28x128 .f32 := Host.absf main_arg5
  let main_cst_0 : FVec F S_ .f32 := constant S_ .f32 0x7F800000#32
  let main_v5 : FVec F S28x128 .f32 := broadcastInDim S28x128 ![] bcast_S_S28x128 main_cst_0
  let main_v6 : IVec S28x128 1 := cmpf .olt main_v4 main_v5
  let main_c_1 : IVec S_ 1 := constantI S_ 1 1#1
  let main_v7 : IVec S_ 1 := (fun x v => Host.reduce IntOp.andi x v reducesTo_S28x128_S_d0_1 h_S_) main_v6 main_c_1
  let main_v8 : IVec S_ 1 := andi main_v3 main_v7
  let main_v9 : FVec F S5x128 .f32 := Host.absf main_arg6
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg8 main_arg9 main_arg10 main_arg11 main_arg12 main_arg13 main_arg14 main_arg15 main_v13 main_v16
-- ==== Kernel.lean ====
abbrev S100000x1 : Shape := ⟨2, ![100000, 1]⟩
abbrev S100000x5 : Shape := ⟨2, ![100000, 5]⟩
abbrev S2x220000 : Shape := ⟨2, ![2, 220000]⟩
abbrev S100000 : Shape := ⟨1, ![100000]⟩
abbrev S28x128 : Shape := ⟨2, ![28, 128]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S128x256 : Shape := ⟨2, ![128, 256]⟩
abbrev S_ : Shape := ⟨0, ![]⟩
abbrev S32x128 : Shape := ⟨2, ![32, 128]⟩
abbrev S100000x128 : Shape := ⟨2, ![100000, 128]⟩
abbrev S4000x1 : Shape := ⟨2, ![4000, 1]⟩
abbrev S4000x5 : Shape := ⟨2, ![4000, 5]⟩
abbrev S4000x128 : Shape := ⟨2, ![4000, 128]⟩
abbrev S4000x32 : Shape := ⟨2, ![4000, 32]⟩
abbrev S4000x256 : Shape := ⟨2, ![4000, 256]⟩
abbrev S1x220000 : Shape := ⟨2, ![1, 220000]⟩
abbrev S220000 : Shape := ⟨1, ![220000]⟩
abbrev S220000x1 : Shape := ⟨2, ![220000, 1]⟩
abbrev S220000x128 : Shape := ⟨2, ![220000, 128]⟩
abbrev S1x1 : Shape := ⟨2, ![1, 1]⟩
abbrev S4096x1 : Shape := ⟨2, ![4096, 1]⟩
abbrev S4096 : Shape := ⟨1, ![4096]⟩

abbrev nBuf : Space → Nat
  | .hbm => 218
  | .vmem => 34
  | .smem => 0
  | _ => 0

abbrev hbmTy0_0 (i : Nat) : BufTy := match i % 128 with
  | 0 => ⟨S100000x1, .i32⟩
  | 1 => ⟨S100000x5, .f32⟩
  | 2 => ⟨S2x220000, .i32⟩
  | 3 => ⟨S2x220000, .i32⟩
  | 4 => ⟨S100000, .i32⟩
  | 5 => ⟨S28x128, .f32⟩
  | 6 => ⟨S5x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S128x128, .f32⟩
  | 13 => ⟨S128, .f32⟩
  | 14 => ⟨S128x1, .f32⟩
  | 15 => ⟨S1, .f32⟩
  | 16 => ⟨S1x128, .f32⟩
  | 17 => ⟨S128x256, .f32⟩
  | 18 => ⟨S_, .i32⟩
  | 19 => ⟨S_, .f32⟩
  | 20 => ⟨S32x128, .f32⟩
  | 21 => ⟨S100000x128, .f32⟩
  | 22 => ⟨S100000x128, .f32⟩
  | 23 => ⟨S100000x128, .f32⟩
  | 24 => ⟨S1x220000, .i32⟩
  | 25 => ⟨S220000, .i32⟩
  | 26 => ⟨S1x220000, .i32⟩
  | 27 => ⟨S220000, .i32⟩
  | 28 => ⟨S_, .f32⟩
  | 29 => ⟨S220000, .f32⟩
  | 30 => ⟨S_, .f32⟩
  | 31 => ⟨S100000, .f32⟩
  | 32 => ⟨S220000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S220000, .i32⟩
  | 39 => ⟨S220000, .i32⟩
  | 40 => ⟨S220000, .i32⟩
  | 41 => ⟨S_, .i32⟩
  | 42 => ⟨S220000, .i32⟩
  | 43 => ⟨S220000, .i1⟩
  | 44 => ⟨S_, .i32⟩
  | 45 => ⟨S220000, .i32⟩
  | 46 => ⟨S220000, .i32⟩
  | 47 => ⟨S220000, .i32⟩
  | 48 => ⟨S220000x1, .i32⟩
  | 49 => ⟨S220000, .i32⟩
  | 50 => ⟨S_, .i32⟩
  | 51 => ⟨S220000, .i32⟩
  | 52 => ⟨S220000, .i1⟩
  | 53 => ⟨S_, .i32⟩
  | 54 => ⟨S220000, .i32⟩
  | 55 => ⟨S220000, .i32⟩
  | 56 => ⟨S220000, .i32⟩
  | 57 => ⟨S220000x1, .i32⟩
  | 58 => ⟨S220000, .i32⟩
  | 59 => ⟨S_, .i32⟩
  | 60 => ⟨S220000, .i32⟩
  | 61 => ⟨S220000, .i1⟩
  | 62 => ⟨S_, .i32⟩
  | 63 => ⟨S220000, .i32⟩
  | 64 => ⟨S220000, .i32⟩
  | 65 => ⟨S220000, .i32⟩
  | 66 => ⟨S220000x1, .i32⟩
  | 67 => ⟨S220000, .f32⟩
  | 68 => ⟨S_, .i32⟩
  | 69 => ⟨S220000, .i32⟩
  | 70 => ⟨S220000, .i1⟩
  | 71 => ⟨S_, .i32⟩
  | 72 => ⟨S220000, .i32⟩
  | 73 => ⟨S220000, .i32⟩
  | 74 => ⟨S220000, .i32⟩
  | 75 => ⟨S220000x1, .i32⟩
  | 76 => ⟨S220000, .f32⟩
  | 77 => ⟨S220000, .f32⟩
  | 78 => ⟨S100000, .f32⟩
  | 79 => ⟨S100000x1, .f32⟩
  | 80 => ⟨S_, .i32⟩
  | 81 => ⟨S220000, .i32⟩
  | 82 => ⟨S220000, .i1⟩
  | 83 => ⟨S_, .i32⟩
  | 84 => ⟨S220000, .i32⟩
  | 85 => ⟨S220000, .i32⟩
  | 86 => ⟨S220000, .i32⟩
  | 87 => ⟨S220000x1, .i32⟩
  | 88 => ⟨S220000x128, .f32⟩
  | 89 => ⟨S220000x1, .f32⟩
  | 90 => ⟨S220000x128, .f32⟩
  | 91 => ⟨S220000x128, .f32⟩
  | 92 => ⟨S_, .f32⟩
  | 93 => ⟨S100000x128, .f32⟩
  | 94 => ⟨S220000x1, .i32⟩
  | 95 => ⟨S100000x128, .f32⟩
  | 96 => ⟨S1x128, .f32⟩
  | 97 => ⟨S100000x1, .f32⟩
  | 98 => ⟨S_, .i32⟩
  | 99 => ⟨S220000, .i32⟩
  | 100 => ⟨S220000, .i1⟩
  | 101 => ⟨S_, .i32⟩
  | 102 => ⟨S220000, .i32⟩
  | 103 => ⟨S220000, .i32⟩
  | 104 => ⟨S220000, .i32⟩
  | 105 => ⟨S220000x1, .i32⟩
  | 106 => ⟨S220000x1, .f32⟩
  | 107 => ⟨S220000x1, .f32⟩
  | 108 => ⟨S220000x1, .f32⟩
  | 109 => ⟨S_, .f32⟩
  | 110 => ⟨S100000x1, .f32⟩
  | 111 => ⟨S220000x1, .i32⟩
  | 112 => ⟨S100000x1, .f32⟩
  | 113 => ⟨S100000x1, .f32⟩
  | 114 => ⟨S100000x1, .f32⟩
  | 115 => ⟨S1x1, .f32⟩
  | 116 => ⟨S100000x1, .f32⟩
  | 117 => ⟨S100000x1, .f32⟩
  | 118 => ⟨S1x220000, .i32⟩
  | 119 => ⟨S220000, .i32⟩
  | 120 => ⟨S1x220000, .i32⟩
  | 121 => ⟨S220000, .i32⟩
  | 122 => ⟨S_, .f32⟩
  | 123 => ⟨S220000, .f32⟩
  | 124 => ⟨S_, .f32⟩
  | 125 => ⟨S100000, .f32⟩
  | 126 => ⟨S220000x1, .i32⟩
  | 127 => ⟨S100000, .f32⟩
  | _ => ⟨S100000x1, .i32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S220000, .i32⟩
  | 5 => ⟨S220000, .i32⟩
  | 6 => ⟨S220000, .i32⟩
  | 7 => ⟨S_, .i32⟩
  | 8 => ⟨S220000, .i32⟩
  | 9 => ⟨S220000, .i1⟩
  | 10 => ⟨S_, .i32⟩
  | 11 => ⟨S220000, .i32⟩
  | 12 => ⟨S220000, .i32⟩
  | 13 => ⟨S220000, .i32⟩
  | 14 => ⟨S220000x1, .i32⟩
  | 15 => ⟨S220000, .i32⟩
  | 16 => ⟨S_, .i32⟩
  | 17 => ⟨S220000, .i32⟩
  | 18 => ⟨S220000, .i1⟩
  | 19 => ⟨S_, .i32⟩
  | 20 => ⟨S220000, .i32⟩
  | 21 => ⟨S220000, .i32⟩
  | 22 => ⟨S220000, .i32⟩
  | 23 => ⟨S220000x1, .i32⟩
  | 24 => ⟨S220000, .i32⟩
  | 25 => ⟨S_, .i32⟩
  | 26 => ⟨S220000, .i32⟩
  | 27 => ⟨S220000, .i1⟩
  | 28 => ⟨S_, .i32⟩
  | 29 => ⟨S220000, .i32⟩
  | 30 => ⟨S220000, .i32⟩
  | 31 => ⟨S220000, .i32⟩
  | 32 => ⟨S220000x1, .i32⟩
  | 33 => ⟨S220000, .f32⟩
  | 34 => ⟨S_, .i32⟩
  | 35 => ⟨S220000, .i32⟩
  | 36 => ⟨S220000, .i1⟩
  | 37 => ⟨S_, .i32⟩
  | 38 => ⟨S220000, .i32⟩
  | 39 => ⟨S220000, .i32⟩
  | 40 => ⟨S220000, .i32⟩
  | 41 => ⟨S220000x1, .i32⟩
  | 42 => ⟨S220000, .f32⟩
  | 43 => ⟨S220000, .f32⟩
  | 44 => ⟨S100000, .f32⟩
  | 45 => ⟨S100000x1, .f32⟩
  | 46 => ⟨S_, .i32⟩
  | 47 => ⟨S220000, .i32⟩
  | 48 => ⟨S220000, .i1⟩
  | 49 => ⟨S_, .i32⟩
  | 50 => ⟨S220000, .i32⟩
  | 51 => ⟨S220000, .i32⟩
  | 52 => ⟨S220000, .i32⟩
  | 53 => ⟨S220000x1, .i32⟩
  | 54 => ⟨S220000x128, .f32⟩
  | 55 => ⟨S220000x1, .f32⟩
  | 56 => ⟨S220000x128, .f32⟩
  | 57 => ⟨S220000x128, .f32⟩
  | 58 => ⟨S_, .f32⟩
  | 59 => ⟨S100000x128, .f32⟩
  | 60 => ⟨S220000x1, .i32⟩
  | 61 => ⟨S100000x128, .f32⟩
  | 62 => ⟨S1x128, .f32⟩
  | 63 => ⟨S100000x1, .f32⟩
  | 64 => ⟨S_, .i32⟩
  | 65 => ⟨S220000, .i32⟩
  | 66 => ⟨S220000, .i1⟩
  | 67 => ⟨S_, .i32⟩
  | 68 => ⟨S220000, .i32⟩
  | 69 => ⟨S220000, .i32⟩
  | 70 => ⟨S220000, .i32⟩
  | 71 => ⟨S220000x1, .i32⟩
  | 72 => ⟨S220000x1, .f32⟩
  | 73 => ⟨S220000x1, .f32⟩
  | 74 => ⟨S220000x1, .f32⟩
  | 75 => ⟨S_, .f32⟩
  | 76 => ⟨S100000x1, .f32⟩
  | 77 => ⟨S220000x1, .i32⟩
  | 78 => ⟨S100000x1, .f32⟩
  | 79 => ⟨S100000x1, .f32⟩
  | 80 => ⟨S100000x1, .f32⟩
  | 81 => ⟨S1x1, .f32⟩
  | 82 => ⟨S100000x1, .f32⟩
  | 83 => ⟨S100000x1, .f32⟩
  | 84 => ⟨S100000x1, .f32⟩
  | 85 => ⟨S_, .f32⟩
  | 86 => ⟨S4096x1, .f32⟩
  | 87 => ⟨S100000x1, .i32⟩
  | 88 => ⟨S4096x1, .f32⟩
  | 89 => ⟨S4096, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | .local _ .vmem, ⟨0, _⟩ => ⟨S4000x1, .i32⟩
  | .local _ .vmem, ⟨1, _⟩ => ⟨S4000x1, .i32⟩
  | .local _ .vmem, ⟨2, _⟩ => ⟨S4000x5, .f32⟩
  | .local _ .vmem, ⟨3, _⟩ => ⟨S4000x5, .f32⟩
  | .local _ .vmem, ⟨4, _⟩ => ⟨S32x128, .f32⟩
  | .local _ .vmem, ⟨5, _⟩ => ⟨S5x128, .f32⟩
  | .local _ .vmem, ⟨6, _⟩ => ⟨S1x128, .f32⟩
  | .local _ .vmem, ⟨7, _⟩ => ⟨S128x256, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S1x128, .f32⟩
  | .local _ .vmem, ⟨21, _⟩ => ⟨S128x1, .f32⟩
  | .local _ .vmem, ⟨22, _⟩ => ⟨S4000x1, .f32⟩
  | .local _ .vmem, ⟨23, _⟩ => ⟨S4000x1, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S1x128, .f32⟩
  | .local _ .vmem, ⟨31, _⟩ => ⟨S128x1, .f32⟩
  | .local _ .vmem, ⟨32, _⟩ => ⟨S4000x1, .f32⟩
  | .local _ .vmem, ⟨33, _⟩ => ⟨S4000x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call1_v0 : Ref sig .tc := ⟨.hbm, 38, rfl⟩
abbrev main_call1_v1_0 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_c_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_13 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call2_v0 : Ref sig .tc := ⟨.hbm, 132, rfl⟩
abbrev main_call2_v1_0 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_c_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_21 : Ref sig .tc := ⟨.hbm, 144, rfl⟩
abbrev main_v98 : Ref sig .tc := ⟨.hbm, 145, rfl⟩
abbrev main_v99 : Ref sig .tc := ⟨.hbm, 146, rfl⟩
abbrev main_c_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_23 : Ref sig .tc := ⟨.hbm, 153, rfl⟩
abbrev main_v105 : Ref sig .tc := ⟨.hbm, 154, rfl⟩
abbrev main_v106 : Ref sig .tc := ⟨.hbm, 155, rfl⟩
abbrev main_c_24 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_c_25 : Ref sig .tc := ⟨.hbm, 162, rfl⟩
abbrev main_v112 : Ref sig .tc := ⟨.hbm, 163, rfl⟩
abbrev main_v113 : Ref sig .tc := ⟨.hbm, 164, rfl⟩
abbrev main_c_26 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_27 : Ref sig .tc := ⟨.hbm, 174, rfl⟩
abbrev main_v122 : Ref sig .tc := ⟨.hbm, 175, rfl⟩
abbrev main_v123 : Ref sig .tc := ⟨.hbm, 176, rfl⟩
abbrev main_c_28 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_29 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_30 : Ref sig .tc := ⟨.hbm, 192, rfl⟩
abbrev main_v137 : Ref sig .tc := ⟨.hbm, 193, rfl⟩
abbrev main_v138 : Ref sig .tc := ⟨.hbm, 194, rfl⟩
abbrev main_c_31 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_32 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_33 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  concatenates_S128x128_S128x128_S128x256_d1 : Shape.Concatenates [S128x128, S128x128] S128x256 1
  pads_S28x128_S32x128_040_000 : S28x128.Pads (![0, 0] : Fin 2 → Nat) ![4, 0] ![0, 0] S32x128
  h_S_ : 0 < S_.numel
  inb_S4000x1_S4000x1_0_0 : ∀ a, (![0, 0] : Fin 2 → Nat) a + S4000x1.size a ≤ S4000x1.size a
  h_S4000x1 : 0 < S4000x1.numel
  iota_S4000x32_d1_w32 : S4000x32.Iotas .tc 32 [1]
  broadcasts_S4000x1_S4000x32 : S4000x1.Broadcasts S4000x32
  natLt_1_32 : 1 < 32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S4000x5_S4000x5_0_0 : ∀ a, (![0, 0] : Fin 2 → Nat) a + S4000x5.size a ≤ S4000x5.size a
  h_S4000x5 : 0 < S4000x5.numel
  inb_S5x128_S5x128_0_0 : ∀ a, (![0, 0] : Fin 2 → Nat) a + S5x128.size a ≤ S5x128.size a
  h_S5x128 : 0 < S5x128.numel
  slices_S4000x5_o0_0_S4000x1 : S4000x5.Slices ![0, 0] S4000x1
  slices_S5x128_o0_0_S1x128 : S5x128.Slices ![0, 0] S1x128
  shapeCasts_S1x128_S128 : S1x128.ShapeCasts S128
  broadcasts_S4000x1_S4000x128 : S4000x1.Broadcasts S4000x128
  broadcasts_S1x128_S4000x128 : S1x128.Broadcasts S4000x128
  slices_S4000x5_o0_1_S4000x1 : S4000x5.Slices ![0, 1] S4000x1
  slices_S5x128_o1_0_S1x128 : S5x128.Slices ![1, 0] S1x128
  slices_S4000x5_o0_2_S4000x1 : S4000x5.Slices ![0, 2] S4000x1
  slices_S5x128_o2_0_S1x128 : S5x128.Slices ![2, 0] S1x128
  slices_S4000x5_o0_3_S4000x1 : S4000x5.Slices ![0, 3] S4000x1
  slices_S5x128_o3_0_S1x128 : S5x128.Slices ![3, 0] S1x128
  slices_S4000x5_o0_4_S4000x1 : S4000x5.Slices ![0, 4] S4000x1
  slices_S5x128_o4_0_S1x128 : S5x128.Slices ![4, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4000x256_o0_0_S4000x128 : S4000x256.Slices ![0, 0] S4000x128
  slices_S4000x256_o0_128_S4000x128 : S4000x256.Slices ![0, 128] S4000x128
  slices_S2x220000_S1x220000_0_0 : S2x220000.Slices ![0, 0] S1x220000
  shapeCasts_S1x220000_S220000 : S1x220000.ShapeCasts S220000
  slices_S2x220000_S1x220000_1_0 : S2x220000.Slices ![1, 0] S1x220000
  bcast_S_S220000 : S_.BroadcastsInDim S220000 (![] : Fin 0 → Fin S220000.rank)
  bcast_S_S100000 : S_.BroadcastsInDim S100000 (![] : Fin 0 → Fin S100000.rank)
  bcast_S220000_S220000x1_0 : S220000.BroadcastsInDim S220000x1 (![0] : Fin 1 → Fin S220000x1.rank)
  shapeCasts_S100000_S100000x1 : S100000.ShapeCasts S100000x1
  bcast_S220000x1_S220000x128_0_1 : S220000x1.BroadcastsInDim S220000x128 (![0, 1] : Fin 2 → Fin S220000x128.rank)
  bcast_S_S100000x128 : S_.BroadcastsInDim S100000x128 (![] : Fin 0 → Fin S100000x128.rank)
  shapeCasts_S4000x128_S4000x128 : S4000x128.ShapeCasts S4000x128
  shapeCasts_S4000x1_S4000x1 : S4000x1.ShapeCasts S4000x1
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  bcast_S_S4096x1 : S_.BroadcastsInDim S4096x1 (![] : Fin 0 → Fin S4096x1.rank)
  bcast_S100000_S100000x1_0 : S100000.BroadcastsInDim S100000x1 (![0] : Fin 1 → Fin S100000x1.rank)
  shapeCasts_S4096x1_S4096 : S4096x1.ShapeCasts S4096
  dot_S4000x32_S32x128_S4000x128_1_0_0_1_n_n_wf : DotDims.WF S4000x32 S32x128 S4000x128 [1] [0] [0] [1] [] []
  dot_S4000x128_S128x256_S4000x256_1_0_0_1_n_n_wf : DotDims.WF S4000x128 S128x256 S4000x256 [1] [0] [0] [1] [] []
  scatter_S100000_S220000x1_S220000_n_0_0_1_wf : ScatterDims.WF S100000 S220000x1 S220000 [] [0] [0] 1
  gather_S220000_S220000x1_S220000_n_0_n_n_0_1_1_wf : GatherDims.WF S220000 S220000x1 S220000 [] [0] [] [0] [] 1 ![1]
  gather_S100000_S220000x1_S220000_n_0_n_n_0_1_1_wf : GatherDims.WF S100000 S220000x1 S220000 [] [0] [] [0] [] 1 ![1]
  gather_S100000x128_S220000x1_S220000x128_1_0_n_n_0_1_1128_wf : GatherDims.WF S100000x128 S220000x1 S220000x128 [1] [0] [] [0] [] 1 ![1, 128]
  scatter_S100000x128_S220000x1_S220000x128_1_0_0_1_wf : ScatterDims.WF S100000x128 S220000x1 S220000x128 [1] [0] [0] 1
  dot_S4000x128_S128x1_S4000x1_1_0_0_1_n_n_wf : DotDims.WF S4000x128 S128x1 S4000x1 [1] [0] [0] [1] [] []
  gather_S100000x1_S220000x1_S220000x1_1_0_n_n_0_1_11_wf : GatherDims.WF S100000x1 S220000x1 S220000x1 [1] [0] [] [0] [] 1 ![1, 1]
  scatter_S100000x1_S220000x1_S220000x1_1_0_0_1_wf : ScatterDims.WF S100000x1 S220000x1 S220000x1 [1] [0] [0] 1
  scatter_S4096x1_S100000x1_S100000x1_1_0_0_1_wf : ScatterDims.WF S4096x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .i32 = 32 ∨ (Rect.block (s := S100000x1) S4000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x5.size a ≤ S100000x5.size a
  hwx0_1 : ∀ i : grid0.Coords, EltTy.bits .f32 = 32 ∨ (Rect.block (s := S100000x5) S4000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)

variable [Facts₀]

def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def scatter_S100000_S220000x1_S220000_n_0_0_1 : ScatterDims S100000 S220000x1 S220000 where
  updateWindowDims := []
  insertedWindowDims := [0]
  scatterDimsToOperandDims := [0]
  indexVectorDim := 1
  wf := scatter_S100000_S220000x1_S220000_n_0_0_1_wf
def comparator_i32_i32_d0 : BitVec 32 × BitVec 32 → BitVec 32 × BitVec 32 → BitVec 1 :=
  fun l r =>
    let v2 := IntOp.cmpi .slt l.1 r.1
    v2
def gather_S220000_S220000x1_S220000_n_0_n_n_0_1_1 : GatherDims S220000 S220000x1 S220000 where
  offsetDims := []
  collapsedSliceDims := [0]
  operandBatchingDims := []
  startIndicesBatchingDims := []
  startIndexMap := [0]
  indexVectorDim := 1
  sliceSizes := ![1]
  wf := gather_S220000_S220000x1_S220000_n_0_n_n_0_1_1_wf
def gather_S100000_S220000x1_S220000_n_0_n_n_0_1_1 : GatherDims S100000 S220000x1 S220000 where
  offsetDims := []
  collapsedSliceDims := [0]
  operandBatchingDims := []
  startIndicesBatchingDims := []
  startIndexMap := [0]
  indexVectorDim := 1
  sliceSizes := ![1]
  wf := gather_S100000_S220000x1_S220000_n_0_n_n_0_1_1_wf
def gather_S100000x128_S220000x1_S220000x128_1_0_n_n_0_1_1128 : GatherDims S100000x128 S220000x1 S220000x128 where
  offsetDims := [1]
  collapsedSliceDims := [0]
  operandBatchingDims := []
  startIndicesBatchingDims := []
  startIndexMap := [0]
  indexVectorDim := 1
  sliceSizes := ![1, 128]
  wf := gather_S100000x128_S220000x1_S220000x128_1_0_n_n_0_1_1128_wf
def scatter_S100000x128_S220000x1_S220000x128_1_0_0_1 : ScatterDims S100000x128 S220000x1 S220000x128 where
  updateWindowDims := [1]
  insertedWindowDims := [0]
  scatterDimsToOperandDims := [0]
  indexVectorDim := 1
  wf := scatter_S100000x128_S220000x1_S220000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x1_S220000x1_S220000x1_1_0_n_n_0_1_11 : GatherDims S100000x1 S220000x1 S220000x1 where
  offsetDims := [1]
  collapsedSliceDims := [0]
  operandBatchingDims := []
  startIndicesBatchingDims := []
  startIndexMap := [0]
  indexVectorDim := 1
  sliceSizes := ![1, 1]
  wf := gather_S100000x1_S220000x1_S220000x1_1_0_n_n_0_1_11_wf
def scatter_S100000x1_S220000x1_S220000x1_1_0_0_1 : ScatterDims S100000x1 S220000x1 S220000x1 where
  updateWindowDims := [1]
  insertedWindowDims := [0]
  scatterDimsToOperandDims := [0]
  indexVectorDim := 1
  wf := scatter_S100000x1_S220000x1_S220000x1_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v59) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S4000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v134) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_2) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v121) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v135) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v136) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x1 : Shape := ⟨2, ![100000, 1]⟩
abbrev S100000x5 : Shape := ⟨2, ![100000, 5]⟩
abbrev S2x220000 : Shape := ⟨2, ![2, 220000]⟩
abbrev S100000 : Shape := ⟨1, ![100000]⟩
abbrev S28x128 : Shape := ⟨2, ![28, 128]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000x128 : Shape := ⟨2, ![100000, 128]⟩
abbrev S1x128 : Shape := ⟨2, ![1, 128]⟩
abbrev S1x220000 : Shape := ⟨2, ![1, 220000]⟩
abbrev S220000 : Shape := ⟨1, ![220000]⟩
abbrev S220000x1 : Shape := ⟨2, ![220000, 1]⟩
abbrev S220000x128 : Shape := ⟨2, ![220000, 128]⟩
abbrev S1x1 : Shape := ⟨2, ![1, 1]⟩
abbrev S4096x1 : Shape := ⟨2, ![4096, 1]⟩
abbrev S4096 : Shape := ⟨1, ![4096]⟩

abbrev nBuf : Space → Nat
  | .hbm => 263
  | .vmem => 0
  | .smem => 0
  | _ => 0

abbrev hbmTy0_0 (i : Nat) : BufTy := match i % 128 with
  | 0 => ⟨S100000x1, .i32⟩
  | 1 => ⟨S100000x5, .f32⟩
  | 2 => ⟨S2x220000, .i32⟩
  | 3 => ⟨S2x220000, .i32⟩
  | 4 => ⟨S100000, .i32⟩
  | 5 => ⟨S28x128, .f32⟩
  | 6 => ⟨S5x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S128x128, .f32⟩
  | 13 => ⟨S128, .f32⟩
  | 14 => ⟨S128x1, .f32⟩
  | 15 => ⟨S1, .f32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S1x220000, .i32⟩
  | 32 => ⟨S220000, .i32⟩
  | 33 => ⟨S1x220000, .i32⟩
  | 34 => ⟨S220000, .i32⟩
  | 35 => ⟨S100000x128, .f32⟩
  | 36 => ⟨S_, .f32⟩
  | 37 => ⟨S220000, .f32⟩
  | 38 => ⟨S_, .f32⟩
  | 39 => ⟨S100000, .f32⟩
  | 40 => ⟨S220000x1, .i32⟩
  | 41 => ⟨S100000, .f32⟩
  | 42 => ⟨S_, .f32⟩
  | 43 => ⟨S100000, .f32⟩
  | 44 => ⟨S100000, .f32⟩
  | 45 => ⟨S100000, .f32⟩
  | 46 => ⟨S_, .i32⟩
  | 47 => ⟨S220000, .i32⟩
  | 48 => ⟨S220000, .i1⟩
  | 49 => ⟨S_, .i32⟩
  | 50 => ⟨S220000, .i32⟩
  | 51 => ⟨S220000, .i32⟩
  | 52 => ⟨S220000, .i32⟩
  | 53 => ⟨S220000x1, .i32⟩
  | 54 => ⟨S220000, .f32⟩
  | 55 => ⟨S_, .i32⟩
  | 56 => ⟨S220000, .i32⟩
  | 57 => ⟨S220000, .i1⟩
  | 58 => ⟨S_, .i32⟩
  | 59 => ⟨S220000, .i32⟩
  | 60 => ⟨S220000, .i32⟩
  | 61 => ⟨S220000, .i32⟩
  | 62 => ⟨S220000x1, .i32⟩
  | 63 => ⟨S220000, .f32⟩
  | 64 => ⟨S220000, .f32⟩
  | 65 => ⟨S_, .i32⟩
  | 66 => ⟨S220000, .i32⟩
  | 67 => ⟨S220000, .i1⟩
  | 68 => ⟨S_, .i32⟩
  | 69 => ⟨S220000, .i32⟩
  | 70 => ⟨S220000, .i32⟩
  | 71 => ⟨S220000, .i32⟩
  | 72 => ⟨S220000x1, .i32⟩
  | 73 => ⟨S220000x128, .f32⟩
  | 74 => ⟨S220000x1, .f32⟩
  | 75 => ⟨S220000x128, .f32⟩
  | 76 => ⟨S220000x128, .f32⟩
  | 77 => ⟨S_, .f32⟩
  | 78 => ⟨S100000x128, .f32⟩
  | 79 => ⟨S220000x1, .i32⟩
  | 80 => ⟨S100000x128, .f32⟩
  | 81 => ⟨S100000, .f32⟩
  | 82 => ⟨S100000x1, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x1, .f32⟩
  | 93 => ⟨S_, .f32⟩
  | 94 => ⟨S220000, .f32⟩
  | 95 => ⟨S_, .f32⟩
  | 96 => ⟨S100000, .f32⟩
  | 97 => ⟨S220000x1, .i32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S220000, .i32⟩
  | 105 => ⟨S220000, .i1⟩
  | 106 => ⟨S_, .i32⟩
  | 107 => ⟨S220000, .i32⟩
  | 108 => ⟨S220000, .i32⟩
  | 109 => ⟨S220000, .i32⟩
  | 110 => ⟨S220000x1, .i32⟩
  | 111 => ⟨S220000, .f32⟩
  | 112 => ⟨S_, .i32⟩
  | 113 => ⟨S220000, .i32⟩
  | 114 => ⟨S220000, .i1⟩
  | 115 => ⟨S_, .i32⟩
  | 116 => ⟨S220000, .i32⟩
  | 117 => ⟨S220000, .i32⟩
  | 118 => ⟨S220000, .i32⟩
  | 119 => ⟨S220000x1, .i32⟩
  | 120 => ⟨S220000, .f32⟩
  | 121 => ⟨S220000, .f32⟩
  | 122 => ⟨S_, .i32⟩
  | 123 => ⟨S220000, .i32⟩
  | 124 => ⟨S220000, .i1⟩
  | 125 => ⟨S_, .i32⟩
  | 126 => ⟨S220000, .i32⟩
  | 127 => ⟨S220000, .i32⟩
  | _ => ⟨S100000x1, .i32⟩

abbrev hbmTy0_1 (i : Nat) : BufTy := match i % 128 with
  | 0 => ⟨S220000, .i32⟩
  | 1 => ⟨S220000x1, .i32⟩
  | 2 => ⟨S220000x1, .f32⟩
  | 3 => ⟨S220000x1, .f32⟩
  | 4 => ⟨S220000x1, .f32⟩
  | 5 => ⟨S_, .f32⟩
  | 6 => ⟨S100000x1, .f32⟩
  | 7 => ⟨S220000x1, .i32⟩
  | 8 => ⟨S100000x1, .f32⟩
  | 9 => ⟨S100000, .f32⟩
  | 10 => ⟨S100000x1, .f32⟩
  | 11 => ⟨S100000x1, .f32⟩
  | 12 => ⟨S100000x1, .f32⟩
  | 13 => ⟨S1x1, .f32⟩
  | 14 => ⟨S100000x1, .f32⟩
  | 15 => ⟨S100000x1, .f32⟩
  | 16 => ⟨S1x220000, .i32⟩
  | 17 => ⟨S220000, .i32⟩
  | 18 => ⟨S1x220000, .i32⟩
  | 19 => ⟨S220000, .i32⟩
  | 20 => ⟨S100000x128, .f32⟩
  | 21 => ⟨S_, .f32⟩
  | 22 => ⟨S220000, .f32⟩
  | 23 => ⟨S_, .f32⟩
  | 24 => ⟨S100000, .f32⟩
  | 25 => ⟨S220000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S220000, .i32⟩
  | 33 => ⟨S220000, .i1⟩
  | 34 => ⟨S_, .i32⟩
  | 35 => ⟨S220000, .i32⟩
  | 36 => ⟨S220000, .i32⟩
  | 37 => ⟨S220000, .i32⟩
  | 38 => ⟨S220000x1, .i32⟩
  | 39 => ⟨S220000, .f32⟩
  | 40 => ⟨S_, .i32⟩
  | 41 => ⟨S220000, .i32⟩
  | 42 => ⟨S220000, .i1⟩
  | 43 => ⟨S_, .i32⟩
  | 44 => ⟨S220000, .i32⟩
  | 45 => ⟨S220000, .i32⟩
  | 46 => ⟨S220000, .i32⟩
  | 47 => ⟨S220000x1, .i32⟩
  | 48 => ⟨S220000, .f32⟩
  | 49 => ⟨S220000, .f32⟩
  | 50 => ⟨S_, .i32⟩
  | 51 => ⟨S220000, .i32⟩
  | 52 => ⟨S220000, .i1⟩
  | 53 => ⟨S_, .i32⟩
  | 54 => ⟨S220000, .i32⟩
  | 55 => ⟨S220000, .i32⟩
  | 56 => ⟨S220000, .i32⟩
  | 57 => ⟨S220000x1, .i32⟩
  | 58 => ⟨S220000x128, .f32⟩
  | 59 => ⟨S220000x1, .f32⟩
  | 60 => ⟨S220000x128, .f32⟩
  | 61 => ⟨S220000x128, .f32⟩
  | 62 => ⟨S_, .f32⟩
  | 63 => ⟨S100000x128, .f32⟩
  | 64 => ⟨S220000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x1, .f32⟩
  | 78 => ⟨S_, .f32⟩
  | 79 => ⟨S220000, .f32⟩
  | 80 => ⟨S_, .f32⟩
  | 81 => ⟨S100000, .f32⟩
  | 82 => ⟨S220000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .i32⟩
  | 89 => ⟨S220000, .i32⟩
  | 90 => ⟨S220000, .i1⟩
  | 91 => ⟨S_, .i32⟩
  | 92 => ⟨S220000, .i32⟩
  | 93 => ⟨S220000, .i32⟩
  | 94 => ⟨S220000, .i32⟩
  | 95 => ⟨S220000x1, .i32⟩
  | 96 => ⟨S220000, .f32⟩
  | 97 => ⟨S_, .i32⟩
  | 98 => ⟨S220000, .i32⟩
  | 99 => ⟨S220000, .i1⟩
  | 100 => ⟨S_, .i32⟩
  | 101 => ⟨S220000, .i32⟩
  | 102 => ⟨S220000, .i32⟩
  | 103 => ⟨S220000, .i32⟩
  | 104 => ⟨S220000x1, .i32⟩
  | 105 => ⟨S220000, .f32⟩
  | 106 => ⟨S220000, .f32⟩
  | 107 => ⟨S_, .i32⟩
  | 108 => ⟨S220000, .i32⟩
  | 109 => ⟨S220000, .i1⟩
  | 110 => ⟨S_, .i32⟩
  | 111 => ⟨S220000, .i32⟩
  | 112 => ⟨S220000, .i32⟩
  | 113 => ⟨S220000, .i32⟩
  | 114 => ⟨S220000x1, .i32⟩
  | 115 => ⟨S220000x1, .f32⟩
  | 116 => ⟨S220000x1, .f32⟩
  | 117 => ⟨S220000x1, .f32⟩
  | 118 => ⟨S_, .f32⟩
  | 119 => ⟨S100000x1, .f32⟩
  | 120 => ⟨S220000x1, .i32⟩
  | 121 => ⟨S100000x1, .f32⟩
  | 122 => ⟨S100000, .f32⟩
  | 123 => ⟨S100000x1, .f32⟩
  | 124 => ⟨S100000x1, .f32⟩
  | 125 => ⟨S100000x1, .f32⟩
  | 126 => ⟨S1x1, .f32⟩
  | 127 => ⟨S100000x1, .f32⟩
  | _ => ⟨S100000x1, .i32⟩

abbrev hbmTy0_2 (i : Nat) : BufTy := match i % 128 with
  | 0 => ⟨S100000x1, .f32⟩
  | 1 => ⟨S100000x1, .f32⟩
  | 2 => ⟨S_, .f32⟩
  | 3 => ⟨S4096x1, .f32⟩
  | 4 => ⟨S100000x1, .i32⟩
  | 5 => ⟨S4096x1, .f32⟩
  | 6 => ⟨S4096, .f32⟩
  | _ => ⟨S100000x1, .i32⟩

abbrev hbmTy (i : Nat) : BufTy := match i / 128 with
  | 0 => hbmTy0_0 i
  | 1 => hbmTy0_1 i
  | 2 => hbmTy0_2 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call0_cst : Ref sig .tc := ⟨.hbm, 89, rfl⟩
abbrev main_call0_v0 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_15 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_17 : Ref sig .tc := ⟨.hbm, 122, rfl⟩
abbrev main_v85 : Ref sig .tc := ⟨.hbm, 123, rfl⟩
abbrev main_v86 : Ref sig .tc := ⟨.hbm, 124, rfl⟩
abbrev main_c_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_cst_21 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_22 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_23 : Ref sig .tc := ⟨.hbm, 159, rfl⟩
abbrev main_v116 : Ref sig .tc := ⟨.hbm, 160, rfl⟩
abbrev main_v117 : Ref sig .tc := ⟨.hbm, 161, rfl⟩
abbrev main_c_24 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_25 : Ref sig .tc := ⟨.hbm, 168, rfl⟩
abbrev main_v123 : Ref sig .tc := ⟨.hbm, 169, rfl⟩
abbrev main_v124 : Ref sig .tc := ⟨.hbm, 170, rfl⟩
abbrev main_c_26 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_27 : Ref sig .tc := ⟨.hbm, 178, rfl⟩
abbrev main_v131 : Ref sig .tc := ⟨.hbm, 179, rfl⟩
abbrev main_v132 : Ref sig .tc := ⟨.hbm, 180, rfl⟩
abbrev main_c_28 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_29 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_call1_cst : Ref sig .tc := ⟨.hbm, 202, rfl⟩
abbrev main_call1_v0 : Ref sig .tc := ⟨.hbm, 203, rfl⟩
abbrev main_v152 : Ref sig .tc := ⟨.hbm, 204, rfl⟩
abbrev main_v153 : Ref sig .tc := ⟨.hbm, 205, rfl⟩
abbrev main_cst_30 : Ref sig .tc := ⟨.hbm, 206, rfl⟩
abbrev main_v154 : Ref sig .tc := ⟨.hbm, 207, rfl⟩
abbrev main_cst_31 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_32 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_c_33 : Ref sig .tc := ⟨.hbm, 216, rfl⟩
abbrev main_v161 : Ref sig .tc := ⟨.hbm, 217, rfl⟩
abbrev main_v162 : Ref sig .tc := ⟨.hbm, 218, rfl⟩
abbrev main_c_34 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_35 : Ref sig .tc := ⟨.hbm, 225, rfl⟩
abbrev main_v168 : Ref sig .tc := ⟨.hbm, 226, rfl⟩
abbrev main_v169 : Ref sig .tc := ⟨.hbm, 227, rfl⟩
abbrev main_c_36 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_c_37 : Ref sig .tc := ⟨.hbm, 235, rfl⟩
abbrev main_v176 : Ref sig .tc := ⟨.hbm, 236, rfl⟩
abbrev main_v177 : Ref sig .tc := ⟨.hbm, 237, rfl⟩
abbrev main_c_38 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_39 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_40 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x220000_S1x220000_0_0 : S2x220000.Slices ![0, 0] S1x220000
  shapeCasts_S1x220000_S220000 : S1x220000.ShapeCasts S220000
  slices_S2x220000_S1x220000_1_0 : S2x220000.Slices ![1, 0] S1x220000
  bcast_S_S220000 : S_.BroadcastsInDim S220000 (![] : Fin 0 → Fin S220000.rank)
  bcast_S220000_S220000x1_0 : S220000.BroadcastsInDim S220000x1 (![0] : Fin 1 → Fin S220000x1.rank)
  bcast_S220000x1_S220000x128_0_1 : S220000x1.BroadcastsInDim S220000x128 (![0, 1] : Fin 2 → Fin S220000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S4096x1 : S_.BroadcastsInDim S4096x1 (![] : Fin 0 → Fin S4096x1.rank)
  shapeCasts_S4096x1_S4096 : S4096x1.ShapeCasts S4096
  gather_S28x128_S100000x1_S100000x128_1_0_n_n_0_1_1128_wf : GatherDims.WF S28x128 S100000x1 S100000x128 [1] [0] [] [0] [] 1 ![1, 128]
  dot_S100000x5_S5x128_S100000x128_1_0_0_1_n_n_wf : DotDims.WF S100000x5 S5x128 S100000x128 [1] [0] [0] [1] [] []
  dot_S100000x128_S128x128_S100000x128_1_0_0_1_n_n_wf : DotDims.WF S100000x128 S128x128 S100000x128 [1] [0] [0] [1] [] []
  scatter_S100000_S220000x1_S220000_n_0_0_1_wf : ScatterDims.WF S100000 S220000x1 S220000 [] [0] [0] 1
  gather_S100000_S220000x1_S220000_n_0_n_n_0_1_1_wf : GatherDims.WF S100000 S220000x1 S220000 [] [0] [] [0] [] 1 ![1]
  gather_S100000x128_S220000x1_S220000x128_1_0_n_n_0_1_1128_wf : GatherDims.WF S100000x128 S220000x1 S220000x128 [1] [0] [] [0] [] 1 ![1, 128]
  scatter_S100000x128_S220000x1_S220000x128_1_0_0_1_wf : ScatterDims.WF S100000x128 S220000x1 S220000x128 [1] [0] [0] 1
  dot_S100000x128_S128x1_S100000x1_1_0_0_1_n_n_wf : DotDims.WF S100000x128 S128x1 S100000x1 [1] [0] [0] [1] [] []
  gather_S100000x1_S220000x1_S220000x1_1_0_n_n_0_1_11_wf : GatherDims.WF S100000x1 S220000x1 S220000x1 [1] [0] [] [0] [] 1 ![1, 1]
  scatter_S100000x1_S220000x1_S220000x1_1_0_0_1_wf : ScatterDims.WF S100000x1 S220000x1 S220000x1 [1] [0] [0] 1
  scatter_S4096x1_S100000x1_S100000x1_1_0_0_1_wf : ScatterDims.WF S4096x1 S100000x1 S100000x1 [1] [0] [0] 1

variable [Facts₀]

def gather_S28x128_S100000x1_S100000x128_1_0_n_n_0_1_1128 : GatherDims S28x128 S100000x1 S100000x128 where
  offsetDims := [1]
  collapsedSliceDims := [0]
  operandBatchingDims := []
  startIndicesBatchingDims := []
  startIndexMap := [0]
  indexVectorDim := 1
  sliceSizes := ![1, 128]
  wf := gather_S28x128_S100000x1_S100000x128_1_0_n_n_0_1_1128_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S220000x1_S220000_n_0_0_1 : ScatterDims S100000 S220000x1 S220000 where
  updateWindowDims := []
  insertedWindowDims := [0]
  scatterDimsToOperandDims := [0]
  indexVectorDim := 1
  wf := scatter_S100000_S220000x1_S220000_n_0_0_1_wf
def gather_S100000_S220000x1_S220000_n_0_n_n_0_1_1 : GatherDims S100000 S220000x1 S220000 where
  offsetDims := []
  collapsedSliceDims := [0]
  operandBatchingDims := []
  startIndicesBatchingDims := []
  startIndexMap := [0]
  indexVectorDim := 1
  sliceSizes := ![1]
  wf := gather_S100000_S220000x1_S220000_n_0_n_n_0_1_1_wf
def gather_S100000x128_S220000x1_S220000x128_1_0_n_n_0_1_1128 : GatherDims S100000x128 S220000x1 S220000x128 where
  offsetDims := [1]
  collapsedSliceDims := [0]
  operandBatchingDims := []
  startIndicesBatchingDims := []
  startIndexMap := [0]
  indexVectorDim := 1
  sliceSizes := ![1, 128]
  wf := gather_S100000x128_S220000x1_S220000x128_1_0_n_n_0_1_1128_wf
def scatter_S100000x128_S220000x1_S220000x128_1_0_0_1 : ScatterDims S100000x128 S220000x1 S220000x128 where
  updateWindowDims := [1]
  insertedWindowDims := [0]
  scatterDimsToOperandDims := [0]
  indexVectorDim := 1
  wf := scatter_S100000x128_S220000x1_S220000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S220000x1_S220000x1_1_0_n_n_0_1_11 : GatherDims S100000x1 S220000x1 S220000x1 where
  offsetDims := [1]
  collapsedSliceDims := [0]
  operandBatchingDims := []
  startIndicesBatchingDims := []
  startIndexMap := [0]
  indexVectorDim := 1
  sliceSizes := ![1, 1]
  wf := gather_S100000x1_S220000x1_S220000x1_1_0_n_n_0_1_11_wf
def scatter_S100000x1_S220000x1_S220000x1_1_0_0_1 : ScatterDims S100000x1 S220000x1 S220000x1 where
  updateWindowDims := [1]
  insertedWindowDims := [0]
  scatterDimsToOperandDims := [0]
  indexVectorDim := 1
  wf := scatter_S100000x1_S220000x1_S220000x1_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf

class Facts : Prop extends Facts₀ where

variable [Facts]
-- ==== Proof.EdgeOps.lean ====
/-
  The edge-side operations of one graph-convolution branch, named once so that both programs' host chains can be stated
  over them. `s` and `d` are the source and destination node of each of the 220000 edges.

  * `wrapI k v`  : numpy-style index wrap, `v + k` where `v < 0`.
  * `colI v`     : an index vector laid as a column of start indices.
  * `takeI v o`  : `v[o]` for an edge-indexed integer vector.
  * `argsortI d` : the stable argsort of `d`.
  * `dinvI d`    : `rsqrt(1 + in-degree)` per node.
  * `coefI`      : the symmetric normalisation `dinv[s] · dinv[d]` per edge.
  * `agg128I`, `agg1I` : `segment_sum(h[s] · coef, d)` for 128 feature columns and for one.
-/
import proofs.«428299_j83202106458535_3_alg».proof.Proof.Gen.KernelIdeal

noncomputable section

namespace Cert.KernelIdeal.Edge

open Cert.KernelIdeal Cert.KernelIdeal.Gen Idealize.ShloMosaic

variable {F : FTy → Type} [FloatOps F]

/-- numpy-style wrap of an edge-indexed index vector: `v + k` where `v < 0`, else `v`. -/
def wrapI (k : BitVec 32) (v : IVec S220000 32) : IVec S220000 32 :=
  select (cmpi .slt v (broadcastInDim S220000 ![] bcast_S_S220000 (constantI S_ 32 0#32)))
    (addi v (broadcastInDim S220000 ![] bcast_S_S220000 (constantI S_ 32 k))) v

/-- An edge-indexed vector as a column. -/
def colI {α : Type} (v : S220000.Idx → α) : S220000x1.Idx → α :=
  broadcastInDim S220000x1 ![0] bcast_S220000_S220000x1_0 v

/-- `v[o]` for edge-indexed integer vectors (the positions wrapped at 220000, then clamped by the gather). -/
def takeI (v o : IVec S220000 32) : IVec S220000 32 :=
  Host.gather gather_S220000_S220000x1_S220000_n_0_n_n_0_1_1 v (colI (wrapI 220000#32 o))

/-- The stable argsort of the destinations. -/
def argsortI (d : IVec S220000 32) : IVec S220000 32 :=
  (Host.sort2 S220000 0 comparator_i32_i32_d0 d (iotaInDim S220000 32 0)).2

/-- `rsqrt(1 + in-degree)`: ones scattered onto the destinations, plus one, inverse square root. -/
def dinvI (d : IVec S220000 32) : FVec F S100000 .f32 :=
  Host.rsqrt (addf (Host.scatterAdd scatter_S100000_S220000x1_S220000_n_0_0_1
      (broadcastInDim S100000 ![] bcast_S_S100000 (constant S_ .f32 0x00000000#32)) (colI d)
      (broadcastInDim S220000 ![] bcast_S_S220000 (constant S_ .f32 0x3F800000#32)))
    (broadcastInDim S100000 ![] bcast_S_S100000 (constant S_ .f32 0x3F800000#32)))

/-- `dinv[s] · dinv[d]` per edge (node indices wrapped at 100000, then clamped by the gather). -/
def coefI (dinv : FVec F S100000 .f32) (s d : IVec S220000 32) : FVec F S220000 .f32 :=
  mulf (Host.gather gather_S100000_S220000x1_S220000_n_0_n_n_0_1_1 dinv (colI (wrapI 100000#32 s)))
    (Host.gather gather_S100000_S220000x1_S220000_n_0_n_n_0_1_1 dinv (colI (wrapI 100000#32 d)))

/-- `segment_sum(h[s] · coef, d)` over 128 feature columns. -/
def agg128I (h : FVec F S100000x128 .f32) (coef : FVec F S220000 .f32) (s d : IVec S220000 32) : FVec F S100000x128 .f32 :=
  Host.scatterAdd scatter_S100000x128_S220000x1_S220000x128_1_0_0_1
    (broadcastInDim S100000x128 ![] bcast_S_S100000x128 (constant S_ .f32 0x00000000#32)) (colI d)
    (mulf (Host.gather gather_S100000x128_S220000x1_S220000x128_1_0_n_n_0_1_1128 h (colI (wrapI 100000#32 s)))
      (broadcastInDim S220000x128 ![0, 1] bcast_S220000x1_S220000x128_0_1 (colI coef)))

/-- `segment_sum(hh[s] · coef, d)` over one feature column. -/
def agg1I (hh : FVec F S100000x1 .f32) (coef : FVec F S220000 .f32) (s d : IVec S220000 32) : FVec F S100000x1 .f32 :=
  Host.scatterAdd scatter_S100000x1_S220000x1_S220000x1_1_0_0_1
    (broadcastInDim S100000x1 ![] bcast_S_S100000x1 (constant S_ .f32 0x00000000#32)) (colI d)
    (mulf (Host.gather gather_S100000x1_S220000x1_S220000x1_1_0_n_n_0_1_11 hh (colI (wrapI 100000#32 s))) (colI coef))

end Cert.KernelIdeal.Edge

end
-- ==== Proof.Spec.lean ====
/-
  The arithmetic of the three fused kernels, stated index by index over the extended reals.

  * `xSpec`  : node features. Row `n` is the embedding row of the node's token (the token clipped into
    the 28-row table, which sits in the first rows of a 32-row zero-padded table) plus the 5-term
    positional projection `∑ k, pe[n,k] · Wt[k,j]` plus the bias.
  * `hLo`, `hHi` : the first-layer products of both branches, read off one product with the two weight
    matrices laid side by side: columns `j` and `128 + j` of the 256-column matrix.
  * `mmSpec` : a plain matrix product over the rows.
  * `hhSpec` : the fused layer-1 combine and layer-2 product: `relu(agg + h · d² + b) @ W2`.
-/
import Idealize.ShloMosaic.Lib.ValueIdx
import Idealize.ShloMosaic.PureOps.Ideal.Laws

noncomputable section

namespace Cert.Spec

open Idealize.ShloMosaic Idealize.ShloMosaic.ValueIdx

/-- The table row a token reads once clipped into `[0, 27]`. -/
def tokRow (t : BitVec 32) : Fin 32 := ⟨min (max t.toInt 0).toNat 27, by omega⟩

/-- Node features: embedding row of the clipped token, plus the positional projection, plus the bias. -/
def xSpec (tok : IVec ⟨2, ![100000, 1]⟩ 32) (pe : FVec Ideal ⟨2, ![100000, 5]⟩ .f32) (emb : FVec Ideal ⟨2, ![32, 128]⟩ .f32)
    (wt : FVec Ideal ⟨2, ![5, 128]⟩ .f32) (bt : FVec Ideal ⟨2, ![1, 128]⟩ .f32) : FVec Ideal ⟨2, ![100000, 128]⟩ .f32 :=
  fun i => (emb (ix2 (tokRow (tok (ix2 (i 0 : Fin 100000) (0 : Fin 1)))) (i 1 : Fin 128))
    + ∑ k : Fin 5, pe (ix2 (i 0 : Fin 100000) k) * wt (ix2 k (i 1 : Fin 128))) + bt (ix2 (0 : Fin 1) (i 1 : Fin 128))

/-- A matrix product over the node rows. -/
def mmSpec {K M : Nat} (x : FVec Ideal ⟨2, ![100000, K]⟩ .f32) (w : FVec Ideal ⟨2, ![K, M]⟩ .f32) :
    FVec Ideal ⟨2, ![100000, M]⟩ .f32 :=
  fun i => ∑ k : Fin K, x (ix2 (i 0 : Fin 100000) k) * w (ix2 k (i 1 : Fin M))

/-- Columns `0 … 127` of the product with the side-by-side weights. -/
def hLo (x : FVec Ideal ⟨2, ![100000, 128]⟩ .f32) (wcat : FVec Ideal ⟨2, ![128, 256]⟩ .f32) :
    FVec Ideal ⟨2, ![100000, 128]⟩ .f32 :=
  fun i => ∑ k : Fin 128, x (ix2 (i 0 : Fin 100000) k) * wcat (ix2 k (Fin.castLE (by decide) (i 1 : Fin 128) : Fin 256))

/-- Columns `128 … 255` of the product with the side-by-side weights. -/
def hHi (x : FVec Ideal ⟨2, ![100000, 128]⟩ .f32) (wcat : FVec Ideal ⟨2, ![128, 256]⟩ .f32) :
    FVec Ideal ⟨2, ![100000, 128]⟩ .f32 :=
  fun i => ∑ k : Fin 128, x (ix2 (i 0 : Fin 100000) k) * wcat (ix2 k (Fin.natAdd 128 (i 1 : Fin 128) : Fin 256))

/-- The fused combine: `relu(agg + h · d² + b)` contracted with the layer-2 weights. -/
def hhSpec (agg h : FVec Ideal ⟨2, ![100000, 128]⟩ .f32) (dsq : FVec Ideal ⟨2, ![100000, 1]⟩ .f32)
    (b : FVec Ideal ⟨2, ![1, 128]⟩ .f32) (w2 : FVec Ideal ⟨2, ![128, 1]⟩ .f32) : FVec Ideal ⟨2, ![100000, 1]⟩ .f32 :=
  fun i => ∑ k : Fin 128,
    max ((agg (ix2 (i 0 : Fin 100000) k) + h (ix2 (i 0 : Fin 100000) k) * dsq (ix2 (i 0 : Fin 100000) (0 : Fin 1)))
      + b (ix2 (0 : Fin 1) k)) 0 * w2 (ix2 k (i 1 : Fin 1))

end Cert.Spec

end
-- ==== Proof.KVal.lean ====
/-
  Both programs' results as functions of the sixteen argument arrays, over the extended reals.

  `finI (out₁) (out₂) batch` pools the sum of the two branches' node outputs over the graphs of the batch.
  A branch's node output is `agg₂ + hh · d² + b₂` with `hh = relu(agg₁ + h · d² + b₁) @ W₂`,
  `agg₁ = segment_sum(h[s] · coef, d)`, `agg₂ = segment_sum(hh[s] · coef, d)`, `coef = dinv[s] · dinv[d]`,
  `dinv = rsqrt(1 + in-degree)`, `d² = dinv · dinv`.
  * `outK` is the branch as the fused program computes it: the edges are first put in the stable order of their destinations
    (`takeI · (argsortI d)`), the degree vector is laid as a column by a reshape, and `hh` is the fused kernel's value `hhSpec`.
  * `outR` is the branch as the plain program computes it: the edges as given, the column forms by broadcasts, `hh` by the
    host's maximum and matrix product.
-/
import proofs.«428299_j83202106458535_3_alg».proof.Proof.EdgeOps
import proofs.«428299_j83202106458535_3_alg».proof.Proof.Spec

noncomputable section

namespace Cert.KernelIdeal.KVal

open Cert.KernelIdeal Cert.KernelIdeal.Gen Cert.KernelIdeal.Edge Idealize.ShloMosaic

/-- The bias as a one-row matrix. -/
def rowK (b : FVec Ideal S128 .f32) : FVec Ideal S1x128 .f32 := shapeCast S1x128 b shapeCasts_S128_S1x128

/-- The two first-layer weight matrices side by side. -/
def wcatK (w wv : FVec Ideal S128x128 .f32) : FVec Ideal S128x256 .f32 :=
  concatenate S128x256 1 [⟨S128x128, w⟩, ⟨S128x128, wv⟩] concatenates_S128x128_S128x128_S128x256_d1

/-- The embedding table padded with four zero rows. -/
def embPadK (e : FVec Ideal S28x128 .f32) : FVec Ideal S32x128 .f32 :=
  pad S32x128 ![0, 0] ![4, 0] ![0, 0] e (sitofp .f32 (constantI S_ 32 0#32)) pads_S28x128_S32x128_040_000 h_S_

/-- Row `r` of the edge list as a vector. -/
def srcI (e : IVec S2x220000 32) : IVec S220000 32 :=
  shapeCast S220000 (extractStridedSlice S1x220000 ![0, 0] e slices_S2x220000_S1x220000_0_0) shapeCasts_S1x220000_S220000
def dstI (e : IVec S2x220000 32) : IVec S220000 32 :=
  shapeCast S220000 (extractStridedSlice S1x220000 ![1, 0] e slices_S2x220000_S1x220000_1_0) shapeCasts_S1x220000_S220000

/-- `d²` as a column, by a reshape. -/
def dsqK (dinv : FVec Ideal S100000 .f32) : FVec Ideal S100000x1 .f32 :=
  shapeCast S100000x1 (mulf dinv dinv) shapeCasts_S100000_S100000x1

/-- The layer-2 bias over the node column, through a reshape to `[1, 1]`. -/
def b2K (b2 : FVec Ideal S1 .f32) : FVec Ideal S100000x1 .f32 :=
  broadcastInDim S100000x1 ![0, 1] bcast_S1x1_S100000x1_0_1 (shapeCast S1x1 b2 shapeCasts_S1_S1x1)

/-- One branch as the fused program computes it, from the first-layer product `h`. -/
def outK (h : FVec Ideal S100000x128 .f32) (e : IVec S2x220000 32) (b1 : FVec Ideal S128 .f32) (w2 : FVec Ideal S128x1 .f32)
    (b2 : FVec Ideal S1 .f32) : FVec Ideal S100000x1 .f32 :=
  let d := dstI e
  let o := argsortI d
  let ss := takeI (srcI e) o
  let ds := takeI d o
  let dinv : FVec Ideal S100000 .f32 := dinvI d
  let coef := coefI dinv ss ds
  let hh : FVec Ideal S100000x1 .f32 := Cert.Spec.hhSpec (agg128I h coef ss ds) h (dsqK dinv) (rowK b1) w2
  addf (addf (agg1I hh coef ss ds) (mulf hh (dsqK dinv))) (b2K b2)

/-- The host matrix product `[100000, 128] @ [128, 1]`. -/
def dotCol : DotDims S100000x128 S128x1 S100000x1 where
  lhsContracting := [1]
  rhsContracting := [0]
  lhsNonContracting := [0]
  rhsNonContracting := [1]
  lhsBatch := []
  rhsBatch := []
  wf := by decide

/-- One branch as the plain program computes it, from the first-layer product `h`. -/
def outR (h : FVec Ideal S100000x128 .f32) (e : IVec S2x220000 32) (b1 : FVec Ideal S128 .f32) (w2 : FVec Ideal S128x1 .f32)
    (b2 : FVec Ideal S1 .f32) : FVec Ideal S100000x1 .f32 :=
  let s := srcI e
  let d := dstI e
  let dinv : FVec Ideal S100000 .f32 := dinvI d
  let coef := coefI dinv s d
  let dcol : FVec Ideal S100000x1 .f32 := broadcastInDim S100000x1 ![0] bcast_S100000_S100000x1_0 (mulf dinv dinv)
  let pre : FVec Ideal S100000x128 .f32 :=
    addf (addf (agg128I h coef s d) (mulf h (broadcastInDim S100000x128 ![0, 1] (by decide) dcol)))
      (broadcastInDim S100000x128 ![0, 1] (by decide) (broadcastInDim S1x128 ![1] (by decide) b1))
  let hh : FVec Ideal S100000x1 .f32 :=
    Host.dotGeneral dotCol none
      (maximumf pre (broadcastInDim S100000x128 ![] bcast_S_S100000x128 (constant S_ .f32 0x00000000#32))) w2
  addf (addf (agg1I hh coef s d) (mulf hh dcol))
    (broadcastInDim S100000x1 ![0, 1] bcast_S1x1_S100000x1_0_1 (broadcastInDim S1x1 ![1] (by decide) b2))

/-- The pooled sum of the two branches over the graphs of the batch. -/
def finI (o1 o2 : FVec Ideal S100000x1 .f32) (batch : IVec S100000 32) : FVec Ideal S4096 .f32 :=
  shapeCast S4096 (Host.scatterAdd scatter_S4096x1_S100000x1_S100000x1_1_0_0_1
    (broadcastInDim S4096x1 ![] bcast_S_S4096x1 (constant S_ .f32 0x00000000#32))
    (broadcastInDim S100000x1 ![0] bcast_S100000_S100000x1_0 batch) (addf o1 o2)) shapeCasts_S4096x1_S4096

end Cert.KernelIdeal.KVal

end
-- ==== Proof.Reg0.lean ====
/-
  What the first fused kernel leaves in its three output arrays, as functions of the arrays it reads: every 4000-row block of
  an output is the body's value on the same rows of the inputs, and the 25 blocks tile the 100000 rows.
-/
import proofs.«428299_j83202106458535_3_alg».proof.Proof.Gen.KernelIdeal.Frame
import proofs.«428299_j83202106458535_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem clip_toNat (t : BitVec 32) :
    (IntOp.minsi 27#32 (IntOp.maxsi 0#32 t)).toNat = min (max t.toInt 0).toNat 27 := by
  unfold IntOp.minsi IntOp.maxsi
  by_cases h0 : t.slt 0#32 = true
  · rw [if_pos h0]
    have : t.toInt < 0 := by simpa [BitVec.slt_iff_toInt_lt] using h0
    simp
    omega
  · rw [if_neg h0]
    have h0' : 0 ≤ t.toInt := by
      have := h0
      rw [BitVec.slt_iff_toInt_lt] at this
      simpa using this
    have hn : t.toInt = (t.toNat : Int) := by
      rw [BitVec.toInt_eq_toNat_cond] at h0' ⊢
      split at h0' <;> rename_i hc
      · rw [if_pos hc]
      · exfalso; have := t.isLt; omega
    by_cases h1 : (27#32).slt t = true
    · rw [if_pos h1]
      have : (27 : Int) < t.toInt := by simpa [BitVec.slt_iff_toInt_lt] using h1
      simp
      omega
    · rw [if_neg h1]
      have : t.toInt ≤ 27 := by
        have := h1
        rw [BitVec.slt_iff_toInt_lt] at this
        simpa using this
      omega

theorem onehot_bit (t : BitVec 32) (k : Fin 32) :
    IntOp.cmpi .eq (BitVec.ofNat 32 k.val) (IntOp.minsi 27#32 (IntOp.maxsi 0#32 t)) = if k = Cert.Spec.tokRow t then 1#1 else 0#1 := by
  have hc := clip_toNat t
  unfold IntOp.cmpi
  show BitVec.ofBool (BitVec.ofNat 32 k.val == _) = _
  by_cases hk : k = Cert.Spec.tokRow t
  · rw [if_pos hk]
    have : BitVec.ofNat 32 k.val = IntOp.minsi 27#32 (IntOp.maxsi 0#32 t) := by
      apply BitVec.eq_of_toNat_eq
      rw [hc, hk]
      simp [Cert.Spec.tokRow]
    rw [this]; simp
  · rw [if_neg hk]
    have : BitVec.ofNat 32 k.val ≠ IntOp.minsi 27#32 (IntOp.maxsi 0#32 t) := by
      intro h
      apply hk
      apply Fin.ext
      have h2 := congrArg BitVec.toNat h
      rw [hc] at h2
      simp at h2
      simp [Cert.Spec.tokRow]
      have := k.isLt
      omega
    rw [show (BitVec.ofNat 32 k.val == IntOp.minsi 27#32 (IntOp.maxsi 0#32 t)) = false from beq_eq_false_iff_ne.mpr this]
    rfl

theorem lhs5_0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
theorem lhs5_1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
theorem rhs5_0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
theorem rhs5_1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- The one-hot product read at an index: the sum over the 32 table rows. -/
theorem matmul5_apply (l : FVec Ideal S4000x32 .f32) (r : FVec Ideal S32x128 .f32) (p : Fin 4000) (q : Fin 128) :
    matmul dot_S4000x32_S32x128_S4000x128_1_0_0_1_n_n (some .fp32) l r (constant (F := Ideal) S4000x128 .f32 0x00000000#32) (ix2 p q)
      = ∑ k : Fin 32, l (ix2 p k) * r (ix2 k q) := by
  refine (Ideal.matmul_constant_zero_apply dot_S4000x32_S32x128_S4000x128_1_0_0_1_n_n (some .fp32) l r (ix2 p q)).trans ?_
  rw [← Equiv.sum_comp (contrEquiv1 dot_S4000x32_S32x128_S4000x128_1_0_0_1_n_n 32 rfl rfl).symm]
  refine Finset.sum_congr rfl fun k _ => ?_
  have hk := contrEquiv1_symm_val dot_S4000x32_S32x128_S4000x128_1_0_0_1_n_n 32 rfl rfl k
  have el : dot_S4000x32_S32x128_S4000x128_1_0_0_1_n_n.lhsIdx (ix2 p q) ((contrEquiv1 dot_S4000x32_S32x128_S4000x128_1_0_0_1_n_n 32 rfl rfl).symm k) = ix2 p k := funext fun a => Fin.ext (by
    match a with
    | ⟨0, _⟩ => exact lhs5_0 _ _
    | ⟨1, _⟩ => exact (lhs5_1 _ _).trans hk)
  have er : dot_S4000x32_S32x128_S4000x128_1_0_0_1_n_n.rhsIdx (ix2 p q) ((contrEquiv1 dot_S4000x32_S32x128_S4000x128_1_0_0_1_n_n 32 rfl rfl).symm k) = ix2 k q := funext fun a => Fin.ext (by
    match a with
    | ⟨0, _⟩ => exact (rhs5_0 _ _).trans hk
    | ⟨1, _⟩ => exact rhs5_1 _ _)
  rw [el, er]

/-- The one-hot factor at row `p`, table row `k`: one where `k` is the clipped token's row, zero elsewhere. -/
theorem onehot_apply (x0 : IVec S4000x1 32) (p : Fin 4000) (k : Fin 32) :
    (sitofp .f32 (extui 32 (cmpi .eq (iota .tc S4000x32 32 [1] iota_S4000x32_d1_w32)
        (broadcastTo S4000x32 (minsi (broadcast S4000x1 27#32) (maxsi (broadcast S4000x1 0#32) x0)) broadcasts_S4000x1_S4000x32)) natLt_1_32)
      : FVec Ideal S4000x32 .f32) (ix2 p k)
      = if k = Cert.Spec.tokRow (x0 (ix2 p (0 : Fin 1))) then (1 : EReal) else 0 := by
  have hb : broadcastTo S4000x32 (minsi (broadcast S4000x1 27#32) (maxsi (broadcast S4000x1 0#32) x0)) broadcasts_S4000x1_S4000x32 (ix2 p k)
      = IntOp.minsi 27#32 (IntOp.maxsi 0#32 (x0 (ix2 p (0 : Fin 1)))) :=
    broadcastTo_apply _ broadcasts_S4000x1_S4000x32 (ix2 p k) (ix2 p (0 : Fin 1)) (fun a => match a with
      | ⟨0, _⟩ => by show p.val = if (4000 : Nat) = 1 then 0 else p.val; rw [if_neg (by decide)]
      | ⟨1, _⟩ => by show (0 : Nat) = if (1 : Nat) = 1 then 0 else k.val; rw [if_pos rfl])
  have hi : iota .tc S4000x32 32 [1] iota_S4000x32_d1_w32 (ix2 p k) = BitVec.ofNat 32 k.val :=
    iota_single_apply .tc S4000x32 32 1 iota_S4000x32_d1_w32 (ix2 p k)
  show FloatOps.sitofp (F := Ideal) .f32 ((IntOp.cmpi .eq (iota .tc S4000x32 32 [1] iota_S4000x32_d1_w32 (ix2 p k))
      (broadcastTo S4000x32 (minsi (broadcast S4000x1 27#32) (maxsi (broadcast S4000x1 0#32) x0)) broadcasts_S4000x1_S4000x32 (ix2 p k))).setWidth 32) = _
  rw [hb, hi, onehot_bit]
  by_cases h : k = Cert.Spec.tokRow (x0 (ix2 p (0 : Fin 1)))
  · rw [if_pos h, if_pos h]
    show (((BitVec.setWidth 32 1#1).toInt : ℝ) : EReal) = 1
    simp
  · rw [if_neg h, if_neg h]
    show (((BitVec.setWidth 32 0#1).toInt : ℝ) : EReal) = 0
    simp

/-- The one-hot product is the table row of the clipped token. -/
theorem pay5_apply (x0 : Vec Ideal S4000x1 .i32) (x2 : Vec Ideal S32x128 .f32) (p : Fin 4000) (q : Fin 128) :
    k0_pay5 (F := Ideal) x0 x2 (ix2 p q) = x2 (ix2 (Cert.Spec.tokRow (x0 (ix2 p (0 : Fin 1)))) q) := by
  unfold k0_pay5
  refine (matmul5_apply _ _ p q).trans ?_
  rw [Finset.sum_eq_single (Cert.Spec.tokRow (x0 (ix2 p (0 : Fin 1))))]
  · rw [onehot_apply, if_pos rfl, shapeCast_self, one_mul]
  · intro k _ hk
    rw [onehot_apply, if_neg hk, zero_mul]
  · intro h; exact absurd (Finset.mem_univ _) h

/-- Column `o` of the positional block, spread along the 128 lanes. -/
theorem pecol_apply (x1 : Vec Ideal S4000x5 .f32) (o : Nat) (ho : o < 5) (h : S4000x5.Slices ![0, o] S4000x1)
    (p : Fin 4000) (q : Fin 128) :
    broadcastTo S4000x128 (extractStridedSlice S4000x1 ![0, o] x1 h) broadcasts_S4000x1_S4000x128 (ix2 p q)
      = x1 (ix2 p (⟨o, ho⟩ : Fin 5)) := by
  refine (broadcastTo_apply _ broadcasts_S4000x1_S4000x128 (ix2 p q) (ix2 p (0 : Fin 1)) (fun a => match a with
      | ⟨0, _⟩ => by show p.val = if (4000 : Nat) = 1 then 0 else p.val; rw [if_neg (by decide)]
      | ⟨1, _⟩ => by show (0 : Nat) = if (1 : Nat) = 1 then 0 else q.val; rw [if_pos rfl])).trans ?_
  exact extractStridedSlice_apply ![0, o] x1 h (ix2 p (0 : Fin 1)) (ix2 p (⟨o, ho⟩ : Fin 5)) (fun a => match a with
      | ⟨0, _⟩ => by show p.val = 0 + p.val; omega
      | ⟨1, _⟩ => by show o = o + 0; omega)

/-- Row `o` of the projection weights, spread along the 4000 rows. -/
theorem wtrow_apply (x3 : Vec Ideal S5x128 .f32) (o : Nat) (ho : o < 5) (h : S5x128.Slices ![o, 0] S1x128)
    (p : Fin 4000) (q : Fin 128) :
    broadcastTo S4000x128 (shapeCast S1x128 (shapeCast S128 (extractStridedSlice S1x128 ![o, 0] x3 h) shapeCasts_S1x128_S128) shapeCasts_S128_S1x128)
        broadcasts_S1x128_S4000x128 (ix2 p q)
      = x3 (ix2 (⟨o, ho⟩ : Fin 5) q) := by
  rw [shapeCast_shapeCast]
  refine (broadcastTo_apply _ broadcasts_S1x128_S4000x128 (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])).trans ?_
  exact extractStridedSlice_apply ![o, 0] x3 h (ix2 (0 : Fin 1) q) (ix2 (⟨o, ho⟩ : Fin 5) q) (fun a => match a with
      | ⟨0, _⟩ => by show o = o + 0; omega
      | ⟨1, _⟩ => by show q.val = 0 + q.val; omega)

/-- The first three terms of the positional projection. -/
theorem pay6_apply (x1 : Vec Ideal S4000x5 .f32) (x3 : Vec Ideal S5x128 .f32) (p : Fin 4000) (q : Fin 128) :
    k0_pay6 (F := Ideal) x1 x3 (ix2 p q)
      = (x1 (ix2 p (0 : Fin 5)) * x3 (ix2 (0 : Fin 5) q) + x1 (ix2 p (1 : Fin 5)) * x3 (ix2 (1 : Fin 5) q))
        + x1 (ix2 p (2 : Fin 5)) * x3 (ix2 (2 : Fin 5) q) := by
  unfold k0_pay6
  simp only [addf_apply, mulf_apply, broadcast_apply]
  rw [pecol_apply x1 0 (by decide), pecol_apply x1 1 (by decide), pecol_apply x1 2 (by decide),
    wtrow_apply x3 0 (by decide), wtrow_apply x3 1 (by decide), wtrow_apply x3 2 (by decide)]
  show ((Ideal.ofBits .f32 0x00000000#32 + _) + _) + _ = _
  rw [Ideal.ofBits_zero_f32, zero_add]
  rfl

/-- The fourth term. -/
theorem pay7_apply (x1 : Vec Ideal S4000x5 .f32) (x3 : Vec Ideal S5x128 .f32) (p : Fin 4000) (q : Fin 128) :
    k0_pay7 (F := Ideal) x1 x3 (ix2 p q) = x1 (ix2 p (3 : Fin 5)) * x3 (ix2 (3 : Fin 5) q) := by
  unfold k0_pay7
  simp only [mulf_apply]
  rw [pecol_apply x1 3 (by decide), wtrow_apply x3 3 (by decide)]
  rfl

/-- The last term, the sum with the embedding row, and the bias. -/
theorem pay1_apply (v12 : FVec Ideal S4000x128 .f32) (x1 : Vec Ideal S4000x5 .f32) (x3 : Vec Ideal S5x128 .f32)
    (v39 v46 : FVec Ideal S4000x128 .f32) (x4 : Vec Ideal S1x128 .f32) (p : Fin 4000) (q : Fin 128) :
    k0_pay1 (F := Ideal) v12 x1 x3 v39 v46 x4 (ix2 p q)
      = (v12 (ix2 p q) + ((v39 (ix2 p q) + v46 (ix2 p q)) + x1 (ix2 p (4 : Fin 5)) * x3 (ix2 (4 : Fin 5) q)))
        + x4 (ix2 (0 : Fin 1) q) := by
  unfold k0_pay1
  simp only [addf_apply, mulf_apply]
  rw [pecol_apply x1 4 (by decide), wtrow_apply x3 4 (by decide), shapeCast_self]
  rw [broadcastTo_apply x4 broadcasts_S1x128_S4000x128 (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])]
  rfl

/-- The node-feature value of one row of a block: embedding row, positional projection, bias. -/
theorem xrow_apply (x0 : Vec Ideal S4000x1 .i32) (x1 : Vec Ideal S4000x5 .f32) (x2 : Vec Ideal S32x128 .f32)
    (x3 : Vec Ideal S5x128 .f32) (x4 : Vec Ideal S1x128 .f32) (p : Fin 4000) (q : Fin 128) :
    k0_pay1 (F := Ideal) (k0_pay5 x0 x2) x1 x3 (k0_pay6 x1 x3) (k0_pay7 x1 x3) x4 (ix2 p q)
      = (x2 (ix2 (Cert.Spec.tokRow (x0 (ix2 p (0 : Fin 1)))) q) + ∑ k : Fin 5, x1 (ix2 p k) * x3 (ix2 k q))
        + x4 (ix2 (0 : Fin 1) q) := by
  rw [pay1_apply, pay5_apply, pay6_apply, pay7_apply, Fin.sum_univ_five]

theorem lhs2_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs2_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs2_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs2_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The product with the side-by-side weights read at an index: the sum over the 128 features. -/
theorem matmul2_apply (l : FVec Ideal S4000x128 .bf16) (r : FVec Ideal S128x256 .bf16) (p : Fin 4000) (j : Fin 256) :
    matmul dot_S4000x128_S128x256_S4000x256_1_0_0_1_n_n none l r (constant (F := Ideal) S4000x256 .f32 0x00000000#32) (ix2 p j)
      = ∑ k : Fin 128, l (ix2 p k) * r (ix2 k j) := by
  refine (Ideal.matmul_constant_zero_apply dot_S4000x128_S128x256_S4000x256_1_0_0_1_n_n none l r (ix2 p j)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p j) ((contrEquiv1 dot_S4000x128_S128x256_S4000x256_1_0_0_1_n_n 128 rfl rfl).symm k) = ix2 p k := funext fun a => Fin.ext (by
    match a with
    | ⟨0, _⟩ => exact lhs2_0 _ _
    | ⟨1, _⟩ => exact (lhs2_1 _ _).trans hk)
  have er : dot_S4000x128_S128x256_S4000x256_1_0_0_1_n_n.rhsIdx (ix2 p j) ((contrEquiv1 dot_S4000x128_S128x256_S4000x256_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-- The first-layer product of both branches at once: the node-feature row against a column of the side-by-side weights. -/
theorem pay2_apply (v12 : FVec Ideal S4000x128 .f32) (x1 : Vec Ideal S4000x5 .f32) (x3 : Vec Ideal S5x128 .f32)
    (v39 v46 : FVec Ideal S4000x128 .f32) (x4 : Vec Ideal S1x128 .f32) (x5 : Vec Ideal S128x256 .f32) (p : Fin 4000) (j : Fin 256) :
    k0_pay2 (F := Ideal) v12 x1 x3 v39 v46 x4 x5 (ix2 p j)
      = ∑ k : Fin 128, k0_pay1 (F := Ideal) v12 x1 x3 v39 v46 x4 (ix2 p k) * x5 (ix2 k j) := by
  unfold k0_pay2
  refine (matmul2_apply _ _ p j).trans ?_
  refine Finset.sum_congr rfl fun k _ => ?_
  rw [shapeCast_self]
  rfl

/-- Its columns 0 … 127. -/
theorem pay3_apply (v12 : FVec Ideal S4000x128 .f32) (x1 : Vec Ideal S4000x5 .f32) (x3 : Vec Ideal S5x128 .f32)
    (v39 v46 : FVec Ideal S4000x128 .f32) (x4 : Vec Ideal S1x128 .f32) (x5 : Vec Ideal S128x256 .f32) (p : Fin 4000) (q : Fin 128) :
    k0_pay3 (F := Ideal) v12 x1 x3 v39 v46 x4 x5 (ix2 p q)
      = ∑ k : Fin 128, k0_pay1 (F := Ideal) v12 x1 x3 v39 v46 x4 (ix2 p k) * x5 (ix2 k (Fin.castLE (by decide) q : Fin 256)) := by
  unfold k0_pay3
  refine (extractStridedSlice_apply ![0, 0] _ slices_S4000x256_o0_0_S4000x128 (ix2 p q) (ix2 p (Fin.castLE (by decide) q : Fin 256)) (fun a => match a with
      | ⟨0, _⟩ => by show p.val = 0 + p.val; omega
      | ⟨1, _⟩ => by show q.val = 0 + q.val; omega)).trans ?_
  exact pay2_apply v12 x1 x3 v39 v46 x4 x5 p _

/-- Its columns 128 … 255. -/
theorem pay4_apply (v12 : FVec Ideal S4000x128 .f32) (x1 : Vec Ideal S4000x5 .f32) (x3 : Vec Ideal S5x128 .f32)
    (v39 v46 : FVec Ideal S4000x128 .f32) (x4 : Vec Ideal S1x128 .f32) (x5 : Vec Ideal S128x256 .f32) (p : Fin 4000) (q : Fin 128) :
    k0_pay4 (F := Ideal) v12 x1 x3 v39 v46 x4 x5 (ix2 p q)
      = ∑ k : Fin 128, k0_pay1 (F := Ideal) v12 x1 x3 v39 v46 x4 (ix2 p k) * x5 (ix2 k (Fin.natAdd 128 q : Fin 256)) := by
  unfold k0_pay4
  refine (extractStridedSlice_apply ![0, 128] _ slices_S4000x256_o0_128_S4000x128 (ix2 p q) (ix2 p (Fin.natAdd 128 q : Fin 256)) (fun a => match a with
      | ⟨0, _⟩ => by show p.val = 0 + p.val; omega
      | ⟨1, _⟩ => by show 128 + q.val = 128 + q.val; rfl)).trans ?_
  exact pay2_apply v12 x1 x3 v39 v46 x4 x5 p _

/-- One row of a block, with the block's rows read off the arrays: the node-feature specification at that row. -/
theorem xblock_eq (tok : IVec S100000x1 32) (pe : FVec Ideal S100000x5 .f32) (emb : FVec Ideal S32x128 .f32)
    (wt : FVec Ideal S5x128 .f32) (bt : FVec Ideal S1x128 .f32)
    (x0 : Vec Ideal S4000x1 .i32) (x1 : Vec Ideal S4000x5 .f32) (x2 : Vec Ideal S32x128 .f32)
    (x3 : Vec Ideal S5x128 .f32) (x4 : Vec Ideal S1x128 .f32) (r : Fin 100000) (p : Fin 4000) (q : Fin 128)
    (h0 : x0 (ix2 p (0 : Fin 1)) = tok (ix2 r (0 : Fin 1))) (h1 : ∀ k : Fin 5, x1 (ix2 p k) = pe (ix2 r k))
    (h2 : x2 = emb) (h3 : x3 = wt) (h4 : x4 = bt) :
    k0_pay1 (F := Ideal) (k0_pay5 x0 x2) x1 x3 (k0_pay6 x1 x3) (k0_pay7 x1 x3) x4 (ix2 p q)
      = Cert.Spec.xSpec tok pe emb wt bt (ix2 r q) := by
  subst h2 h3 h4
  rw [xrow_apply, h0]
  show _ = (x2 (ix2 (Cert.Spec.tokRow (tok (ix2 r (0 : Fin 1)))) q) + ∑ k : Fin 5, pe (ix2 r k) * x3 (ix2 k q)) + x4 (ix2 (0 : Fin 1) q)
  congr 2
  exact Finset.sum_congr rfl fun k _ => by rw [h1 k]

/-- The same row of the first branch's product. -/
theorem hLo_block_eq (tok : IVec S100000x1 32) (pe : FVec Ideal S100000x5 .f32) (emb : FVec Ideal S32x128 .f32)
    (wt : FVec Ideal S5x128 .f32) (bt : FVec Ideal S1x128 .f32) (wcat : FVec Ideal S128x256 .f32)
    (x0 : Vec Ideal S4000x1 .i32) (x1 : Vec Ideal S4000x5 .f32) (x2 : Vec Ideal S32x128 .f32)
    (x3 : Vec Ideal S5x128 .f32) (x4 : Vec Ideal S1x128 .f32) (x5 : Vec Ideal S128x256 .f32)
    (r : Fin 100000) (p : Fin 4000) (q : Fin 128)
    (h0 : x0 (ix2 p (0 : Fin 1)) = tok (ix2 r (0 : Fin 1))) (h1 : ∀ k : Fin 5, x1 (ix2 p k) = pe (ix2 r k))
    (h2 : x2 = emb) (h3 : x3 = wt) (h4 : x4 = bt) (h5 : x5 = wcat) :
    k0_pay3 (F := Ideal) (k0_pay5 x0 x2) x1 x3 (k0_pay6 x1 x3) (k0_pay7 x1 x3) x4 x5 (ix2 p q)
      = Cert.Spec.hLo (Cert.Spec.xSpec tok pe emb wt bt) wcat (ix2 r q) := by
  subst h5
  rw [pay3_apply]
  show _ = ∑ k : Fin 128, Cert.Spec.xSpec tok pe emb wt bt (ix2 r k) * x5 (ix2 k (Fin.castLE (by decide) q : Fin 256))
  exact Finset.sum_congr rfl fun k _ => by rw [xblock_eq tok pe emb wt bt x0 x1 x2 x3 x4 r p k h0 h1 h2 h3 h4]

/-- The same row of the second branch's product. -/
theorem hHi_block_eq (tok : IVec S100000x1 32) (pe : FVec Ideal S100000x5 .f32) (emb : FVec Ideal S32x128 .f32)
    (wt : FVec Ideal S5x128 .f32) (bt : FVec Ideal S1x128 .f32) (wcat : FVec Ideal S128x256 .f32)
    (x0 : Vec Ideal S4000x1 .i32) (x1 : Vec Ideal S4000x5 .f32) (x2 : Vec Ideal S32x128 .f32)
    (x3 : Vec Ideal S5x128 .f32) (x4 : Vec Ideal S1x128 .f32) (x5 : Vec Ideal S128x256 .f32)
    (r : Fin 100000) (p : Fin 4000) (q : Fin 128)
    (h0 : x0 (ix2 p (0 : Fin 1)) = tok (ix2 r (0 : Fin 1))) (h1 : ∀ k : Fin 5, x1 (ix2 p k) = pe (ix2 r k))
    (h2 : x2 = emb) (h3 : x3 = wt) (h4 : x4 = bt) (h5 : x5 = wcat) :
    k0_pay4 (F := Ideal) (k0_pay5 x0 x2) x1 x3 (k0_pay6 x1 x3) (k0_pay7 x1 x3) x4 x5 (ix2 p q)
      = Cert.Spec.hHi (Cert.Spec.xSpec tok pe emb wt bt) wcat (ix2 r q) := by
  subst h5
  rw [pay4_apply]
  show _ = ∑ k : Fin 128, Cert.Spec.xSpec tok pe emb wt bt (ix2 r k) * x5 (ix2 k (Fin.natAdd 128 q : Fin 256))
  exact Finset.sum_congr rfl fun k _ => by rw [xblock_eq tok pe emb wt bt x0 x1 x2 x3 x4 r p k h0 h1 h2 h3 h4]

theorem hz : (![0, 0] : Fin 2 → Nat) = fun _ => 0 := funext fun a => by fin_cases a <;> rfl

/-- Where each window's block sits at a grid point: the row-blocked windows at block `t`, the whole-array windows at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The token block at point `t` is rows `4000 t … 4000 t + 3999` of the token array. -/
theorem iblk0_0_apply (c : Dev nD) (t : Fin cfg0.N) (x : S4000x1.Idx) (k : S100000x1.Idx)
    (hk0 : (k 0).val = 4000 * t.val + (x 0).val) (hk1 : (k 1).val = (x 1).val) :
    (iblk0 V c 0 t : Vec Ideal S4000x1 .i32) x = (V c main_arg0 : S100000x1.Idx → Elt Ideal .i32) k := by
  have hi := (idx_facts t).1
  unfold iblk0
  rw [View.read_apply]
  show V c main_arg0 _ = V c main_arg0 _
  congr 1
  funext a
  apply Fin.ext
  match a with
  | ⟨0, _⟩ => show win0_0.index t 0 * 4000 + 1 * (x 0).val = (k 0).val; rw [hi.1, hk0]; omega
  | ⟨1, _⟩ => show win0_0.index t 1 * 1 + 1 * (x 1).val = (k 1).val; rw [hi.2, hk1]; omega

/-- The positional block at point `t` is rows `4000 t … 4000 t + 3999` of the positional array. -/
theorem iblk0_1_apply (c : Dev nD) (t : Fin cfg0.N) (x : S4000x5.Idx) (k : S100000x5.Idx)
    (hk0 : (k 0).val = 4000 * t.val + (x 0).val) (hk1 : (k 1).val = (x 1).val) :
    (iblk0 V c 1 t : Vec Ideal S4000x5 .f32) x = (V c main_arg1 : S100000x5.Idx → Elt Ideal .f32) k := by
  have hi := (idx_facts t).2.1
  unfold iblk0
  rw [View.read_apply]
  show V c main_arg1 _ = V c main_arg1 _
  congr 1
  funext a
  apply Fin.ext
  match a with
  | ⟨0, _⟩ => show win0_1.index t 0 * 4000 + 1 * (x 0).val = (k 0).val; rw [hi.1, hk0]; omega
  | ⟨1, _⟩ => show win0_1.index t 1 * 5 + 1 * (x 1).val = (k 1).val; rw [hi.2, hk1]; omega

/-- The table window's block is the whole padded table. -/
theorem iblk0_2_eq (c : Dev nD) (t : Fin cfg0.N) :
    (iblk0 V c 2 t : Vec Ideal S32x128 .f32) = (V c main_v2 : S32x128.Idx → Elt Ideal .f32) := by
  have hi := (idx_facts t).2.2.1
  funext x
  unfold iblk0
  rw [View.read_apply]
  show V c main_v2 _ = V c main_v2 _
  congr 1
  funext a
  apply Fin.ext
  match a with
  | ⟨0, _⟩ => show win0_2.index t 0 * 32 + 1 * (x 0).val = (x 0).val; rw [hi.1]; omega
  | ⟨1, _⟩ => show win0_2.index t 1 * 128 + 1 * (x 1).val = (x 1).val; rw [hi.2]; omega

/-- The projection-weight window's block is the whole matrix. -/
theorem iblk0_3_eq (c : Dev nD) (t : Fin cfg0.N) :
    (iblk0 V c 3 t : Vec Ideal S5x128 .f32) = (V c main_arg6 : S5x128.Idx → Elt Ideal .f32) := by
  have hi := (idx_facts t).2.2.2.1
  funext x
  unfold iblk0
  rw [View.read_apply]
  show V c main_arg6 _ = V c main_arg6 _
  congr 1
  funext a
  apply Fin.ext
  match a with
  | ⟨0, _⟩ => show win0_3.index t 0 * 5 + 1 * (x 0).val = (x 0).val; rw [hi.1]; omega
  | ⟨1, _⟩ => show win0_3.index t 1 * 128 + 1 * (x 1).val = (x 1).val; rw [hi.2]; omega

/-- The bias window's block is the whole row. -/
theorem iblk0_4_eq (c : Dev nD) (t : Fin cfg0.N) :
    (iblk0 V c 4 t : Vec Ideal S1x128 .f32) = (V c main_v0 : S1x128.Idx → Elt Ideal .f32) := by
  have hi := (idx_facts t).2.2.2.2.1
  funext x
  unfold iblk0
  rw [View.read_apply]
  show V c main_v0 _ = V c main_v0 _
  congr 1
  funext a
  apply Fin.ext
  match a with
  | ⟨0, _⟩ => show win0_4.index t 0 * 1 + 1 * (x 0).val = (x 0).val; rw [hi.1]; omega
  | ⟨1, _⟩ => show win0_4.index t 1 * 128 + 1 * (x 1).val = (x 1).val; rw [hi.2]; omega

/-- The side-by-side weights window's block is the whole matrix. -/
theorem iblk0_5_eq (c : Dev nD) (t : Fin cfg0.N) :
    (iblk0 V c 5 t : Vec Ideal S128x256 .f32) = (V c main_v1 : S128x256.Idx → Elt Ideal .f32) := by
  have hi := (idx_facts t).2.2.2.2.2.1
  funext x
  unfold iblk0
  rw [View.read_apply]
  show V c main_v1 _ = V c main_v1 _
  congr 1
  funext a
  apply Fin.ext
  match a with
  | ⟨0, _⟩ => show win0_5.index t 0 * 128 + 1 * (x 0).val = (x 0).val; rw [hi.1]; omega
  | ⟨1, _⟩ => show win0_5.index t 1 * 256 + 1 * (x 1).val = (x 1).val; rw [hi.2]; omega

/-- The array row that row `p` of point `t`'s block is. -/
def rowOf (t : Fin cfg0.N) (p : Fin 4000) : Fin 100000 :=
  ⟨4000 * t.val + p.val, by have h1 : t.val < cfg0.N := t.isLt; have hN : cfg0.N = 25 := N_0; have := p.isLt; omega⟩

/-- Point `t` writes back block `t` of the node-feature specification. -/
theorem flushed6_eq (c : Dev nD) (t : Fin cfg0.N) :
    (dat0 (F := Ideal) V c).flushed 6 t = ((cfg0.win 6).blk t).view.read (Elt Ideal)
      (Cert.Spec.xSpec (V c main_arg0) (V c main_arg1) (V c main_v2) (V c main_arg6) (V c main_v0)) := by
  show (cfg0.win 6).cut (grid0.coords t) ((dat0 V c).after 6 t) = _
  rw [after0_6]
  unfold out0_6
  rw [View.canon_unit_zero hz]
  simp only [View.ld_unit_zero (S := S4000x1) hz, View.ld_unit_zero (S := S4000x5) hz, View.ld_unit_zero (S := S32x128) hz,
    View.ld_unit_zero (S := S5x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (k0_pay5 (iblk0 V c 0 t) (iblk0 V c 2 t)) (iblk0 V c 1 t) (iblk0 V c 3 t)
        (k0_pay6 (iblk0 V c 1 t) (iblk0 V c 3 t)) (k0_pay7 (iblk0 V c 1 t) (iblk0 V c 3 t)) (iblk0 V c 4 t) (ix2 p q)
      = Cert.Spec.xSpec (V c main_arg0) (V c main_arg1) (V c main_v2) (V c main_arg6) (V c main_v0)
          (((cfg0.win 6).blk t).view.emb (ix2 p q))
  have he : ((cfg0.win 6).blk t).view.emb (ix2 p q) = ix2 (rowOf t p) q := by
    have hi := (idx_facts t).2.2.2.2.2.2.1
    funext a
    apply Fin.ext
    match a with
    | ⟨0, _⟩ => show win0_6.index t 0 * 4000 + 1 * p.val = 4000 * t.val + p.val; rw [hi.1]; omega
    | ⟨1, _⟩ => show win0_6.index t 1 * 128 + 1 * q.val = q.val; rw [hi.2]; omega
  rw [he]
  exact xblock_eq _ _ _ _ _ _ _ _ _ _ (rowOf t p) p q (iblk0_0_apply V c t _ _ rfl rfl)
    (fun k => iblk0_1_apply V c t _ _ rfl rfl) (iblk0_2_eq V c t) (iblk0_3_eq V c t) (iblk0_4_eq V c t)

/-- An index of the array is in point `t`'s block of output window 6 iff each coordinate is in the block's range on its axis. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v3_0).slice (win0_6.rect t)).set ↔ _
  rw [View.set_slice_whole, Rect.mem_set_unit]
  exact Iff.rfl

/-- Row `r` is in the block of point `r / 4000`: the 25 blocks tile the 100000 rows. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by omega
  have hi := (idx_facts ⟨(i 0).val / 4000, ht⟩).2.2.2.2.2.2.1
  refine ⟨⟨(i 0).val / 4000, ht⟩, flush0_6 _, ?_⟩
  rw [mem_blk6]
  intro a
  match a with
  | ⟨0, _⟩ =>
    show win0_6.index ⟨(i 0).val / 4000, ht⟩ 0 * 4000 ≤ (i 0).val ∧ (i 0).val < win0_6.index ⟨(i 0).val / 4000, ht⟩ 0 * 4000 + 4000
    rw [hi.1]
    show (i 0).val / 4000 * 4000 ≤ (i 0).val ∧ (i 0).val < (i 0).val / 4000 * 4000 + 4000
    omega
  | ⟨1, _⟩ =>
    show win0_6.index ⟨(i 0).val / 4000, ht⟩ 1 * 128 ≤ (i 1).val ∧ (i 1).val < win0_6.index ⟨(i 0).val / 4000, ht⟩ 1 * 128 + 128
    rw [hi.2]
    omega

/-- The node-feature output: the embedding row of the clipped token plus the positional projection plus the bias. -/
theorem reg0_x (c : Dev nD) :
    (dat0 (F := Ideal) V c).arrAt 6 cfg0.N
      = Cert.Spec.xSpec (V c main_arg0) (V c main_arg1) (V c main_v2) (V c main_arg6) (V c main_v0) :=
  (dat0 (F := Ideal) V c).arrAt_eq_of_cover 6 _ (fun t _ => flushed6_eq V c t) cover6

/-- Point `t` writes back block `t` of the first branch's product. -/
theorem flushed7_eq (c : Dev nD) (t : Fin cfg0.N) :
    (dat0 (F := Ideal) V c).flushed 7 t = ((cfg0.win 7).blk t).view.read (Elt Ideal)
      (Cert.Spec.hLo (Cert.Spec.xSpec (V c main_arg0) (V c main_arg1) (V c main_v2) (V c main_arg6) (V c main_v0)) (V c main_v1)) := by
  show (cfg0.win 7).cut (grid0.coords t) ((dat0 V c).after 7 t) = _
  rw [after0_7]
  unfold out0_7
  rw [View.canon_unit_zero hz]
  simp only [View.ld_unit_zero (S := S4000x1) hz, View.ld_unit_zero (S := S4000x5) hz, View.ld_unit_zero (S := S32x128) hz,
    View.ld_unit_zero (S := S5x128) hz, View.ld_unit_zero (S := S1x128) hz, View.ld_unit_zero (S := S128x256) hz]
  funext j
  obtain ⟨p, q, rfl⟩ : ∃ (p : Fin 4000) (q : Fin 128), j = ix2 p q := ⟨j 0, j 1, eq_ix2 j⟩
  show k0_pay3 (F := Ideal) (k0_pay5 (iblk0 V c 0 t) (iblk0 V c 2 t)) (iblk0 V c 1 t) (iblk0 V c 3 t)
        (k0_pay6 (iblk0 V c 1 t) (iblk0 V c 3 t)) (k0_pay7 (iblk0 V c 1 t) (iblk0 V c 3 t)) (iblk0 V c 4 t) (iblk0 V c 5 t) (ix2 p q)
      = Cert.Spec.hLo (Cert.Spec.xSpec (V c main_arg0) (V c main_arg1) (V c main_v2) (V c main_arg6) (V c main_v0)) (V c main_v1)
          (((cfg0.win 7).blk t).view.emb (ix2 p q))
  have he : ((cfg0.win 7).blk t).view.emb (ix2 p q) = ix2 (rowOf t p) q := by
    have hi := (idx_facts t).2.2.2.2.2.2.2.1
    funext a
    apply Fin.ext
    match a with
    | ⟨0, _⟩ => show win0_7.index t 0 * 4000 + 1 * p.val = 4000 * t.val + p.val; rw [hi.1]; omega
    | ⟨1, _⟩ => show win0_7.index t 1 * 128 + 1 * q.val = q.val; rw [hi.2]; omega
  rw [he]
  exact hLo_block_eq _ _ _ _ _ _ _ _ _ _ _ _ (rowOf t p) p q (iblk0_0_apply V c t _ _ rfl rfl)
    (fun k => iblk0_1_apply V c t _ _ rfl rfl) (iblk0_2_eq V c t) (iblk0_3_eq V c t) (iblk0_4_eq V c t) (iblk0_5_eq V c t)

/-- An index of the array is in point `t`'s block of output window 7 iff each coordinate is in the block's range on its axis. -/
theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v3_1).slice (win0_7.rect t)).set ↔ _
  rw [View.set_slice_whole, Rect.mem_set_unit]
  exact Iff.rfl

/-- Row `r` is in the block of point `r / 4000`: the 25 blocks tile the 100000 rows. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  have ht : (i 0).val / 4000 < cfg0.N := by omega
  have hi := (idx_facts ⟨(i 0).val / 4000, ht⟩).2.2.2.2.2.2.2.1
  refine ⟨⟨(i 0).val / 4000, ht⟩, flush0_7 _, ?_⟩
  rw [mem_blk7]
  intro a
  match a with
  | ⟨0, _⟩ =>
    show win0_7.index ⟨(i 0).val / 4000, ht⟩ 0 * 4000 ≤ (i 0).val ∧ (i 0).val < win0_7.index ⟨(i 0).val / 4000, ht⟩ 0 * 4000 + 4000
    rw [hi.1]
    show (i 0).val / 4000 * 4000 ≤ (i 0).val ∧ (i 0).val < (i 0).val / 4000 * 4000 + 4000
    omega
  | ⟨1, _⟩ =>
    show win0_7.index ⟨(i 0).val / 4000, ht⟩ 1 * 128 ≤ (i 1).val ∧ (i 1).val < win0_7.index ⟨(i 0).val / 4000, ht⟩ 1 * 128 + 128
    rw [hi.2]
    omega

/-- Point `t` writes back block `t` of the second branch's product. -/
theorem flushed8_eq (c : Dev nD) (t : Fin cfg0.N) :
    (dat0 (F := Ideal) V c).flushed 8 t = ((cfg0.win 8).blk t).view.read (Elt Ideal)
      (Cert.Spec.hHi (Cert.Spec.xSpec (V c main_arg0) (V c main_arg1) (V c main_v2) (V c main_arg6) (V c main_v0)) (V c main_v1)) := by
  show (cfg0.win 8).cut (grid0.coords t) ((dat0 V c).after 8 t) = _
  rw [after0_8]
  unfold out0_8
  rw [View.canon_unit_zero hz]
  simp only [View.ld_unit_zero (S := S4000x1) hz, View.ld_unit_zero (S := S4000x5) hz, View.ld_unit_zero (S := S32x128) hz,
    View.ld_unit_zero (S := S5x128) hz, View.ld_unit_zero (S := S1x128) hz, View.ld_unit_zero (S := S128x256) hz]
  funext j
  obtain ⟨p, q, rfl⟩ : ∃ (p : Fin 4000) (q : Fin 128), j = ix2 p q := ⟨j 0, j 1, eq_ix2 j⟩
  show k0_pay4 (F := Ideal) (k0_pay5 (iblk0 V c 0 t) (iblk0 V c 2 t)) (iblk0 V c 1 t) (iblk0 V c 3 t)
        (k0_pay6 (iblk0 V c 1 t) (iblk0 V c 3 t)) (k0_pay7 (iblk0 V c 1 t) (iblk0 V c 3 t)) (iblk0 V c 4 t) (iblk0 V c 5 t) (ix2 p q)
      = Cert.Spec.hHi (Cert.Spec.xSpec (V c main_arg0) (V c main_arg1) (V c main_v2) (V c main_arg6) (V c main_v0)) (V c main_v1)
          (((cfg0.win 8).blk t).view.emb (ix2 p q))
  have he : ((cfg0.win 8).blk t).view.emb (ix2 p q) = ix2 (rowOf t p) q := by
    have hi := (idx_facts t).2.2.2.2.2.2.2.2
    funext a
    apply Fin.ext
    match a with
    | ⟨0, _⟩ => show win0_8.index t 0 * 4000 + 1 * p.val = 4000 * t.val + p.val; rw [hi.1]; omega
    | ⟨1, _⟩ => show win0_8.index t 1 * 128 + 1 * q.val = q.val; rw [hi.2]; omega
  rw [he]
  exact hHi_block_eq _ _ _ _ _ _ _ _ _ _ _ _ (rowOf t p) p q (iblk0_0_apply V c t _ _ rfl rfl)
    (fun k => iblk0_1_apply V c t _ _ rfl rfl) (iblk0_2_eq V c t) (iblk0_3_eq V c t) (iblk0_4_eq V c t) (iblk0_5_eq V c t)

/-- An index of the array is in point `t`'s block of output window 8 iff each coordinate is in the block's range on its axis. -/
theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v3_2).slice (win0_8.rect t)).set ↔ _
  rw [View.set_slice_whole, Rect.mem_set_unit]
  exact Iff.rfl

/-- Row `r` is in the block of point `r / 4000`: the 25 blocks tile the 100000 rows. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  have ht : (i 0).val / 4000 < cfg0.N := by omega
  have hi := (idx_facts ⟨(i 0).val / 4000, ht⟩).2.2.2.2.2.2.2.2
  refine ⟨⟨(i 0).val / 4000, ht⟩, flush0_8 _, ?_⟩
  rw [mem_blk8]
  intro a
  match a with
  | ⟨0, _⟩ =>
    show win0_8.index ⟨(i 0).val / 4000, ht⟩ 0 * 4000 ≤ (i 0).val ∧ (i 0).val < win0_8.index ⟨(i 0).val / 4000, ht⟩ 0 * 4000 + 4000
    rw [hi.1]
    show (i 0).val / 4000 * 4000 ≤ (i 0).val ∧ (i 0).val < (i 0).val / 4000 * 4000 + 4000
    omega
  | ⟨1, _⟩ =>
    show win0_8.index ⟨(i 0).val / 4000, ht⟩ 1 * 128 ≤ (i 1).val ∧ (i 1).val < win0_8.index ⟨(i 0).val / 4000, ht⟩ 1 * 128 + 128
    rw [hi.2]
    omega

/-- The first branch's first-layer product: columns 0 … 127 of the product with the side-by-side weights. -/
theorem reg0_h (c : Dev nD) :
    (dat0 (F := Ideal) V c).arrAt 7 cfg0.N
      = Cert.Spec.hLo (Cert.Spec.xSpec (V c main_arg0) (V c main_arg1) (V c main_v2) (V c main_arg6) (V c main_v0)) (V c main_v1) :=
  (dat0 (F := Ideal) V c).arrAt_eq_of_cover 7 _ (fun t _ => flushed7_eq V c t) cover7

/-- The second branch's first-layer product: columns 128 … 255. -/
theorem reg0_hv (c : Dev nD) :
    (dat0 (F := Ideal) V c).arrAt 8 cfg0.N
      = Cert.Spec.hHi (Cert.Spec.xSpec (V c main_arg0) (V c main_arg1) (V c main_v2) (V c main_arg6) (V c main_v0)) (V c main_v1) :=
  (dat0 (F := Ideal) V c).arrAt_eq_of_cover 8 _ (fun t _ => flushed8_eq V c t) cover8

end Cert.KernelIdeal.Reg

end
-- ==== Proof.Reg1.lean ====
/-
  What the fused combine kernel of branch 1 leaves in its output array: `relu(agg + h · d² + b) @ W₂`, block by block over
  the 25 blocks of 4000 rows.
-/
import proofs.«428299_j83202106458535_3_alg».proof.Proof.Gen.KernelIdeal.Frame
import proofs.«428299_j83202106458535_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL.Sem
open Idealize.ShloMosaic.Pipeline (Dat Cfg Window)

namespace R1

/-- The zero offsets of a whole-buffer access, however spelt. -/
theorem hz : (![0, 0] : Fin 2 → Nat) = fun _ => 0 := funext fun a => by fin_cases a <;> rfl

/-- The product's row operand index: row of the output, the contracted coordinate. -/
theorem lhs_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The [4000,128] × [128,1] product into the zero accumulator, at row `p`: the sum over the 128 contracted coordinates. -/
theorem mm_apply (a : FVec Ideal S4000x128 .bf16) (b : FVec Ideal S128x1 .bf16) (p : Fin 4000) (q : Fin 1) :
    FloatOps.matmul dot_S4000x128_S128x1_S4000x1_1_0_0_1_n_n none a b (constant S4000x1 .f32 0x00000000#32) (ix2 p q)
      = ∑ k : Fin 128, a (ix2 p k) * b (ix2 k q) := by
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p q) ((contrEquiv1 dot_S4000x128_S128x1_S4000x1_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x1_S4000x1_1_0_0_1_n_n.rhsIdx (ix2 p q) ((contrEquiv1 dot_S4000x128_S128x1_S4000x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's value at row `p`: the 128-term sum of `relu(agg + h · d² + b)` against the weight column. -/
theorem pay_apply (x0 x1 : Vec Ideal S4000x128 .f32) (x2 : Vec Ideal S4000x1 .f32) (x3 : Vec Ideal S1x128 .f32)
    (x4 : Vec Ideal S128x1 .f32) (p : Fin 4000) (q : Fin 1) :
    k1_pay1 x0 x1 x2 x3 x4 (ix2 p q)
      = ∑ k : Fin 128, max ((x0 (ix2 p k) + x1 (ix2 p k) * x2 (ix2 p (0 : Fin 1))) + x3 (ix2 (0 : Fin 1) k)) 0 * x4 (ix2 k q) := by
  unfold k1_pay1
  simp only [shapeCast_self]
  refine (mm_apply _ _ p q).trans ?_
  refine Finset.sum_congr rfl fun k _ => ?_
  show max ((x0 (ix2 p k) + x1 (ix2 p k) * broadcastTo S4000x128 x2 broadcasts_S4000x1_S4000x128 (ix2 p k))
      + broadcastTo S4000x128 x3 broadcasts_S1x128_S4000x128 (ix2 p k)) (Ideal.ofBits .f32 0x00000000#32) * x4 (ix2 k q) = _
  rw [broadcastTo_apply x2 broadcasts_S4000x1_S4000x128 (ix2 p k) (ix2 p (0 : Fin 1)) (fun a => by
        match a with
        | ⟨0, _⟩ => rfl
        | ⟨1, _⟩ => rfl),
    broadcastTo_apply x3 broadcasts_S1x128_S4000x128 (ix2 p k) (ix2 (0 : Fin 1) k) (fun a => by
        match a with
        | ⟨0, _⟩ => rfl
        | ⟨1, _⟩ => rfl),
    Ideal.ofBits_zero_f32]

variable (V : (c : Dev nD) → (b : Ref sig .tc) → Buf (Elt Ideal) ((c : Thread nD τ).loc b))

/-- The printed index maps over the 25 points: the row windows sit at block `t`, column block 0; the bias row and the
    weight column at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `4000 t … 4000 t + 3999` of its array. -/
theorem win0_rows (c : Dev nD) (t : Fin cfg1.N) (x : S4000x128.Idx) (k : S100000x128.Idx)
    (hk0 : (k 0).val = 4000 * t.val + (x 0).val) (hk1 : (k 1).val = (x 1).val) :
    (iblk1 V c 0 t : Vec Ideal S4000x128 .f32) x = (V c main_v59 : S100000x128.Idx → Elt Ideal .f32) k := by
  obtain ⟨e0, e1, -⟩ := idx_facts t
  unfold iblk1
  rw [View.read_apply]
  show V c main_v59 _ = V c main_v59 _
  refine congrArg (V c main_v59) ?_
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 128 + 1 * (x 1).val = (k 1).val; rw [e1, hk1]; omega

/-- Window 1's block at point `t` is rows `4000 t … 4000 t + 3999` of its array. -/
theorem win1_rows (c : Dev nD) (t : Fin cfg1.N) (x : S4000x128.Idx) (k : S100000x128.Idx)
    (hk0 : (k 0).val = 4000 * t.val + (x 0).val) (hk1 : (k 1).val = (x 1).val) :
    (iblk1 V c 1 t : Vec Ideal S4000x128 .f32) x = (V c main_v3_1 : S100000x128.Idx → Elt Ideal .f32) k := by
  obtain ⟨-, -, e0, e1, -⟩ := idx_facts t
  unfold iblk1
  rw [View.read_apply]
  show V c main_v3_1 _ = V c main_v3_1 _
  refine congrArg (V c main_v3_1) ?_
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 128 + 1 * (x 1).val = (k 1).val; rw [e1, hk1]; omega

/-- Window 2's block at point `t` is rows `4000 t … 4000 t + 3999` of the one-column array. -/
theorem win2_rows (c : Dev nD) (t : Fin cfg1.N) (x : S4000x1.Idx) (k : S100000x1.Idx)
    (hk0 : (k 0).val = 4000 * t.val + (x 0).val) (hk1 : (k 1).val = (x 1).val) :
    (iblk1 V c 2 t : Vec Ideal S4000x1 .f32) x = (V c main_v46 : S100000x1.Idx → Elt Ideal .f32) k := by
  obtain ⟨-, -, -, -, e0, e1, -⟩ := idx_facts t
  unfold iblk1
  rw [View.read_apply]
  show V c main_v46 _ = V c main_v46 _
  refine congrArg (V c main_v46) ?_
  funext a
  apply Fin.ext
  match a with
  | ⟨0, _⟩ => show win1_2.index t (0 : Fin 2) * 4000 + 1 * (x 0).val = (k 0).val; rw [e0, hk0]; omega
  | ⟨1, _⟩ => show win1_2.index t (1 : Fin 2) * 1 + 1 * (x 1).val = (k 1).val; rw [e1, hk1]; omega

/-- Window 3's block is the whole bias row at every point. -/
theorem win3_whole (c : Dev nD) (t : Fin cfg1.N) :
    (iblk1 V c 3 t : Vec Ideal S1x128 .f32) = (V c main_v60 : S1x128.Idx → Elt Ideal .f32) := by
  obtain ⟨-, -, -, -, -, -, e0, e1, -⟩ := idx_facts t
  funext x
  unfold iblk1
  rw [View.read_apply]
  show V c main_v60 _ = V c main_v60 _
  refine congrArg (V c main_v60) ?_
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Window 4's block is the whole weight column at every point. -/
theorem win4_whole (c : Dev nD) (t : Fin cfg1.N) :
    (iblk1 V c 4 t : Vec Ideal S128x1 .f32) = (V c main_arg10 : S128x1.Idx → Elt Ideal .f32) := by
  obtain ⟨-, -, -, -, -, -, -, -, e0, e1, -⟩ := idx_facts t
  funext x
  unfold iblk1
  rw [View.read_apply]
  show V c main_arg10 _ = V c main_arg10 _
  refine congrArg (V c main_arg10) ?_
  funext a
  apply Fin.ext
  match a with
  | ⟨0, _⟩ => show win1_4.index t (0 : Fin 2) * 128 + 1 * (x 0).val = (x 0).val; rw [e0]; omega
  | ⟨1, _⟩ => show win1_4.index t (1 : Fin 2) * 1 + 1 * (x 1).val = (x 1).val; rw [e1]; omega

/-- The body's value on block `n`: when the three row blocks are rows `4000 n …` of their arrays and the bias row and
    weight column are whole, the body's entry at row `y` is the specification's entry at row `4000 n + y`. -/
theorem blk_val (A H : FVec Ideal ⟨2, ![100000, 128]⟩ .f32) (D : FVec Ideal ⟨2, ![100000, 1]⟩ .f32)
    (B : FVec Ideal ⟨2, ![1, 128]⟩ .f32) (W : FVec Ideal ⟨2, ![128, 1]⟩ .f32)
    (x0 x1 : Vec Ideal S4000x128 .f32) (x2 : Vec Ideal S4000x1 .f32) (x3 : Vec Ideal S1x128 .f32) (x4 : Vec Ideal S128x1 .f32)
    (n : Nat)
    (h0 : ∀ (x : S4000x128.Idx) (k : S100000x128.Idx), (k 0).val = 4000 * n + (x 0).val → (k 1).val = (x 1).val → x0 x = A k)
    (h1 : ∀ (x : S4000x128.Idx) (k : S100000x128.Idx), (k 0).val = 4000 * n + (x 0).val → (k 1).val = (x 1).val → x1 x = H k)
    (h2 : ∀ (x : S4000x1.Idx) (k : S100000x1.Idx), (k 0).val = 4000 * n + (x 0).val → (k 1).val = (x 1).val → x2 x = D k)
    (h3 : x3 = B) (h4 : x4 = W)
    (y : S4000x1.Idx) (i : S100000x1.Idx) (hi0 : (i 0).val = 4000 * n + (y 0).val) (hi1 : (i 1).val = (y 1).val) :
    k1_pay1 x0 x1 x2 x3 x4 y = Cert.Spec.hhSpec A H D B W i := by
  obtain ⟨p, q, rfl⟩ : ∃ (p : Fin 4000) (q : Fin 1), y = ix2 p q := ⟨y 0, y 1, eq_ix2 y⟩
  have hi0' : (i 0).val = 4000 * n + p.val := hi0
  have hq : q = (i 1 : Fin 1) := Fin.ext hi1.symm
  subst h3 h4
  refine (pay_apply x0 x1 x2 x3 x4 p q).trans ?_
  unfold Cert.Spec.hhSpec
  refine Finset.sum_congr rfl fun k _ => ?_
  have hx : (ix2 k q : S128x1.Idx) = ix2 k (i 1 : Fin 1) := funext fun a => by
    match a with
    | ⟨0, _⟩ => rfl
    | ⟨1, _⟩ => exact hq
  rw [h0 (ix2 p k) (ix2 (i 0 : Fin 100000) k) hi0' rfl, h1 (ix2 p k) (ix2 (i 0 : Fin 100000) k) hi0' rfl,
    h2 (ix2 p (0 : Fin 1)) (ix2 (i 0 : Fin 100000) (0 : Fin 1)) hi0' rfl, hx]
  rfl

/-- What point `t` writes back is block `t` of the specification's array. -/
theorem flushed_eq (c : Dev nD) (t : Fin cfg1.N) :
    (dat1 (F := Ideal) V c).flushed 5 t = ((cfg1.win 5).blk t).view.read (Elt Ideal)
      (Cert.Spec.hhSpec (V c main_v59) (V c main_v3_1) (V c main_v46) (V c main_v60) (V c main_arg10)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz,
    View.ld_unit_zero (S := S128x1) hz]
  obtain ⟨-, -, -, -, -, -, -, -, -, -, e0, e1⟩ := idx_facts t
  funext j
  show k1_pay1 (iblk1 V c 0 t) (iblk1 V c 1 t) (iblk1 V c 2 t) (iblk1 V c 3 t) (iblk1 V c 4 t) j
    = Cert.Spec.hhSpec (V c main_v59) (V c main_v3_1) (V c main_v46) (V c main_v60) (V c main_arg10) (((cfg1.win 5).blk t).view.emb j)
  refine blk_val _ _ _ _ _ _ _ _ _ _ t.val (fun x k h0 h1 => win0_rows V c t x k h0 h1) (fun x k h0 h1 => win1_rows V c t x k h0 h1)
    (fun x k h0 h1 => win2_rows V c t x k h0 h1) (win3_whole V c t) (win4_whole V c t) j _ ?_ ?_
  · show win1_5.index t (0 : Fin 2) * 4000 + 1 * (j 0).val = 4000 * t.val + (j 0).val
    rw [e0]; omega
  · show win1_5.index t (1 : Fin 2) * 1 + 1 * (j 1).val = (j 1).val
    rw [e1]; omega

/-- An index of the array is in point `t`'s block iff each coordinate is in the block's range on its axis. -/
theorem mem_blk (t : Fin cfg1.N) (i : S100000x1.Idx) :
    i ∈ ((cfg1.win 5).blk t).view.set ↔ ∀ a : Fin 2, win1_5.index t a * S4000x1.size a ≤ (i a).val ∧ (i a).val < win1_5.index t a * S4000x1.size a + S4000x1.size a := by
  show i ∈ ((View.whole main_v61).slice (win1_5.rect t)).set ↔ _
  rw [View.set_slice_whole, Rect.mem_set_unit]
  exact Iff.rfl

/-- Row `r` of the array is in the block of point `r / 4000`. -/
theorem cover (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 1 ≤ (i 1).val ∧ (i 1).val < win1_5.index t (1 : Fin 2) * 1 + 1
    rw [e1]; omega

end R1

variable (V : (c : Dev nD) → (b : Ref sig .tc) → Buf (Elt Ideal) ((c : Thread nD τ).loc b))

theorem reg1_hh (c : Dev nD) :
    (dat1 (F := Ideal) V c).arrAt 5 cfg1.N
      = Cert.Spec.hhSpec (V c main_v59) (V c main_v3_1) (V c main_v46) (V c main_v60) (V c main_arg10) :=
  (dat1 (F := Ideal) V c).arrAt_eq_of_cover 5 _ (fun t _ => R1.flushed_eq V c t) R1.cover

end Cert.KernelIdeal.Reg

end
-- ==== Proof.Reg2.lean ====
/-
  What the fused combine kernel of branch 2 leaves in its output array: `relu(agg + h · d² + b) @ W₂`, block by block over
  the 25 blocks of 4000 rows.
-/
import proofs.«428299_j83202106458535_3_alg».proof.Proof.Gen.KernelIdeal.Frame
import proofs.«428299_j83202106458535_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL.Sem
open Idealize.ShloMosaic.Pipeline (Dat Cfg Window)

namespace R2

/-- The zero offsets of a whole-buffer access, however spelt. -/
theorem hz : (![0, 0] : Fin 2 → Nat) = fun _ => 0 := funext fun a => by fin_cases a <;> rfl

/-- The product's row operand index: row of the output, the contracted coordinate. -/
theorem lhs_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The [4000,128] × [128,1] product into the zero accumulator, at row `p`: the sum over the 128 contracted coordinates. -/
theorem mm_apply (a : FVec Ideal S4000x128 .bf16) (b : FVec Ideal S128x1 .bf16) (p : Fin 4000) (q : Fin 1) :
    FloatOps.matmul dot_S4000x128_S128x1_S4000x1_1_0_0_1_n_n none a b (constant S4000x1 .f32 0x00000000#32) (ix2 p q)
      = ∑ k : Fin 128, a (ix2 p k) * b (ix2 k q) := by
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p q) ((contrEquiv1 dot_S4000x128_S128x1_S4000x1_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x1_S4000x1_1_0_0_1_n_n.rhsIdx (ix2 p q) ((contrEquiv1 dot_S4000x128_S128x1_S4000x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's value at row `p`: the 128-term sum of `relu(agg + h · d² + b)` against the weight column. -/
theorem pay_apply (x0 x1 : Vec Ideal S4000x128 .f32) (x2 : Vec Ideal S4000x1 .f32) (x3 : Vec Ideal S1x128 .f32)
    (x4 : Vec Ideal S128x1 .f32) (p : Fin 4000) (q : Fin 1) :
    k2_pay1 x0 x1 x2 x3 x4 (ix2 p q)
      = ∑ k : Fin 128, max ((x0 (ix2 p k) + x1 (ix2 p k) * x2 (ix2 p (0 : Fin 1))) + x3 (ix2 (0 : Fin 1) k)) 0 * x4 (ix2 k q) := by
  unfold k2_pay1
  simp only [shapeCast_self]
  refine (mm_apply _ _ p q).trans ?_
  refine Finset.sum_congr rfl fun k _ => ?_
  show max ((x0 (ix2 p k) + x1 (ix2 p k) * broadcastTo S4000x128 x2 broadcasts_S4000x1_S4000x128 (ix2 p k))
      + broadcastTo S4000x128 x3 broadcasts_S1x128_S4000x128 (ix2 p k)) (Ideal.ofBits .f32 0x00000000#32) * x4 (ix2 k q) = _
  rw [broadcastTo_apply x2 broadcasts_S4000x1_S4000x128 (ix2 p k) (ix2 p (0 : Fin 1)) (fun a => by
        match a with
        | ⟨0, _⟩ => rfl
        | ⟨1, _⟩ => rfl),
    broadcastTo_apply x3 broadcasts_S1x128_S4000x128 (ix2 p k) (ix2 (0 : Fin 1) k) (fun a => by
        match a with
        | ⟨0, _⟩ => rfl
        | ⟨1, _⟩ => rfl),
    Ideal.ofBits_zero_f32]

variable (V : (c : Dev nD) → (b : Ref sig .tc) → Buf (Elt Ideal) ((c : Thread nD τ).loc b))

/-- The printed index maps over the 25 points: the row windows sit at block `t`, column block 0; the bias row and the
    weight column at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `4000 t … 4000 t + 3999` of its array. -/
theorem win0_rows (c : Dev nD) (t : Fin cfg2.N) (x : S4000x128.Idx) (k : S100000x128.Idx)
    (hk0 : (k 0).val = 4000 * t.val + (x 0).val) (hk1 : (k 1).val = (x 1).val) :
    (iblk2 V c 0 t : Vec Ideal S4000x128 .f32) x = (V c main_v134 : S100000x128.Idx → Elt Ideal .f32) k := by
  obtain ⟨e0, e1, -⟩ := idx_facts t
  unfold iblk2
  rw [View.read_apply]
  show V c main_v134 _ = V c main_v134 _
  refine congrArg (V c main_v134) ?_
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 128 + 1 * (x 1).val = (k 1).val; rw [e1, hk1]; omega

/-- Window 1's block at point `t` is rows `4000 t … 4000 t + 3999` of its array. -/
theorem win1_rows (c : Dev nD) (t : Fin cfg2.N) (x : S4000x128.Idx) (k : S100000x128.Idx)
    (hk0 : (k 0).val = 4000 * t.val + (x 0).val) (hk1 : (k 1).val = (x 1).val) :
    (iblk2 V c 1 t : Vec Ideal S4000x128 .f32) x = (V c main_v3_2 : S100000x128.Idx → Elt Ideal .f32) k := by
  obtain ⟨-, -, e0, e1, -⟩ := idx_facts t
  unfold iblk2
  rw [View.read_apply]
  show V c main_v3_2 _ = V c main_v3_2 _
  refine congrArg (V c main_v3_2) ?_
  funext a
  apply Fin.ext
  match a with
  | ⟨0, _⟩ => show win2_1.index t (0 : Fin 2) * 4000 + 1 * (x 0).val = (k 0).val; rw [e0, hk0]; omega
  | ⟨1, _⟩ => show win2_1.index t (1 : Fin 2) * 128 + 1 * (x 1).val = (k 1).val; rw [e1, hk1]; omega

/-- Window 2's block at point `t` is rows `4000 t … 4000 t + 3999` of the one-column array. -/
theorem win2_rows (c : Dev nD) (t : Fin cfg2.N) (x : S4000x1.Idx) (k : S100000x1.Idx)
    (hk0 : (k 0).val = 4000 * t.val + (x 0).val) (hk1 : (k 1).val = (x 1).val) :
    (iblk2 V c 2 t : Vec Ideal S4000x1 .f32) x = (V c main_v121 : S100000x1.Idx → Elt Ideal .f32) k := by
  obtain ⟨-, -, -, -, e0, e1, -⟩ := idx_facts t
  unfold iblk2
  rw [View.read_apply]
  show V c main_v121 _ = V c main_v121 _
  refine congrArg (V c main_v121) ?_
  funext a
  apply Fin.ext
  match a with
  | ⟨0, _⟩ => show win2_2.index t (0 : Fin 2) * 4000 + 1 * (x 0).val = (k 0).val; rw [e0, hk0]; omega
  | ⟨1, _⟩ => show win2_2.index t (1 : Fin 2) * 1 + 1 * (x 1).val = (k 1).val; rw [e1, hk1]; omega

/-- Window 3's block is the whole bias row at every point. -/
theorem win3_whole (c : Dev nD) (t : Fin cfg2.N) :
    (iblk2 V c 3 t : Vec Ideal S1x128 .f32) = (V c main_v135 : S1x128.Idx → Elt Ideal .f32) := by
  obtain ⟨-, -, -, -, -, -, e0, e1, -⟩ := idx_facts t
  funext x
  unfold iblk2
  rw [View.read_apply]
  show V c main_v135 _ = V c main_v135 _
  refine congrArg (V c main_v135) ?_
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- Window 4's block is the whole weight column at every point. -/
theorem win4_whole (c : Dev nD) (t : Fin cfg2.N) :
    (iblk2 V c 4 t : Vec Ideal S128x1 .f32) = (V c main_arg14 : S128x1.Idx → Elt Ideal .f32) := by
  obtain ⟨-, -, -, -, -, -, -, -, e0, e1, -⟩ := idx_facts t
  funext x
  unfold iblk2
  rw [View.read_apply]
  show V c main_arg14 _ = V c main_arg14 _
  refine congrArg (V c main_arg14) ?_
  funext a
  apply Fin.ext
  match a with
  | ⟨0, _⟩ => show win2_4.index t (0 : Fin 2) * 128 + 1 * (x 0).val = (x 0).val; rw [e0]; omega
  | ⟨1, _⟩ => show win2_4.index t (1 : Fin 2) * 1 + 1 * (x 1).val = (x 1).val; rw [e1]; omega

/-- The body's value on block `n`: when the three row blocks are rows `4000 n …` of their arrays and the bias row and
    weight column are whole, the body's entry at row `y` is the specification's entry at row `4000 n + y`. -/
theorem blk_val (A H : FVec Ideal ⟨2, ![100000, 128]⟩ .f32) (D : FVec Ideal ⟨2, ![100000, 1]⟩ .f32)
    (B : FVec Ideal ⟨2, ![1, 128]⟩ .f32) (W : FVec Ideal ⟨2, ![128, 1]⟩ .f32)
    (x0 x1 : Vec Ideal S4000x128 .f32) (x2 : Vec Ideal S4000x1 .f32) (x3 : Vec Ideal S1x128 .f32) (x4 : Vec Ideal S128x1 .f32)
    (n : Nat)
    (h0 : ∀ (x : S4000x128.Idx) (k : S100000x128.Idx), (k 0).val = 4000 * n + (x 0).val → (k 1).val = (x 1).val → x0 x = A k)
    (h1 : ∀ (x : S4000x128.Idx) (k : S100000x128.Idx), (k 0).val = 4000 * n + (x 0).val → (k 1).val = (x 1).val → x1 x = H k)
    (h2 : ∀ (x : S4000x1.Idx) (k : S100000x1.Idx), (k 0).val = 4000 * n + (x 0).val → (k 1).val = (x 1).val → x2 x = D k)
    (h3 : x3 = B) (h4 : x4 = W)
    (y : S4000x1.Idx) (i : S100000x1.Idx) (hi0 : (i 0).val = 4000 * n + (y 0).val) (hi1 : (i 1).val = (y 1).val) :
    k2_pay1 x0 x1 x2 x3 x4 y = Cert.Spec.hhSpec A H D B W i := by
  obtain ⟨p, q, rfl⟩ : ∃ (p : Fin 4000) (q : Fin 1), y = ix2 p q := ⟨y 0, y 1, eq_ix2 y⟩
  have hi0' : (i 0).val = 4000 * n + p.val := hi0
  have hq : q = (i 1 : Fin 1) := Fin.ext hi1.symm
  subst h3 h4
  refine (pay_apply x0 x1 x2 x3 x4 p q).trans ?_
  unfold Cert.Spec.hhSpec
  refine Finset.sum_congr rfl fun k _ => ?_
  have hx : (ix2 k q : S128x1.Idx) = ix2 k (i 1 : Fin 1) := funext fun a => by
    match a with
    | ⟨0, _⟩ => rfl
    | ⟨1, _⟩ => exact hq
  rw [h0 (ix2 p k) (ix2 (i 0 : Fin 100000) k) hi0' rfl, h1 (ix2 p k) (ix2 (i 0 : Fin 100000) k) hi0' rfl,
    h2 (ix2 p (0 : Fin 1)) (ix2 (i 0 : Fin 100000) (0 : Fin 1)) hi0' rfl, hx]
  rfl

/-- What point `t` writes back is block `t` of the specification's array. -/
theorem flushed_eq (c : Dev nD) (t : Fin cfg2.N) :
    (dat2 (F := Ideal) V c).flushed 5 t = ((cfg2.win 5).blk t).view.read (Elt Ideal)
      (Cert.Spec.hhSpec (V c main_v134) (V c main_v3_2) (V c main_v121) (V c main_v135) (V c main_arg14)) := by
  show (cfg2.win 5).cut (grid2.coords t) ((dat2 V c).after 5 t) = _
  rw [after2_5]
  unfold out2_5
  rw [View.canon_unit_zero hz]
  simp only [View.ld_unit_zero (S := S4000x128) hz, View.ld_unit_zero (S := S4000x1) hz, View.ld_unit_zero (S := S1x128) hz,
    View.ld_unit_zero (S := S128x1) hz]
  obtain ⟨-, -, -, -, -, -, -, -, -, -, e0, e1⟩ := idx_facts t
  funext j
  show k2_pay1 (iblk2 V c 0 t) (iblk2 V c 1 t) (iblk2 V c 2 t) (iblk2 V c 3 t) (iblk2 V c 4 t) j
    = Cert.Spec.hhSpec (V c main_v134) (V c main_v3_2) (V c main_v121) (V c main_v135) (V c main_arg14) (((cfg2.win 5).blk t).view.emb j)
  refine blk_val _ _ _ _ _ _ _ _ _ _ t.val (fun x k h0 h1 => win0_rows V c t x k h0 h1) (fun x k h0 h1 => win1_rows V c t x k h0 h1)
    (fun x k h0 h1 => win2_rows V c t x k h0 h1) (win3_whole V c t) (win4_whole V c t) j _ ?_ ?_
  · show win2_5.index t (0 : Fin 2) * 4000 + 1 * (j 0).val = 4000 * t.val + (j 0).val
    rw [e0]; omega
  · show win2_5.index t (1 : Fin 2) * 1 + 1 * (j 1).val = (j 1).val
    rw [e1]; omega

/-- An index of the array is in point `t`'s block iff each coordinate is in the block's range on its axis. -/
theorem mem_blk (t : Fin cfg2.N) (i : S100000x1.Idx) :
    i ∈ ((cfg2.win 5).blk t).view.set ↔ ∀ a : Fin 2, win2_5.index t a * S4000x1.size a ≤ (i a).val ∧ (i a).val < win2_5.index t a * S4000x1.size a + S4000x1.size a := by
  show i ∈ ((View.whole main_v136).slice (win2_5.rect t)).set ↔ _
  rw [View.set_slice_whole, Rect.mem_set_unit]
  exact Iff.rfl

/-- Row `r` of the array is in the block of point `r / 4000`. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 4000 ≤ (i 0).val ∧ (i 0).val < win2_5.index t (0 : Fin 2) * 4000 + 4000
    rw [e0, ht]; omega
  | ⟨1, _⟩ =>
    show win2_5.index t (1 : Fin 2) * 1 ≤ (i 1).val ∧ (i 1).val < win2_5.index t (1 : Fin 2) * 1 + 1
    rw [e1]; omega

end R2

variable (V : (c : Dev nD) → (b : Ref sig .tc) → Buf (Elt Ideal) ((c : Thread nD τ).loc b))

theorem reg2_hh (c : Dev nD) :
    (dat2 (F := Ideal) V c).arrAt 5 cfg2.N
      = Cert.Spec.hhSpec (V c main_v134) (V c main_v3_2) (V c main_v121) (V c main_v135) (V c main_arg14) :=
  (dat2 (F := Ideal) V c).arrAt_eq_of_cover 5 _ (fun t _ => R2.flushed_eq V c t) R2.cover

end Cert.KernelIdeal.Reg

end
-- ==== Proof.KRead.lean ====
/-
  The fused program's two results read back through its run: the host stretches are read operation by operation, each fused
  kernel's output array is its region's value, and what a stretch or a region does not write is carried across unchanged.

  * A host stretch writes a known list of buffers; any other buffer keeps its contents across it.
  * Each buffer a later step reads is given, after the stretch that writes it, as the printed operations composed over the
    contents the stretch starts from.
  * The program writes every buffer once, so a buffer's contents, from the boundary after its writer on, is one fixed
    function of the launch memory: the fold states it at every boundary where a later step still needs it.
-/
import proofs.«428299_j83202106458535_3_alg».proof.Proof.Gen.KernelIdeal.Frame
import proofs.«428299_j83202106458535_3_alg».proof.Proof.KVal
import proofs.«428299_j83202106458535_3_alg».proof.Proof.Reg0
import proofs.«428299_j83202106458535_3_alg».proof.Proof.Reg1
import proofs.«428299_j83202106458535_3_alg».proof.Proof.Reg2
import Idealize.ShloMosaic.Lib.StableHlo.Run

set_option maxRecDepth 16384

noncomputable section

namespace Cert.KernelIdeal.KRead

open Cert.KernelIdeal Cert.KernelIdeal.Gen Cert.KernelIdeal.Edge Cert.KernelIdeal.KVal
open Idealize.ShloMosaic Idealize.ShloMosaic.TcCoe Idealize.SL.Sem

/-! ## What each host stretch writes, and that it leaves every other buffer as it was -/

section Writes

/-- The buffers `hostOps0` writes. -/
abbrev w0 : List (Ref sig .tc) :=
  [ main_v0, main_v1, main_c ]
theorem w0_writes : (hostOps0 : List (HloOp τ sig (Elt Ideal))).Forall
    fun op => op.writes ⊆ (w0.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w0_keep (W : Valuation τ sig (Elt Ideal)) (r : Ref sig .tc) (h : r ∉ w0) :
    StableHlo.after hostOps0 W (Proc.devRef .tc r) = W (Proc.devRef .tc r) :=
  StableHlo.after_of_writes_sub hostOps0 W w0_writes h

/-- The buffers `hostOps0_1` writes. -/
abbrev w0_1 : List (Ref sig .tc) :=
  [ main_call0_v0, main_v2 ]
theorem w0_1_writes : (hostOps0_1 : List (HloOp τ sig (Elt Ideal))).Forall
    fun op => op.writes ⊆ (w0_1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w0_1_keep (W : Valuation τ sig (Elt Ideal)) (r : Ref sig .tc) (h : r ∉ w0_1) :
    StableHlo.after hostOps0_1 W (Proc.devRef .tc r) = W (Proc.devRef .tc r) :=
  StableHlo.after_of_writes_sub hostOps0_1 W w0_1_writes h

/-- The buffers `hostOps1` writes. -/
abbrev w1 : List (Ref sig .tc) :=
  [ main_v4, main_v5, main_v6, main_v7, main_cst, main_v8, main_cst_0, main_v9, main_v10, main_v11,
    main_cst_1, main_v12, main_v13, main_v14 ]
theorem w1_writes : (hostOps1 : List (HloOp τ sig (Elt Ideal))).Forall
    fun op => op.writes ⊆ (w1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w1_keep (W : Valuation τ sig (Elt Ideal)) (r : Ref sig .tc) (h : r ∉ w1) :
    StableHlo.after hostOps1 W (Proc.devRef .tc r) = W (Proc.devRef .tc r) :=
  StableHlo.after_of_writes_sub hostOps1 W w1_writes h

/-- The buffers `hostOps1_1` writes. -/
abbrev w1_1 : List (Ref sig .tc) :=
  [ main_call1_v0, main_call1_v1_0, main_v15 ]
theorem w1_1_writes : (hostOps1_1 : List (HloOp τ sig (Elt Ideal))).Forall
    fun op => op.writes ⊆ (w1_1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w1_1_keep (W : Valuation τ sig (Elt Ideal)) (r : Ref sig .tc) (h : r ∉ w1_1) :
    StableHlo.after hostOps1_1 W (Proc.devRef .tc r) = W (Proc.devRef .tc r) :=
  StableHlo.after_of_writes_sub hostOps1_1 W w1_1_writes h

/-- The buffers `hostOps1_2` writes. -/
abbrev w1_2 : List (Ref sig .tc) :=
  [ main_c_2, main_v16, main_v17, main_c_3, main_v18, main_v19, main_v20, main_v21, main_v22, main_c_4,
    main_v23, main_v24, main_c_5, main_v25, main_v26, main_v27, main_v28, main_v29, main_c_6, main_v30,
    main_v31, main_c_7, main_v32, main_v33, main_v34, main_v35, main_v36, main_c_8, main_v37, main_v38,
    main_c_9, main_v39, main_v40, main_v41, main_v42, main_v43, main_v44, main_v45, main_v46, main_c_10,
    main_v47, main_v48, main_c_11, main_v49, main_v50, main_v51, main_v52, main_v53, main_v54, main_v55,
    main_v56, main_cst_12, main_v57, main_v58, main_v59, main_v60 ]
theorem w1_2_writes : (hostOps1_2 : List (HloOp τ sig (Elt Ideal))).Forall
    fun op => op.writes ⊆ (w1_2.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w1_2_keep (W : Valuation τ sig (Elt Ideal)) (r : Ref sig .tc) (h : r ∉ w1_2) :
    StableHlo.after hostOps1_2 W (Proc.devRef .tc r) = W (Proc.devRef .tc r) :=
  StableHlo.after_of_writes_sub hostOps1_2 W w1_2_writes h

/-- The buffers `hostOps2` writes. -/
abbrev w2 : List (Ref sig .tc) :=
  [ main_c_13, main_v62, main_v63, main_c_14, main_v64, main_v65, main_v66, main_v67, main_v68, main_v69,
    main_v70, main_cst_15, main_v71, main_v72, main_v73, main_v74, main_v75, main_v76, main_v77, main_v78,
    main_v79, main_v80, main_v81, main_v82, main_cst_16, main_v83, main_cst_17, main_v84, main_v85,
    main_v86, main_cst_18, main_v87, main_v88, main_v89 ]
theorem w2_writes : (hostOps2 : List (HloOp τ sig (Elt Ideal))).Forall
    fun op => op.writes ⊆ (w2.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w2_keep (W : Valuation τ sig (Elt Ideal)) (r : Ref sig .tc) (h : r ∉ w2) :
    StableHlo.after hostOps2 W (Proc.devRef .tc r) = W (Proc.devRef .tc r) :=
  StableHlo.after_of_writes_sub hostOps2 W w2_writes h

/-- The buffers `hostOps2_1` writes. -/
abbrev w2_1 : List (Ref sig .tc) :=
  [ main_call2_v0, main_call2_v1_0, main_v90 ]
theorem w2_1_writes : (hostOps2_1 : List (HloOp τ sig (Elt Ideal))).Forall
    fun op => op.writes ⊆ (w2_1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w2_1_keep (W : Valuation τ sig (Elt Ideal)) (r : Ref sig .tc) (h : r ∉ w2_1) :
    StableHlo.after hostOps2_1 W (Proc.devRef .tc r) = W (Proc.devRef .tc r) :=
  StableHlo.after_of_writes_sub hostOps2_1 W w2_1_writes h

/-- The buffers `hostOps2_2` writes. -/
abbrev w2_2 : List (Ref sig .tc) :=
  [ main_c_19, main_v91, main_v92, main_c_20, main_v93, main_v94, main_v95, main_v96, main_v97, main_c_21,
    main_v98, main_v99, main_c_22, main_v100, main_v101, main_v102, main_v103, main_v104, main_c_23,
    main_v105, main_v106, main_c_24, main_v107, main_v108, main_v109, main_v110, main_v111, main_c_25,
    main_v112, main_v113, main_c_26, main_v114, main_v115, main_v116, main_v117, main_v118, main_v119,
    main_v120, main_v121, main_c_27, main_v122, main_v123, main_c_28, main_v124, main_v125, main_v126,
    main_v127, main_v128, main_v129, main_v130, main_v131, main_cst_29, main_v132, main_v133, main_v134,
    main_v135 ]
theorem w2_2_writes : (hostOps2_2 : List (HloOp τ sig (Elt Ideal))).Forall
    fun op => op.writes ⊆ (w2_2.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w2_2_keep (W : Valuation τ sig (Elt Ideal)) (r : Ref sig .tc) (h : r ∉ w2_2) :
    StableHlo.after hostOps2_2 W (Proc.devRef .tc r) = W (Proc.devRef .tc r) :=
  StableHlo.after_of_writes_sub hostOps2_2 W w2_2_writes h

/-- The buffers `hostOps3` writes. -/
abbrev w3 : List (Ref sig .tc) :=
  [ main_c_30, main_v137, main_v138, main_c_31, main_v139, main_v140, main_v141, main_v142, main_v143,
    main_v144, main_v145, main_cst_32, main_v146, main_v147, main_v148, main_v149, main_v150, main_v151,
    main_v152, main_v153, main_v154, main_cst_33, main_v155, main_v156, main_v157, main_v158 ]
theorem w3_writes : (hostOps3 : List (HloOp τ sig (Elt Ideal))).Forall
    fun op => op.writes ⊆ (w3.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem w3_keep (W : Valuation τ sig (Elt Ideal)) (r : Ref sig .tc) (h : r ∉ w3) :
    StableHlo.after hostOps3 W (Proc.devRef .tc r) = W (Proc.devRef .tc r) :=
  StableHlo.after_of_writes_sub hostOps3 W w3_writes h

end Writes

/-! ## The host stretches read operation by operation, from any buffer contents -/

section Stretch

variable (W : Valuation τ sig (Elt Ideal))

theorem s0_v0 : StableHlo.after hostOps0 W (Proc.devRef .tc main_v0) = rowK (W (Proc.devRef .tc main_arg7)) := by
  after_results_simp <;> rfl
theorem s0_v1 : StableHlo.after hostOps0 W (Proc.devRef .tc main_v1) = wcatK (W (Proc.devRef .tc main_arg8))
    (W (Proc.devRef .tc main_arg12)) := by
  after_results_simp <;> rfl
theorem s0_c : StableHlo.after hostOps0 W (Proc.devRef .tc main_c) = constantI S_ 32 0#32 := by
  after_results_simp <;> rfl
theorem s0_1_v2 : StableHlo.after hostOps0_1 W (Proc.devRef .tc main_v2)
    = pad S32x128 ![0, 0] ![4, 0] ![0, 0] (W (Proc.devRef .tc main_arg5))
        (sitofp .f32 ((W (Proc.devRef .tc main_c)) : IVec S_ 32) : FVec Ideal S_ .f32)
        pads_S28x128_S32x128_040_000 h_S_ := by
  after_results_simp <;> rfl

theorem s1_v5 : StableHlo.after hostOps1 W (Proc.devRef .tc main_v5) = srcI (W (Proc.devRef .tc main_arg2)) := by
  after_results_simp <;> rfl
theorem s1_v7 : StableHlo.after hostOps1 W (Proc.devRef .tc main_v7) = dstI (W (Proc.devRef .tc main_arg2)) := by
  after_results_simp <;> rfl
theorem s1_v14 : StableHlo.after hostOps1 W (Proc.devRef .tc main_v14)
    = (dinvI (dstI (W (Proc.devRef .tc main_arg2))) : FVec Ideal S100000 .f32) := by
  after_results_simp <;> rfl
theorem s1_1_v15 : StableHlo.after hostOps1_1 W (Proc.devRef .tc main_v15) = argsortI (W (Proc.devRef .tc main_v7)) :=
    by
  after_results_simp <;> rfl

theorem s1_2_v22 : StableHlo.after hostOps1_2 W (Proc.devRef .tc main_v22) = takeI (W (Proc.devRef .tc main_v5))
    (W (Proc.devRef .tc main_v15)) := by
  after_results_simp <;> rfl
theorem s1_2_v29 : StableHlo.after hostOps1_2 W (Proc.devRef .tc main_v29) = takeI (W (Proc.devRef .tc main_v7))
    (W (Proc.devRef .tc main_v15)) := by
  after_results_simp <;> rfl
theorem s1_2_v44 : StableHlo.after hostOps1_2 W (Proc.devRef .tc main_v44)
    = (coefI (W (Proc.devRef .tc main_v14)) (takeI (W (Proc.devRef .tc main_v5)) (W (Proc.devRef .tc main_v15)))
        (takeI (W (Proc.devRef .tc main_v7)) (W (Proc.devRef .tc main_v15))) : FVec Ideal S220000 .f32) := by
  after_results_simp <;> rfl
theorem s1_2_v46 : StableHlo.after hostOps1_2 W (Proc.devRef .tc main_v46) = dsqK (W (Proc.devRef .tc main_v14)) := by
  after_results_simp <;> rfl
theorem s1_2_v59 : StableHlo.after hostOps1_2 W (Proc.devRef .tc main_v59)
    = (agg128I (W (Proc.devRef .tc main_v3_1)) (coefI (W (Proc.devRef .tc main_v14))
        (takeI (W (Proc.devRef .tc main_v5)) (W (Proc.devRef .tc main_v15)))
        (takeI (W (Proc.devRef .tc main_v7)) (W (Proc.devRef .tc main_v15))))
        (takeI (W (Proc.devRef .tc main_v5)) (W (Proc.devRef .tc main_v15)))
            (takeI (W (Proc.devRef .tc main_v7)) (W (Proc.devRef .tc main_v15))) : FVec Ideal S100000x128 .f32) := by
  after_results_simp <;> rfl
theorem s1_2_v60 : StableHlo.after hostOps1_2 W (Proc.devRef .tc main_v60) = rowK (W (Proc.devRef .tc main_arg9)) :=
    by
  after_results_simp <;> rfl

theorem s2_v78 : StableHlo.after hostOps2 W (Proc.devRef .tc main_v78)
    = (addf (addf (agg1I (W (Proc.devRef .tc main_v61)) (W (Proc.devRef .tc main_v44)) (W (Proc.devRef .tc main_v22))
        (W (Proc.devRef .tc main_v29))) (mulf (W (Proc.devRef .tc main_v61)) (W (Proc.devRef .tc main_v46))))
        (b2K (W (Proc.devRef .tc main_arg11))) : FVec Ideal S100000x1 .f32) := by
  after_results_simp <;> rfl
theorem s2_v80 : StableHlo.after hostOps2 W (Proc.devRef .tc main_v80) = srcI (W (Proc.devRef .tc main_arg3)) := by
  after_results_simp <;> rfl
theorem s2_v82 : StableHlo.after hostOps2 W (Proc.devRef .tc main_v82) = dstI (W (Proc.devRef .tc main_arg3)) := by
  after_results_simp <;> rfl
theorem s2_v89 : StableHlo.after hostOps2 W (Proc.devRef .tc main_v89)
    = (dinvI (dstI (W (Proc.devRef .tc main_arg3))) : FVec Ideal S100000 .f32) := by
  after_results_simp <;> rfl
theorem s2_1_v90 : StableHlo.after hostOps2_1 W (Proc.devRef .tc main_v90) = argsortI (W (Proc.devRef .tc main_v82))
    := by
  after_results_simp <;> rfl

theorem s2_2_v97 : StableHlo.after hostOps2_2 W (Proc.devRef .tc main_v97) = takeI (W (Proc.devRef .tc main_v80))
    (W (Proc.devRef .tc main_v90)) := by
  after_results_simp <;> rfl
theorem s2_2_v104 : StableHlo.after hostOps2_2 W (Proc.devRef .tc main_v104) = takeI (W (Proc.devRef .tc main_v82))
    (W (Proc.devRef .tc main_v90)) := by
  after_results_simp <;> rfl
theorem s2_2_v119 : StableHlo.after hostOps2_2 W (Proc.devRef .tc main_v119)
    = (coefI (W (Proc.devRef .tc main_v89)) (takeI (W (Proc.devRef .tc main_v80)) (W (Proc.devRef .tc main_v90)))
        (takeI (W (Proc.devRef .tc main_v82)) (W (Proc.devRef .tc main_v90))) : FVec Ideal S220000 .f32) := by
  after_results_simp <;> rfl
theorem s2_2_v121 : StableHlo.after hostOps2_2 W (Proc.devRef .tc main_v121) = dsqK (W (Proc.devRef .tc main_v89)) :=
    by
  after_results_simp <;> rfl
theorem s2_2_v134 : StableHlo.after hostOps2_2 W (Proc.devRef .tc main_v134)
    = (agg128I (W (Proc.devRef .tc main_v3_2)) (coefI (W (Proc.devRef .tc main_v89))
        (takeI (W (Proc.devRef .tc main_v80)) (W (Proc.devRef .tc main_v90)))
        (takeI (W (Proc.devRef .tc main_v82)) (W (Proc.devRef .tc main_v90))))
        (takeI (W (Proc.devRef .tc main_v80)) (W (Proc.devRef .tc main_v90)))
            (takeI (W (Proc.devRef .tc main_v82)) (W (Proc.devRef .tc main_v90))) : FVec Ideal S100000x128 .f32) := by
  after_results_simp <;> rfl
theorem s2_2_v135 : StableHlo.after hostOps2_2 W (Proc.devRef .tc main_v135) = rowK (W (Proc.devRef .tc main_arg13))
    := by
  after_results_simp <;> rfl

theorem s3_v158 : StableHlo.after hostOps3 W (Proc.devRef .tc main_v158)
    = finI (W (Proc.devRef .tc main_v78))
        (addf (addf (agg1I (W (Proc.devRef .tc main_v136)) (W (Proc.devRef .tc main_v119))
            (W (Proc.devRef .tc main_v97)) (W (Proc.devRef .tc main_v104))) (mulf (W (Proc.devRef .tc main_v136))
            (W (Proc.devRef .tc main_v121))))
          (b2K (W (Proc.devRef .tc main_arg15))))
        (W (Proc.devRef .tc main_arg4)) := by
  after_results_simp <;> rfl

end Stretch

/-! ## One branch's edge-side values, named -/

section Branch

/-- `rsqrt(1 + in-degree)` of the branch's edge list. -/
def eDinv (e : IVec S2x220000 32) : FVec Ideal S100000 .f32 := dinvI (dstI e)
/-- The sources and the destinations of the edges, in the stable order of the destinations. -/
def eSrc (e : IVec S2x220000 32) : IVec S220000 32 := takeI (srcI e) (argsortI (dstI e))
def eDst (e : IVec S2x220000 32) : IVec S220000 32 := takeI (dstI e) (argsortI (dstI e))
/-- The symmetric normalisation per edge, in that order. -/
def eCoef (e : IVec S2x220000 32) : FVec Ideal S220000 .f32 := coefI (eDinv e) (eSrc e) (eDst e)
/-- The first aggregation of `h` along the edges. -/
def eAgg (h : FVec Ideal S100000x128 .f32) (e : IVec S2x220000 32) : FVec Ideal S100000x128 .f32 :=
  agg128I h (eCoef e) (eSrc e) (eDst e)
/-- The fused combine's value on the branch. -/
def hhK (h : FVec Ideal S100000x128 .f32) (e : IVec S2x220000 32) (b1 : FVec Ideal S128 .f32) (w2 : FVec Ideal S128x1 .f32) :
    FVec Ideal S100000x1 .f32 :=
  Cert.Spec.hhSpec (eAgg h e) h (dsqK (eDinv e)) (rowK b1) w2

end Branch

/-! ## The fold of buffer contents, boundary by boundary: each buffer read later, as a function of the launch memory -/

section Fold

variable (m : (ℓ : Loc nD τ sig) → Buf (Elt Ideal) ℓ) (ρ : Dev nD → PrngReg)

/-- The node features as a function of the launch memory. -/
def kx (c : Dev nD) : FVec Ideal S100000x128 .f32 :=
  Cert.Spec.xSpec (m ((c.tc : Thread nD τ).loc main_arg0)) (m ((c.tc : Thread nD τ).loc main_arg1))
    (embPadK (m ((c.tc : Thread nD τ).loc main_arg5))) (m ((c.tc : Thread nD τ).loc main_arg6))
    (rowK (m ((c.tc : Thread nD τ).loc main_arg7)))

/-! ### At launch -/

theorem W0_arg0 (c : Dev nD) : W0 (F := Ideal) m ρ c (Proc.devRef .tc main_arg0) = m
    ((c.tc : Thread nD τ).loc main_arg0) := rfl
theorem W0_arg1 (c : Dev nD) : W0 (F := Ideal) m ρ c (Proc.devRef .tc main_arg1) = m
    ((c.tc : Thread nD τ).loc main_arg1) := rfl
theorem W0_arg5 (c : Dev nD) : W0 (F := Ideal) m ρ c (Proc.devRef .tc main_arg5) = m
    ((c.tc : Thread nD τ).loc main_arg5) := rfl
theorem W0_arg6 (c : Dev nD) : W0 (F := Ideal) m ρ c (Proc.devRef .tc main_arg6) = m
    ((c.tc : Thread nD τ).loc main_arg6) := rfl
theorem W0_arg7 (c : Dev nD) : W0 (F := Ideal) m ρ c (Proc.devRef .tc main_arg7) = m
    ((c.tc : Thread nD τ).loc main_arg7) := rfl
theorem W0_arg8 (c : Dev nD) : W0 (F := Ideal) m ρ c (Proc.devRef .tc main_arg8) = m
    ((c.tc : Thread nD τ).loc main_arg8) := rfl
theorem W0_arg12 (c : Dev nD) : W0 (F := Ideal) m ρ c (Proc.devRef .tc main_arg12) = m
    ((c.tc : Thread nD τ).loc main_arg12) := rfl
theorem W0_arg2 (c : Dev nD) : W0 (F := Ideal) m ρ c (Proc.devRef .tc main_arg2) = m
    ((c.tc : Thread nD τ).loc main_arg2) := rfl
theorem W0_arg9 (c : Dev nD) : W0 (F := Ideal) m ρ c (Proc.devRef .tc main_arg9) = m
    ((c.tc : Thread nD τ).loc main_arg9) := rfl
theorem W0_arg10 (c : Dev nD) : W0 (F := Ideal) m ρ c (Proc.devRef .tc main_arg10) = m
    ((c.tc : Thread nD τ).loc main_arg10) := rfl
theorem W0_arg11 (c : Dev nD) : W0 (F := Ideal) m ρ c (Proc.devRef .tc main_arg11) = m
    ((c.tc : Thread nD τ).loc main_arg11) := rfl
theorem W0_arg3 (c : Dev nD) : W0 (F := Ideal) m ρ c (Proc.devRef .tc main_arg3) = m
    ((c.tc : Thread nD τ).loc main_arg3) := rfl
theorem W0_arg13 (c : Dev nD) : W0 (F := Ideal) m ρ c (Proc.devRef .tc main_arg13) = m
    ((c.tc : Thread nD τ).loc main_arg13) := rfl
theorem W0_arg14 (c : Dev nD) : W0 (F := Ideal) m ρ c (Proc.devRef .tc main_arg14) = m
    ((c.tc : Thread nD τ).loc main_arg14) := rfl
theorem W0_arg15 (c : Dev nD) : W0 (F := Ideal) m ρ c (Proc.devRef .tc main_arg15) = m
    ((c.tc : Thread nD τ).loc main_arg15) := rfl
theorem W0_arg4 (c : Dev nD) : W0 (F := Ideal) m ρ c (Proc.devRef .tc main_arg4) = m
    ((c.tc : Thread nD τ).loc main_arg4) := rfl

/-! ### After `hostOps0` -/

theorem W1_arg0 (c : Dev nD) :
    W1 (F := Ideal) m ρ c (Proc.devRef .tc main_arg0)
      = m ((c.tc : Thread nD τ).loc main_arg0) :=
  (w0_keep (W0 (F := Ideal) m ρ c) main_arg0 (by decide)).trans (W0_arg0 m ρ c)
theorem W1_arg1 (c : Dev nD) :
    W1 (F := Ideal) m ρ c (Proc.devRef .tc main_arg1)
      = m ((c.tc : Thread nD τ).loc main_arg1) :=
  (w0_keep (W0 (F := Ideal) m ρ c) main_arg1 (by decide)).trans (W0_arg1 m ρ c)
theorem W1_arg5 (c : Dev nD) :
    W1 (F := Ideal) m ρ c (Proc.devRef .tc main_arg5)
      = m ((c.tc : Thread nD τ).loc main_arg5) :=
  (w0_keep (W0 (F := Ideal) m ρ c) main_arg5 (by decide)).trans (W0_arg5 m ρ c)
theorem W1_c (c : Dev nD) : W1 (F := Ideal) m ρ c (Proc.devRef .tc main_c) = constantI S_ 32 0#32 :=
  s0_c (W0 (F := Ideal) m ρ c)
theorem W1_arg6 (c : Dev nD) :
    W1 (F := Ideal) m ρ c (Proc.devRef .tc main_arg6)
      = m ((c.tc : Thread nD τ).loc main_arg6) :=
  (w0_keep (W0 (F := Ideal) m ρ c) main_arg6 (by decide)).trans (W0_arg6 m ρ c)
theorem W1_v0 (c : Dev nD) :
    W1 (F := Ideal) m ρ c (Proc.devRef .tc main_v0)
      = rowK (m ((c.tc : Thread nD τ).loc main_arg7)) :=
  (s0_v0 (W0 (F := Ideal) m ρ c)).trans (by
    rw [W0_arg7 m ρ c] <;> rfl)
theorem W1_v1 (c : Dev nD) :
    W1 (F := Ideal) m ρ c (Proc.devRef .tc main_v1)
      = wcatK (m ((c.tc : Thread nD τ).loc main_arg8)) (m ((c.tc : Thread nD τ).loc main_arg12)) :=
  (s0_v1 (W0 (F := Ideal) m ρ c)).trans (by
    rw [W0_arg8 m ρ c, W0_arg12 m ρ c] <;> rfl)
theorem W1_arg2 (c : Dev nD) :
    W1 (F := Ideal) m ρ c (Proc.devRef .tc main_arg2)
      = m ((c.tc : Thread nD τ).loc main_arg2) :=
  (w0_keep (W0 (F := Ideal) m ρ c) main_arg2 (by decide)).trans (W0_arg2 m ρ c)
theorem W1_arg9 (c : Dev nD) :
    W1 (F := Ideal) m ρ c (Proc.devRef .tc main_arg9)
      = m ((c.tc : Thread nD τ).loc main_arg9) :=
  (w0_keep (W0 (F := Ideal) m ρ c) main_arg9 (by decide)).trans (W0_arg9 m ρ c)
theorem W1_arg10 (c : Dev nD) :
    W1 (F := Ideal) m ρ c (Proc.devRef .tc main_arg10)
      = m ((c.tc : Thread nD τ).loc main_arg10) :=
  (w0_keep (W0 (F := Ideal) m ρ c) main_arg10 (by decide)).trans (W0_arg10 m ρ c)
theorem W1_arg11 (c : Dev nD) :
    W1 (F := Ideal) m ρ c (Proc.devRef .tc main_arg11)
      = m ((c.tc : Thread nD τ).loc main_arg11) :=
  (w0_keep (W0 (F := Ideal) m ρ c) main_arg11 (by decide)).trans (W0_arg11 m ρ c)
theorem W1_arg3 (c : Dev nD) :
    W1 (F := Ideal) m ρ c (Proc.devRef .tc main_arg3)
      = m ((c.tc : Thread nD τ).loc main_arg3) :=
  (w0_keep (W0 (F := Ideal) m ρ c) main_arg3 (by decide)).trans (W0_arg3 m ρ c)
theorem W1_arg13 (c : Dev nD) :
    W1 (F := Ideal) m ρ c (Proc.devRef .tc main_arg13)
      = m ((c.tc : Thread nD τ).loc main_arg13) :=
  (w0_keep (W0 (F := Ideal) m ρ c) main_arg13 (by decide)).trans (W0_arg13 m ρ c)
theorem W1_arg14 (c : Dev nD) :
    W1 (F := Ideal) m ρ c (Proc.devRef .tc main_arg14)
      = m ((c.tc : Thread nD τ).loc main_arg14) :=
  (w0_keep (W0 (F := Ideal) m ρ c) main_arg14 (by decide)).trans (W0_arg14 m ρ c)
theorem W1_arg15 (c : Dev nD) :
    W1 (F := Ideal) m ρ c (Proc.devRef .tc main_arg15)
      = m ((c.tc : Thread nD τ).loc main_arg15) :=
  (w0_keep (W0 (F := Ideal) m ρ c) main_arg15 (by decide)).trans (W0_arg15 m ρ c)
theorem W1_arg4 (c : Dev nD) :
    W1 (F := Ideal) m ρ c (Proc.devRef .tc main_arg4)
      = m ((c.tc : Thread nD τ).loc main_arg4) :=
  (w0_keep (W0 (F := Ideal) m ρ c) main_arg4 (by decide)).trans (W0_arg4 m ρ c)

/-! ### After `hostOps0_1` -/

theorem W2_arg0 (c : Dev nD) :
    W2 (F := Ideal) m ρ c (Proc.devRef .tc main_arg0)
      = m ((c.tc : Thread nD τ).loc main_arg0) :=
  (w0_1_keep (W1 (F := Ideal) m ρ c) main_arg0 (by decide)).trans (W1_arg0 m ρ c)
theorem W2_arg1 (c : Dev nD) :
    W2 (F := Ideal) m ρ c (Proc.devRef .tc main_arg1)
      = m ((c.tc : Thread nD τ).loc main_arg1) :=
  (w0_1_keep (W1 (F := Ideal) m ρ c) main_arg1 (by decide)).trans (W1_arg1 m ρ c)
theorem W2_v2 (c : Dev nD) :
    W2 (F := Ideal) m ρ c (Proc.devRef .tc main_v2)
      = embPadK (m ((c.tc : Thread nD τ).loc main_arg5)) :=
  (s0_1_v2 (W1 (F := Ideal) m ρ c)).trans (by
    rw [W1_arg5 m ρ c, W1_c m ρ c] <;> rfl)
theorem W2_arg6 (c : Dev nD) :
    W2 (F := Ideal) m ρ c (Proc.devRef .tc main_arg6)
      = m ((c.tc : Thread nD τ).loc main_arg6) :=
  (w0_1_keep (W1 (F := Ideal) m ρ c) main_arg6 (by decide)).trans (W1_arg6 m ρ c)
theorem W2_v0 (c : Dev nD) :
    W2 (F := Ideal) m ρ c (Proc.devRef .tc main_v0)
      = rowK (m ((c.tc : Thread nD τ).loc main_arg7)) :=
  (w0_1_keep (W1 (F := Ideal) m ρ c) main_v0 (by decide)).trans (W1_v0 m ρ c)
theorem W2_v1 (c : Dev nD) :
    W2 (F := Ideal) m ρ c (Proc.devRef .tc main_v1)
      = wcatK (m ((c.tc : Thread nD τ).loc main_arg8)) (m ((c.tc : Thread nD τ).loc main_arg12)) :=
  (w0_1_keep (W1 (F := Ideal) m ρ c) main_v1 (by decide)).trans (W1_v1 m ρ c)
theorem W2_arg2 (c : Dev nD) :
    W2 (F := Ideal) m ρ c (Proc.devRef .tc main_arg2)
      = m ((c.tc : Thread nD τ).loc main_arg2) :=
  (w0_1_keep (W1 (F := Ideal) m ρ c) main_arg2 (by decide)).trans (W1_arg2 m ρ c)
theorem W2_arg9 (c : Dev nD) :
    W2 (F := Ideal) m ρ c (Proc.devRef .tc main_arg9)
      = m ((c.tc : Thread nD τ).loc main_arg9) :=
  (w0_1_keep (W1 (F := Ideal) m ρ c) main_arg9 (by decide)).trans (W1_arg9 m ρ c)
theorem W2_arg10 (c : Dev nD) :
    W2 (F := Ideal) m ρ c (Proc.devRef .tc main_arg10)
      = m ((c.tc : Thread nD τ).loc main_arg10) :=
  (w0_1_keep (W1 (F := Ideal) m ρ c) main_arg10 (by decide)).trans (W1_arg10 m ρ c)
theorem W2_arg11 (c : Dev nD) :
    W2 (F := Ideal) m ρ c (Proc.devRef .tc main_arg11)
      = m ((c.tc : Thread nD τ).loc main_arg11) :=
  (w0_1_keep (W1 (F := Ideal) m ρ c) main_arg11 (by decide)).trans (W1_arg11 m ρ c)
theorem W2_arg3 (c : Dev nD) :
    W2 (F := Ideal) m ρ c (Proc.devRef .tc main_arg3)
      = m ((c.tc : Thread nD τ).loc main_arg3) :=
  (w0_1_keep (W1 (F := Ideal) m ρ c) main_arg3 (by decide)).trans (W1_arg3 m ρ c)
theorem W2_arg13 (c : Dev nD) :
    W2 (F := Ideal) m ρ c (Proc.devRef .tc main_arg13)
      = m ((c.tc : Thread nD τ).loc main_arg13) :=
  (w0_1_keep (W1 (F := Ideal) m ρ c) main_arg13 (by decide)).trans (W1_arg13 m ρ c)
theorem W2_arg14 (c : Dev nD) :
    W2 (F := Ideal) m ρ c (Proc.devRef .tc main_arg14)
      = m ((c.tc : Thread nD τ).loc main_arg14) :=
  (w0_1_keep (W1 (F := Ideal) m ρ c) main_arg14 (by decide)).trans (W1_arg14 m ρ c)
theorem W2_arg15 (c : Dev nD) :
    W2 (F := Ideal) m ρ c (Proc.devRef .tc main_arg15)
      = m ((c.tc : Thread nD τ).loc main_arg15) :=
  (w0_1_keep (W1 (F := Ideal) m ρ c) main_arg15 (by decide)).trans (W1_arg15 m ρ c)
theorem W2_arg4 (c : Dev nD) :
    W2 (F := Ideal) m ρ c (Proc.devRef .tc main_arg4)
      = m ((c.tc : Thread nD τ).loc main_arg4) :=
  (w0_1_keep (W1 (F := Ideal) m ρ c) main_arg4 (by decide)).trans (W1_arg4 m ρ c)

/-! ### At region 0's exit -/

theorem W3_v3_0 (c : Dev nD) : W3 (F := Ideal) m ρ c (Proc.devRef .tc main_v3_0) = kx m c :=
  (W3_arr m ρ c 6).trans ((Reg.reg0_x (V2 m ρ) c).trans (by
    rw [show V2 (F := Ideal) m ρ c main_arg0 = _ from W2_arg0 m ρ c,
      show V2 (F := Ideal) m ρ c main_arg1 = _ from W2_arg1 m ρ c,
      show V2 (F := Ideal) m ρ c main_v2 = _ from W2_v2 m ρ c,
      show V2 (F := Ideal) m ρ c main_arg6 = _ from W2_arg6 m ρ c,
      show V2 (F := Ideal) m ρ c main_v0 = _ from W2_v0 m ρ c] <;> rfl))
theorem W3_v3_1 (c : Dev nD) :
    W3 (F := Ideal) m ρ c (Proc.devRef .tc main_v3_1)
      = Cert.Spec.hLo (kx m c)
          (wcatK (m ((c.tc : Thread nD τ).loc main_arg8)) (m ((c.tc : Thread nD τ).loc main_arg12))) :=
  (W3_arr m ρ c 7).trans ((Reg.reg0_h (V2 m ρ) c).trans (by
    rw [show V2 (F := Ideal) m ρ c main_arg0 = _ from W2_arg0 m ρ c,
      show V2 (F := Ideal) m ρ c main_arg1 = _ from W2_arg1 m ρ c,
      show V2 (F := Ideal) m ρ c main_v2 = _ from W2_v2 m ρ c,
      show V2 (F := Ideal) m ρ c main_arg6 = _ from W2_arg6 m ρ c,
      show V2 (F := Ideal) m ρ c main_v0 = _ from W2_v0 m ρ c,
      show V2 (F := Ideal) m ρ c main_v1 = _ from W2_v1 m ρ c] <;> rfl))
theorem W3_arg2 (c : Dev nD) :
    W3 (F := Ideal) m ρ c (Proc.devRef .tc main_arg2)
      = m ((c.tc : Thread nD τ).loc main_arg2) :=
  (W3_of_ne m ρ c main_arg2 (by decide)).trans (W2_arg2 m ρ c)
theorem W3_arg9 (c : Dev nD) :
    W3 (F := Ideal) m ρ c (Proc.devRef .tc main_arg9)
      = m ((c.tc : Thread nD τ).loc main_arg9) :=
  (W3_of_ne m ρ c main_arg9 (by decide)).trans (W2_arg9 m ρ c)
theorem W3_arg10 (c : Dev nD) :
    W3 (F := Ideal) m ρ c (Proc.devRef .tc main_arg10)
      = m ((c.tc : Thread nD τ).loc main_arg10) :=
  (W3_of_ne m ρ c main_arg10 (by decide)).trans (W2_arg10 m ρ c)
theorem W3_arg11 (c : Dev nD) :
    W3 (F := Ideal) m ρ c (Proc.devRef .tc main_arg11)
      = m ((c.tc : Thread nD τ).loc main_arg11) :=
  (W3_of_ne m ρ c main_arg11 (by decide)).trans (W2_arg11 m ρ c)
theorem W3_v3_2 (c : Dev nD) :
    W3 (F := Ideal) m ρ c (Proc.devRef .tc main_v3_2)
      = Cert.Spec.hHi (kx m c)
          (wcatK (m ((c.tc : Thread nD τ).loc main_arg8)) (m ((c.tc : Thread nD τ).loc main_arg12))) :=
  (W3_arr m ρ c 8).trans ((Reg.reg0_hv (V2 m ρ) c).trans (by
    rw [show V2 (F := Ideal) m ρ c main_arg0 = _ from W2_arg0 m ρ c,
      show V2 (F := Ideal) m ρ c main_arg1 = _ from W2_arg1 m ρ c,
      show V2 (F := Ideal) m ρ c main_v2 = _ from W2_v2 m ρ c,
      show V2 (F := Ideal) m ρ c main_arg6 = _ from W2_arg6 m ρ c,
      show V2 (F := Ideal) m ρ c main_v0 = _ from W2_v0 m ρ c,
      show V2 (F := Ideal) m ρ c main_v1 = _ from W2_v1 m ρ c] <;> rfl))
theorem W3_arg3 (c : Dev nD) :
    W3 (F := Ideal) m ρ c (Proc.devRef .tc main_arg3)
      = m ((c.tc : Thread nD τ).loc main_arg3) :=
  (W3_of_ne m ρ c main_arg3 (by decide)).trans (W2_arg3 m ρ c)
theorem W3_arg13 (c : Dev nD) :
    W3 (F := Ideal) m ρ c (Proc.devRef .tc main_arg13)
      = m ((c.tc : Thread nD τ).loc main_arg13) :=
  (W3_of_ne m ρ c main_arg13 (by decide)).trans (W2_arg13 m ρ c)
theorem W3_arg14 (c : Dev nD) :
    W3 (F := Ideal) m ρ c (Proc.devRef .tc main_arg14)
      = m ((c.tc : Thread nD τ).loc main_arg14) :=
  (W3_of_ne m ρ c main_arg14 (by decide)).trans (W2_arg14 m ρ c)
theorem W3_arg15 (c : Dev nD) :
    W3 (F := Ideal) m ρ c (Proc.devRef .tc main_arg15)
      = m ((c.tc : Thread nD τ).loc main_arg15) :=
  (W3_of_ne m ρ c main_arg15 (by decide)).trans (W2_arg15 m ρ c)
theorem W3_arg4 (c : Dev nD) :
    W3 (F := Ideal) m ρ c (Proc.devRef .tc main_arg4)
      = m ((c.tc : Thread nD τ).loc main_arg4) :=
  (W3_of_ne m ρ c main_arg4 (by decide)).trans (W2_arg4 m ρ c)

/-! ### After `hostOps1` -/

theorem W4_v3_0 (c : Dev nD) : W4 (F := Ideal) m ρ c (Proc.devRef .tc main_v3_0) = kx m c :=
  (w1_keep (W3 (F := Ideal) m ρ c) main_v3_0 (by decide)).trans (W3_v3_0 m ρ c)
theorem W4_v3_1 (c : Dev nD) :
    W4 (F := Ideal) m ρ c (Proc.devRef .tc main_v3_1)
      = Cert.Spec.hLo (kx m c)
          (wcatK (m ((c.tc : Thread nD τ).loc main_arg8)) (m ((c.tc : Thread nD τ).loc main_arg12))) :=
  (w1_keep (W3 (F := Ideal) m ρ c) main_v3_1 (by decide)).trans (W3_v3_1 m ρ c)
theorem W4_v14 (c : Dev nD) :
    W4 (F := Ideal) m ρ c (Proc.devRef .tc main_v14)
      = eDinv (m ((c.tc : Thread nD τ).loc main_arg2)) :=
  (s1_v14 (W3 (F := Ideal) m ρ c)).trans (by
    rw [W3_arg2 m ρ c] <;> rfl)
theorem W4_v5 (c : Dev nD) :
    W4 (F := Ideal) m ρ c (Proc.devRef .tc main_v5)
      = srcI (m ((c.tc : Thread nD τ).loc main_arg2)) :=
  (s1_v5 (W3 (F := Ideal) m ρ c)).trans (by
    rw [W3_arg2 m ρ c] <;> rfl)
theorem W4_v7 (c : Dev nD) :
    W4 (F := Ideal) m ρ c (Proc.devRef .tc main_v7)
      = dstI (m ((c.tc : Thread nD τ).loc main_arg2)) :=
  (s1_v7 (W3 (F := Ideal) m ρ c)).trans (by
    rw [W3_arg2 m ρ c] <;> rfl)
theorem W4_arg9 (c : Dev nD) :
    W4 (F := Ideal) m ρ c (Proc.devRef .tc main_arg9)
      = m ((c.tc : Thread nD τ).loc main_arg9) :=
  (w1_keep (W3 (F := Ideal) m ρ c) main_arg9 (by decide)).trans (W3_arg9 m ρ c)
theorem W4_arg10 (c : Dev nD) :
    W4 (F := Ideal) m ρ c (Proc.devRef .tc main_arg10)
      = m ((c.tc : Thread nD τ).loc main_arg10) :=
  (w1_keep (W3 (F := Ideal) m ρ c) main_arg10 (by decide)).trans (W3_arg10 m ρ c)
theorem W4_arg11 (c : Dev nD) :
    W4 (F := Ideal) m ρ c (Proc.devRef .tc main_arg11)
      = m ((c.tc : Thread nD τ).loc main_arg11) :=
  (w1_keep (W3 (F := Ideal) m ρ c) main_arg11 (by decide)).trans (W3_arg11 m ρ c)
theorem W4_v3_2 (c : Dev nD) :
    W4 (F := Ideal) m ρ c (Proc.devRef .tc main_v3_2)
      = Cert.Spec.hHi (kx m c)
          (wcatK (m ((c.tc : Thread nD τ).loc main_arg8)) (m ((c.tc : Thread nD τ).loc main_arg12))) :=
  (w1_keep (W3 (F := Ideal) m ρ c) main_v3_2 (by decide)).trans (W3_v3_2 m ρ c)
theorem W4_arg3 (c : Dev nD) :
    W4 (F := Ideal) m ρ c (Proc.devRef .tc main_arg3)
      = m ((c.tc : Thread nD τ).loc main_arg3) :=
  (w1_keep (W3 (F := Ideal) m ρ c) main_arg3 (by decide)).trans (W3_arg3 m ρ c)
theorem W4_arg13 (c : Dev nD) :
    W4 (F := Ideal) m ρ c (Proc.devRef .tc main_arg13)
      = m ((c.tc : Thread nD τ).loc main_arg13) :=
  (w1_keep (W3 (F := Ideal) m ρ c) main_arg13 (by decide)).trans (W3_arg13 m ρ c)
theorem W4_arg14 (c : Dev nD) :
    W4 (F := Ideal) m ρ c (Proc.devRef .tc main_arg14)
      = m ((c.tc : Thread nD τ).loc main_arg14) :=
  (w1_keep (W3 (F := Ideal) m ρ c) main_arg14 (by decide)).trans (W3_arg14 m ρ c)
theorem W4_arg15 (c : Dev nD) :
    W4 (F := Ideal) m ρ c (Proc.devRef .tc main_arg15)
      = m ((c.tc : Thread nD τ).loc main_arg15) :=
  (w1_keep (W3 (F := Ideal) m ρ c) main_arg15 (by decide)).trans (W3_arg15 m ρ c)
theorem W4_arg4 (c : Dev nD) :
    W4 (F := Ideal) m ρ c (Proc.devRef .tc main_arg4)
      = m ((c.tc : Thread nD τ).loc main_arg4) :=
  (w1_keep (W3 (F := Ideal) m ρ c) main_arg4 (by decide)).trans (W3_arg4 m ρ c)

/-! ### After `hostOps1_1` -/

theorem W5_v3_0 (c : Dev nD) : W5 (F := Ideal) m ρ c (Proc.devRef .tc main_v3_0) = kx m c :=
  (w1_1_keep (W4 (F := Ideal) m ρ c) main_v3_0 (by decide)).trans (W4_v3_0 m ρ c)
theorem W5_v3_1 (c : Dev nD) :
    W5 (F := Ideal) m ρ c (Proc.devRef .tc main_v3_1)
      = Cert.Spec.hLo (kx m c)
          (wcatK (m ((c.tc : Thread nD τ).loc main_arg8)) (m ((c.tc : Thread nD τ).loc main_arg12))) :=
  (w1_1_keep (W4 (F := Ideal) m ρ c) main_v3_1 (by decide)).trans (W4_v3_1 m ρ c)
theorem W5_v14 (c : Dev nD) :
    W5 (F := Ideal) m ρ c (Proc.devRef .tc main_v14)
      = eDinv (m ((c.tc : Thread nD τ).loc main_arg2)) :=
  (w1_1_keep (W4 (F := Ideal) m ρ c) main_v14 (by decide)).trans (W4_v14 m ρ c)
theorem W5_v5 (c : Dev nD) :
    W5 (F := Ideal) m ρ c (Proc.devRef .tc main_v5)
      = srcI (m ((c.tc : Thread nD τ).loc main_arg2)) :=
  (w1_1_keep (W4 (F := Ideal) m ρ c) main_v5 (by decide)).trans (W4_v5 m ρ c)
theorem W5_v7 (c : Dev nD) :
    W5 (F := Ideal) m ρ c (Proc.devRef .tc main_v7)
      = dstI (m ((c.tc : Thread nD τ).loc main_arg2)) :=
  (w1_1_keep (W4 (F := Ideal) m ρ c) main_v7 (by decide)).trans (W4_v7 m ρ c)
theorem W5_v15 (c : Dev nD) :
    W5 (F := Ideal) m ρ c (Proc.devRef .tc main_v15)
      = argsortI (dstI (m ((c.tc : Thread nD τ).loc main_arg2))) :=
  (s1_1_v15 (W4 (F := Ideal) m ρ c)).trans (by
    rw [W4_v7 m ρ c] <;> rfl)
theorem W5_arg9 (c : Dev nD) :
    W5 (F := Ideal) m ρ c (Proc.devRef .tc main_arg9)
      = m ((c.tc : Thread nD τ).loc main_arg9) :=
  (w1_1_keep (W4 (F := Ideal) m ρ c) main_arg9 (by decide)).trans (W4_arg9 m ρ c)
theorem W5_arg10 (c : Dev nD) :
    W5 (F := Ideal) m ρ c (Proc.devRef .tc main_arg10)
      = m ((c.tc : Thread nD τ).loc main_arg10) :=
  (w1_1_keep (W4 (F := Ideal) m ρ c) main_arg10 (by decide)).trans (W4_arg10 m ρ c)
theorem W5_arg11 (c : Dev nD) :
    W5 (F := Ideal) m ρ c (Proc.devRef .tc main_arg11)
      = m ((c.tc : Thread nD τ).loc main_arg11) :=
  (w1_1_keep (W4 (F := Ideal) m ρ c) main_arg11 (by decide)).trans (W4_arg11 m ρ c)
theorem W5_v3_2 (c : Dev nD) :
    W5 (F := Ideal) m ρ c (Proc.devRef .tc main_v3_2)
      = Cert.Spec.hHi (kx m c)
          (wcatK (m ((c.tc : Thread nD τ).loc main_arg8)) (m ((c.tc : Thread nD τ).loc main_arg12))) :=
  (w1_1_keep (W4 (F := Ideal) m ρ c) main_v3_2 (by decide)).trans (W4_v3_2 m ρ c)
theorem W5_arg3 (c : Dev nD) :
    W5 (F := Ideal) m ρ c (Proc.devRef .tc main_arg3)
      = m ((c.tc : Thread nD τ).loc main_arg3) :=
  (w1_1_keep (W4 (F := Ideal) m ρ c) main_arg3 (by decide)).trans (W4_arg3 m ρ c)
theorem W5_arg13 (c : Dev nD) :
    W5 (F := Ideal) m ρ c (Proc.devRef .tc main_arg13)
      = m ((c.tc : Thread nD τ).loc main_arg13) :=
  (w1_1_keep (W4 (F := Ideal) m ρ c) main_arg13 (by decide)).trans (W4_arg13 m ρ c)
theorem W5_arg14 (c : Dev nD) :
    W5 (F := Ideal) m ρ c (Proc.devRef .tc main_arg14)
      = m ((c.tc : Thread nD τ).loc main_arg14) :=
  (w1_1_keep (W4 (F := Ideal) m ρ c) main_arg14 (by decide)).trans (W4_arg14 m ρ c)
theorem W5_arg15 (c : Dev nD) :
    W5 (F := Ideal) m ρ c (Proc.devRef .tc main_arg15)
      = m ((c.tc : Thread nD τ).loc main_arg15) :=
  (w1_1_keep (W4 (F := Ideal) m ρ c) main_arg15 (by decide)).trans (W4_arg15 m ρ c)
theorem W5_arg4 (c : Dev nD) :
    W5 (F := Ideal) m ρ c (Proc.devRef .tc main_arg4)
      = m ((c.tc : Thread nD τ).loc main_arg4) :=
  (w1_1_keep (W4 (F := Ideal) m ρ c) main_arg4 (by decide)).trans (W4_arg4 m ρ c)

/-! ### After `hostOps1_2` -/

theorem W6_v3_0 (c : Dev nD) : W6 (F := Ideal) m ρ c (Proc.devRef .tc main_v3_0) = kx m c :=
  (w1_2_keep (W5 (F := Ideal) m ρ c) main_v3_0 (by decide)).trans (W5_v3_0 m ρ c)
theorem W6_v59 (c : Dev nD) :
    W6 (F := Ideal) m ρ c (Proc.devRef .tc main_v59)
      = eAgg
          (Cert.Spec.hLo (kx m c) (wcatK (m ((c.tc : Thread nD τ).loc main_arg8)) (m ((c.tc : Thread nD τ).loc main_arg12))))
          (m ((c.tc : Thread nD τ).loc main_arg2)) :=
  (s1_2_v59 (W5 (F := Ideal) m ρ c)).trans (by
    rw [W5_v3_1 m ρ c, W5_v14 m ρ c, W5_v5 m ρ c, W5_v7 m ρ c, W5_v15 m ρ c] <;> rfl)
theorem W6_v3_1 (c : Dev nD) :
    W6 (F := Ideal) m ρ c (Proc.devRef .tc main_v3_1)
      = Cert.Spec.hLo (kx m c)
          (wcatK (m ((c.tc : Thread nD τ).loc main_arg8)) (m ((c.tc : Thread nD τ).loc main_arg12))) :=
  (w1_2_keep (W5 (F := Ideal) m ρ c) main_v3_1 (by decide)).trans (W5_v3_1 m ρ c)
theorem W6_v46 (c : Dev nD) :
    W6 (F := Ideal) m ρ c (Proc.devRef .tc main_v46)
      = dsqK (eDinv (m ((c.tc : Thread nD τ).loc main_arg2))) :=
  (s1_2_v46 (W5 (F := Ideal) m ρ c)).trans (by
    rw [W5_v14 m ρ c] <;> rfl)
theorem W6_v60 (c : Dev nD) :
    W6 (F := Ideal) m ρ c (Proc.devRef .tc main_v60)
      = rowK (m ((c.tc : Thread nD τ).loc main_arg9)) :=
  (s1_2_v60 (W5 (F := Ideal) m ρ c)).trans (by
    rw [W5_arg9 m ρ c] <;> rfl)
theorem W6_arg10 (c : Dev nD) :
    W6 (F := Ideal) m ρ c (Proc.devRef .tc main_arg10)
      = m ((c.tc : Thread nD τ).loc main_arg10) :=
  (w1_2_keep (W5 (F := Ideal) m ρ c) main_arg10 (by decide)).trans (W5_arg10 m ρ c)
theorem W6_v44 (c : Dev nD) :
    W6 (F := Ideal) m ρ c (Proc.devRef .tc main_v44)
      = eCoef (m ((c.tc : Thread nD τ).loc main_arg2)) :=
  (s1_2_v44 (W5 (F := Ideal) m ρ c)).trans (by
    rw [W5_v14 m ρ c, W5_v5 m ρ c, W5_v7 m ρ c, W5_v15 m ρ c] <;> rfl)
theorem W6_v22 (c : Dev nD) :
    W6 (F := Ideal) m ρ c (Proc.devRef .tc main_v22)
      = eSrc (m ((c.tc : Thread nD τ).loc main_arg2)) :=
  (s1_2_v22 (W5 (F := Ideal) m ρ c)).trans (by
    rw [W5_v5 m ρ c, W5_v15 m ρ c] <;> rfl)
theorem W6_v29 (c : Dev nD) :
    W6 (F := Ideal) m ρ c (Proc.devRef .tc main_v29)
      = eDst (m ((c.tc : Thread nD τ).loc main_arg2)) :=
  (s1_2_v29 (W5 (F := Ideal) m ρ c)).trans (by
    rw [W5_v7 m ρ c, W5_v15 m ρ c] <;> rfl)
theorem W6_arg11 (c : Dev nD) :
    W6 (F := Ideal) m ρ c (Proc.devRef .tc main_arg11)
      = m ((c.tc : Thread nD τ).loc main_arg11) :=
  (w1_2_keep (W5 (F := Ideal) m ρ c) main_arg11 (by decide)).trans (W5_arg11 m ρ c)
theorem W6_v3_2 (c : Dev nD) :
    W6 (F := Ideal) m ρ c (Proc.devRef .tc main_v3_2)
      = Cert.Spec.hHi (kx m c)
          (wcatK (m ((c.tc : Thread nD τ).loc main_arg8)) (m ((c.tc : Thread nD τ).loc main_arg12))) :=
  (w1_2_keep (W5 (F := Ideal) m ρ c) main_v3_2 (by decide)).trans (W5_v3_2 m ρ c)
theorem W6_arg3 (c : Dev nD) :
    W6 (F := Ideal) m ρ c (Proc.devRef .tc main_arg3)
      = m ((c.tc : Thread nD τ).loc main_arg3) :=
  (w1_2_keep (W5 (F := Ideal) m ρ c) main_arg3 (by decide)).trans (W5_arg3 m ρ c)
theorem W6_arg13 (c : Dev nD) :
    W6 (F := Ideal) m ρ c (Proc.devRef .tc main_arg13)
      = m ((c.tc : Thread nD τ).loc main_arg13) :=
  (w1_2_keep (W5 (F := Ideal) m ρ c) main_arg13 (by decide)).trans (W5_arg13 m ρ c)
theorem W6_arg14 (c : Dev nD) :
    W6 (F := Ideal) m ρ c (Proc.devRef .tc main_arg14)
      = m ((c.tc : Thread nD τ).loc main_arg14) :=
  (w1_2_keep (W5 (F := Ideal) m ρ c) main_arg14 (by decide)).trans (W5_arg14 m ρ c)
theorem W6_arg15 (c : Dev nD) :
    W6 (F := Ideal) m ρ c (Proc.devRef .tc main_arg15)
      = m ((c.tc : Thread nD τ).loc main_arg15) :=
  (w1_2_keep (W5 (F := Ideal) m ρ c) main_arg15 (by decide)).trans (W5_arg15 m ρ c)
theorem W6_arg4 (c : Dev nD) :
    W6 (F := Ideal) m ρ c (Proc.devRef .tc main_arg4)
      = m ((c.tc : Thread nD τ).loc main_arg4) :=
  (w1_2_keep (W5 (F := Ideal) m ρ c) main_arg4 (by decide)).trans (W5_arg4 m ρ c)

/-! ### At region 1's exit -/

theorem W7_v3_0 (c : Dev nD) : W7 (F := Ideal) m ρ c (Proc.devRef .tc main_v3_0) = kx m c :=
  (W7_of_ne m ρ c main_v3_0 (by decide)).trans (W6_v3_0 m ρ c)
theorem W7_v61 (c : Dev nD) :
    W7 (F := Ideal) m ρ c (Proc.devRef .tc main_v61)
      = hhK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) :=
  (W7_arr m ρ c 5).trans ((Reg.reg1_hh (V6 m ρ) c).trans (by
    rw [show V6 (F := Ideal) m ρ c main_v59 = _ from W6_v59 m ρ c,
      show V6 (F := Ideal) m ρ c main_v3_1 = _ from W6_v3_1 m ρ c,
      show V6 (F := Ideal) m ρ c main_v46 = _ from W6_v46 m ρ c,
      show V6 (F := Ideal) m ρ c main_v60 = _ from W6_v60 m ρ c,
      show V6 (F := Ideal) m ρ c main_arg10 = _ from W6_arg10 m ρ c] <;> rfl))
theorem W7_v44 (c : Dev nD) :
    W7 (F := Ideal) m ρ c (Proc.devRef .tc main_v44)
      = eCoef (m ((c.tc : Thread nD τ).loc main_arg2)) :=
  (W7_of_ne m ρ c main_v44 (by decide)).trans (W6_v44 m ρ c)
theorem W7_v22 (c : Dev nD) :
    W7 (F := Ideal) m ρ c (Proc.devRef .tc main_v22)
      = eSrc (m ((c.tc : Thread nD τ).loc main_arg2)) :=
  (W7_of_ne m ρ c main_v22 (by decide)).trans (W6_v22 m ρ c)
theorem W7_v29 (c : Dev nD) :
    W7 (F := Ideal) m ρ c (Proc.devRef .tc main_v29)
      = eDst (m ((c.tc : Thread nD τ).loc main_arg2)) :=
  (W7_of_ne m ρ c main_v29 (by decide)).trans (W6_v29 m ρ c)
theorem W7_v46 (c : Dev nD) :
    W7 (F := Ideal) m ρ c (Proc.devRef .tc main_v46)
      = dsqK (eDinv (m ((c.tc : Thread nD τ).loc main_arg2))) :=
  (W7_arr m ρ c 2).trans (((dat1 (V6 m ρ) c).arrAt_in 2 rfl _).trans
    ((A_eq1 (V6 m ρ) c 2).trans (W6_v46 m ρ c)))
theorem W7_arg11 (c : Dev nD) :
    W7 (F := Ideal) m ρ c (Proc.devRef .tc main_arg11)
      = m ((c.tc : Thread nD τ).loc main_arg11) :=
  (W7_of_ne m ρ c main_arg11 (by decide)).trans (W6_arg11 m ρ c)
theorem W7_v3_2 (c : Dev nD) :
    W7 (F := Ideal) m ρ c (Proc.devRef .tc main_v3_2)
      = Cert.Spec.hHi (kx m c)
          (wcatK (m ((c.tc : Thread nD τ).loc main_arg8)) (m ((c.tc : Thread nD τ).loc main_arg12))) :=
  (W7_of_ne m ρ c main_v3_2 (by decide)).trans (W6_v3_2 m ρ c)
theorem W7_arg3 (c : Dev nD) :
    W7 (F := Ideal) m ρ c (Proc.devRef .tc main_arg3)
      = m ((c.tc : Thread nD τ).loc main_arg3) :=
  (W7_of_ne m ρ c main_arg3 (by decide)).trans (W6_arg3 m ρ c)
theorem W7_arg13 (c : Dev nD) :
    W7 (F := Ideal) m ρ c (Proc.devRef .tc main_arg13)
      = m ((c.tc : Thread nD τ).loc main_arg13) :=
  (W7_of_ne m ρ c main_arg13 (by decide)).trans (W6_arg13 m ρ c)
theorem W7_arg14 (c : Dev nD) :
    W7 (F := Ideal) m ρ c (Proc.devRef .tc main_arg14)
      = m ((c.tc : Thread nD τ).loc main_arg14) :=
  (W7_of_ne m ρ c main_arg14 (by decide)).trans (W6_arg14 m ρ c)
theorem W7_arg15 (c : Dev nD) :
    W7 (F := Ideal) m ρ c (Proc.devRef .tc main_arg15)
      = m ((c.tc : Thread nD τ).loc main_arg15) :=
  (W7_of_ne m ρ c main_arg15 (by decide)).trans (W6_arg15 m ρ c)
theorem W7_arg4 (c : Dev nD) :
    W7 (F := Ideal) m ρ c (Proc.devRef .tc main_arg4)
      = m ((c.tc : Thread nD τ).loc main_arg4) :=
  (W7_of_ne m ρ c main_arg4 (by decide)).trans (W6_arg4 m ρ c)

/-! ### After `hostOps2` -/

theorem W8_v3_0 (c : Dev nD) : W8 (F := Ideal) m ρ c (Proc.devRef .tc main_v3_0) = kx m c :=
  (w2_keep (W7 (F := Ideal) m ρ c) main_v3_0 (by decide)).trans (W7_v3_0 m ρ c)
theorem W8_v78 (c : Dev nD) :
    W8 (F := Ideal) m ρ c (Proc.devRef .tc main_v78)
      = outK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) (m ((c.tc : Thread nD τ).loc main_arg11)) :=
  (s2_v78 (W7 (F := Ideal) m ρ c)).trans (by
    rw [W7_v61 m ρ c, W7_v44 m ρ c, W7_v22 m ρ c, W7_v29 m ρ c, W7_v46 m ρ c, W7_arg11 m ρ c] <;> rfl)
theorem W8_v3_2 (c : Dev nD) :
    W8 (F := Ideal) m ρ c (Proc.devRef .tc main_v3_2)
      = Cert.Spec.hHi (kx m c)
          (wcatK (m ((c.tc : Thread nD τ).loc main_arg8)) (m ((c.tc : Thread nD τ).loc main_arg12))) :=
  (w2_keep (W7 (F := Ideal) m ρ c) main_v3_2 (by decide)).trans (W7_v3_2 m ρ c)
theorem W8_v89 (c : Dev nD) :
    W8 (F := Ideal) m ρ c (Proc.devRef .tc main_v89)
      = eDinv (m ((c.tc : Thread nD τ).loc main_arg3)) :=
  (s2_v89 (W7 (F := Ideal) m ρ c)).trans (by
    rw [W7_arg3 m ρ c] <;> rfl)
theorem W8_v80 (c : Dev nD) :
    W8 (F := Ideal) m ρ c (Proc.devRef .tc main_v80)
      = srcI (m ((c.tc : Thread nD τ).loc main_arg3)) :=
  (s2_v80 (W7 (F := Ideal) m ρ c)).trans (by
    rw [W7_arg3 m ρ c] <;> rfl)
theorem W8_v82 (c : Dev nD) :
    W8 (F := Ideal) m ρ c (Proc.devRef .tc main_v82)
      = dstI (m ((c.tc : Thread nD τ).loc main_arg3)) :=
  (s2_v82 (W7 (F := Ideal) m ρ c)).trans (by
    rw [W7_arg3 m ρ c] <;> rfl)
theorem W8_arg13 (c : Dev nD) :
    W8 (F := Ideal) m ρ c (Proc.devRef .tc main_arg13)
      = m ((c.tc : Thread nD τ).loc main_arg13) :=
  (w2_keep (W7 (F := Ideal) m ρ c) main_arg13 (by decide)).trans (W7_arg13 m ρ c)
theorem W8_arg14 (c : Dev nD) :
    W8 (F := Ideal) m ρ c (Proc.devRef .tc main_arg14)
      = m ((c.tc : Thread nD τ).loc main_arg14) :=
  (w2_keep (W7 (F := Ideal) m ρ c) main_arg14 (by decide)).trans (W7_arg14 m ρ c)
theorem W8_arg15 (c : Dev nD) :
    W8 (F := Ideal) m ρ c (Proc.devRef .tc main_arg15)
      = m ((c.tc : Thread nD τ).loc main_arg15) :=
  (w2_keep (W7 (F := Ideal) m ρ c) main_arg15 (by decide)).trans (W7_arg15 m ρ c)
theorem W8_arg4 (c : Dev nD) :
    W8 (F := Ideal) m ρ c (Proc.devRef .tc main_arg4)
      = m ((c.tc : Thread nD τ).loc main_arg4) :=
  (w2_keep (W7 (F := Ideal) m ρ c) main_arg4 (by decide)).trans (W7_arg4 m ρ c)

/-! ### After `hostOps2_1` -/

theorem W9_v3_0 (c : Dev nD) : W9 (F := Ideal) m ρ c (Proc.devRef .tc main_v3_0) = kx m c :=
  (w2_1_keep (W8 (F := Ideal) m ρ c) main_v3_0 (by decide)).trans (W8_v3_0 m ρ c)
theorem W9_v78 (c : Dev nD) :
    W9 (F := Ideal) m ρ c (Proc.devRef .tc main_v78)
      = outK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) (m ((c.tc : Thread nD τ).loc main_arg11)) :=
  (w2_1_keep (W8 (F := Ideal) m ρ c) main_v78 (by decide)).trans (W8_v78 m ρ c)
theorem W9_v3_2 (c : Dev nD) :
    W9 (F := Ideal) m ρ c (Proc.devRef .tc main_v3_2)
      = Cert.Spec.hHi (kx m c)
          (wcatK (m ((c.tc : Thread nD τ).loc main_arg8)) (m ((c.tc : Thread nD τ).loc main_arg12))) :=
  (w2_1_keep (W8 (F := Ideal) m ρ c) main_v3_2 (by decide)).trans (W8_v3_2 m ρ c)
theorem W9_v89 (c : Dev nD) :
    W9 (F := Ideal) m ρ c (Proc.devRef .tc main_v89)
      = eDinv (m ((c.tc : Thread nD τ).loc main_arg3)) :=
  (w2_1_keep (W8 (F := Ideal) m ρ c) main_v89 (by decide)).trans (W8_v89 m ρ c)
theorem W9_v80 (c : Dev nD) :
    W9 (F := Ideal) m ρ c (Proc.devRef .tc main_v80)
      = srcI (m ((c.tc : Thread nD τ).loc main_arg3)) :=
  (w2_1_keep (W8 (F := Ideal) m ρ c) main_v80 (by decide)).trans (W8_v80 m ρ c)
theorem W9_v82 (c : Dev nD) :
    W9 (F := Ideal) m ρ c (Proc.devRef .tc main_v82)
      = dstI (m ((c.tc : Thread nD τ).loc main_arg3)) :=
  (w2_1_keep (W8 (F := Ideal) m ρ c) main_v82 (by decide)).trans (W8_v82 m ρ c)
theorem W9_v90 (c : Dev nD) :
    W9 (F := Ideal) m ρ c (Proc.devRef .tc main_v90)
      = argsortI (dstI (m ((c.tc : Thread nD τ).loc main_arg3))) :=
  (s2_1_v90 (W8 (F := Ideal) m ρ c)).trans (by
    rw [W8_v82 m ρ c] <;> rfl)
theorem W9_arg13 (c : Dev nD) :
    W9 (F := Ideal) m ρ c (Proc.devRef .tc main_arg13)
      = m ((c.tc : Thread nD τ).loc main_arg13) :=
  (w2_1_keep (W8 (F := Ideal) m ρ c) main_arg13 (by decide)).trans (W8_arg13 m ρ c)
theorem W9_arg14 (c : Dev nD) :
    W9 (F := Ideal) m ρ c (Proc.devRef .tc main_arg14)
      = m ((c.tc : Thread nD τ).loc main_arg14) :=
  (w2_1_keep (W8 (F := Ideal) m ρ c) main_arg14 (by decide)).trans (W8_arg14 m ρ c)
theorem W9_arg15 (c : Dev nD) :
    W9 (F := Ideal) m ρ c (Proc.devRef .tc main_arg15)
      = m ((c.tc : Thread nD τ).loc main_arg15) :=
  (w2_1_keep (W8 (F := Ideal) m ρ c) main_arg15 (by decide)).trans (W8_arg15 m ρ c)
theorem W9_arg4 (c : Dev nD) :
    W9 (F := Ideal) m ρ c (Proc.devRef .tc main_arg4)
      = m ((c.tc : Thread nD τ).loc main_arg4) :=
  (w2_1_keep (W8 (F := Ideal) m ρ c) main_arg4 (by decide)).trans (W8_arg4 m ρ c)

/-! ### After `hostOps2_2` -/

theorem W10_v3_0 (c : Dev nD) : W10 (F := Ideal) m ρ c (Proc.devRef .tc main_v3_0) = kx m c :=
  (w2_2_keep (W9 (F := Ideal) m ρ c) main_v3_0 (by decide)).trans (W9_v3_0 m ρ c)
theorem W10_v78 (c : Dev nD) :
    W10 (F := Ideal) m ρ c (Proc.devRef .tc main_v78)
      = outK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) (m ((c.tc : Thread nD τ).loc main_arg11)) :=
  (w2_2_keep (W9 (F := Ideal) m ρ c) main_v78 (by decide)).trans (W9_v78 m ρ c)
theorem W10_v134 (c : Dev nD) :
    W10 (F := Ideal) m ρ c (Proc.devRef .tc main_v134)
      = eAgg
          (Cert.Spec.hHi (kx m c) (wcatK (m ((c.tc : Thread nD τ).loc main_arg8)) (m ((c.tc : Thread nD τ).loc main_arg12))))
          (m ((c.tc : Thread nD τ).loc main_arg3)) :=
  (s2_2_v134 (W9 (F := Ideal) m ρ c)).trans (by
    rw [W9_v3_2 m ρ c, W9_v89 m ρ c, W9_v80 m ρ c, W9_v82 m ρ c, W9_v90 m ρ c] <;> rfl)
theorem W10_v3_2 (c : Dev nD) :
    W10 (F := Ideal) m ρ c (Proc.devRef .tc main_v3_2)
      = Cert.Spec.hHi (kx m c)
          (wcatK (m ((c.tc : Thread nD τ).loc main_arg8)) (m ((c.tc : Thread nD τ).loc main_arg12))) :=
  (w2_2_keep (W9 (F := Ideal) m ρ c) main_v3_2 (by decide)).trans (W9_v3_2 m ρ c)
theorem W10_v121 (c : Dev nD) :
    W10 (F := Ideal) m ρ c (Proc.devRef .tc main_v121)
      = dsqK (eDinv (m ((c.tc : Thread nD τ).loc main_arg3))) :=
  (s2_2_v121 (W9 (F := Ideal) m ρ c)).trans (by
    rw [W9_v89 m ρ c] <;> rfl)
theorem W10_v135 (c : Dev nD) :
    W10 (F := Ideal) m ρ c (Proc.devRef .tc main_v135)
      = rowK (m ((c.tc : Thread nD τ).loc main_arg13)) :=
  (s2_2_v135 (W9 (F := Ideal) m ρ c)).trans (by
    rw [W9_arg13 m ρ c] <;> rfl)
theorem W10_arg14 (c : Dev nD) :
    W10 (F := Ideal) m ρ c (Proc.devRef .tc main_arg14)
      = m ((c.tc : Thread nD τ).loc main_arg14) :=
  (w2_2_keep (W9 (F := Ideal) m ρ c) main_arg14 (by decide)).trans (W9_arg14 m ρ c)
theorem W10_v119 (c : Dev nD) :
    W10 (F := Ideal) m ρ c (Proc.devRef .tc main_v119)
      = eCoef (m ((c.tc : Thread nD τ).loc main_arg3)) :=
  (s2_2_v119 (W9 (F := Ideal) m ρ c)).trans (by
    rw [W9_v89 m ρ c, W9_v80 m ρ c, W9_v82 m ρ c, W9_v90 m ρ c] <;> rfl)
theorem W10_v97 (c : Dev nD) :
    W10 (F := Ideal) m ρ c (Proc.devRef .tc main_v97)
      = eSrc (m ((c.tc : Thread nD τ).loc main_arg3)) :=
  (s2_2_v97 (W9 (F := Ideal) m ρ c)).trans (by
    rw [W9_v80 m ρ c, W9_v90 m ρ c] <;> rfl)
theorem W10_v104 (c : Dev nD) :
    W10 (F := Ideal) m ρ c (Proc.devRef .tc main_v104)
      = eDst (m ((c.tc : Thread nD τ).loc main_arg3)) :=
  (s2_2_v104 (W9 (F := Ideal) m ρ c)).trans (by
    rw [W9_v82 m ρ c, W9_v90 m ρ c] <;> rfl)
theorem W10_arg15 (c : Dev nD) :
    W10 (F := Ideal) m ρ c (Proc.devRef .tc main_arg15)
      = m ((c.tc : Thread nD τ).loc main_arg15) :=
  (w2_2_keep (W9 (F := Ideal) m ρ c) main_arg15 (by decide)).trans (W9_arg15 m ρ c)
theorem W10_arg4 (c : Dev nD) :
    W10 (F := Ideal) m ρ c (Proc.devRef .tc main_arg4)
      = m ((c.tc : Thread nD τ).loc main_arg4) :=
  (w2_2_keep (W9 (F := Ideal) m ρ c) main_arg4 (by decide)).trans (W9_arg4 m ρ c)

/-! ### At region 2's exit -/

theorem W11_v3_0 (c : Dev nD) : W11 (F := Ideal) m ρ c (Proc.devRef .tc main_v3_0) = kx m c :=
  (W11_of_ne m ρ c main_v3_0 (by decide)).trans (W10_v3_0 m ρ c)
theorem W11_v78 (c : Dev nD) :
    W11 (F := Ideal) m ρ c (Proc.devRef .tc main_v78)
      = outK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) (m ((c.tc : Thread nD τ).loc main_arg11)) :=
  (W11_of_ne m ρ c main_v78 (by decide)).trans (W10_v78 m ρ c)
theorem W11_v136 (c : Dev nD) :
    W11 (F := Ideal) m ρ c (Proc.devRef .tc main_v136)
      = hhK
          (Cert.Spec.hHi (kx m c) (wcatK (m ((c.tc : Thread nD τ).loc main_arg8)) (m ((c.tc : Thread nD τ).loc main_arg12))))
          (m ((c.tc : Thread nD τ).loc main_arg3)) (m ((c.tc : Thread nD τ).loc main_arg13))
          (m ((c.tc : Thread nD τ).loc main_arg14)) :=
  (W11_arr m ρ c 5).trans ((Reg.reg2_hh (V10 m ρ) c).trans (by
    rw [show V10 (F := Ideal) m ρ c main_v134 = _ from W10_v134 m ρ c,
      show V10 (F := Ideal) m ρ c main_v3_2 = _ from W10_v3_2 m ρ c,
      show V10 (F := Ideal) m ρ c main_v121 = _ from W10_v121 m ρ c,
      show V10 (F := Ideal) m ρ c main_v135 = _ from W10_v135 m ρ c,
      show V10 (F := Ideal) m ρ c main_arg14 = _ from W10_arg14 m ρ c] <;> rfl))
theorem W11_v119 (c : Dev nD) :
    W11 (F := Ideal) m ρ c (Proc.devRef .tc main_v119)
      = eCoef (m ((c.tc : Thread nD τ).loc main_arg3)) :=
  (W11_of_ne m ρ c main_v119 (by decide)).trans (W10_v119 m ρ c)
theorem W11_v97 (c : Dev nD) :
    W11 (F := Ideal) m ρ c (Proc.devRef .tc main_v97)
      = eSrc (m ((c.tc : Thread nD τ).loc main_arg3)) :=
  (W11_of_ne m ρ c main_v97 (by decide)).trans (W10_v97 m ρ c)
theorem W11_v104 (c : Dev nD) :
    W11 (F := Ideal) m ρ c (Proc.devRef .tc main_v104)
      = eDst (m ((c.tc : Thread nD τ).loc main_arg3)) :=
  (W11_of_ne m ρ c main_v104 (by decide)).trans (W10_v104 m ρ c)
theorem W11_v121 (c : Dev nD) :
    W11 (F := Ideal) m ρ c (Proc.devRef .tc main_v121)
      = dsqK (eDinv (m ((c.tc : Thread nD τ).loc main_arg3))) :=
  (W11_arr m ρ c 2).trans (((dat2 (V10 m ρ) c).arrAt_in 2 rfl _).trans
    ((A_eq2 (V10 m ρ) c 2).trans (W10_v121 m ρ c)))
theorem W11_arg15 (c : Dev nD) :
    W11 (F := Ideal) m ρ c (Proc.devRef .tc main_arg15)
      = m ((c.tc : Thread nD τ).loc main_arg15) :=
  (W11_of_ne m ρ c main_arg15 (by decide)).trans (W10_arg15 m ρ c)
theorem W11_arg4 (c : Dev nD) :
    W11 (F := Ideal) m ρ c (Proc.devRef .tc main_arg4)
      = m ((c.tc : Thread nD τ).loc main_arg4) :=
  (W11_of_ne m ρ c main_arg4 (by decide)).trans (W10_arg4 m ρ c)

/-! ### After `hostOps3` -/

theorem W12_v3_0 (c : Dev nD) : W12 (F := Ideal) m ρ c (Proc.devRef .tc main_v3_0) = kx m c :=
  (w3_keep (W11 (F := Ideal) m ρ c) main_v3_0 (by decide)).trans (W11_v3_0 m ρ c)
theorem W12_v158 (c : Dev nD) :
    W12 (F := Ideal) m ρ c (Proc.devRef .tc main_v158)
      = finI (outK
          (Cert.Spec.hLo (kx m c) (wcatK (m ((c.tc : Thread nD τ).loc main_arg8)) (m ((c.tc : Thread nD τ).loc main_arg12))))
          (m ((c.tc : Thread nD τ).loc main_arg2)) (m ((c.tc : Thread nD τ).loc main_arg9))
          (m ((c.tc : Thread nD τ).loc main_arg10)) (m ((c.tc : Thread nD τ).loc main_arg11))) (outK
          (Cert.Spec.hHi (kx m c) (wcatK (m ((c.tc : Thread nD τ).loc main_arg8)) (m ((c.tc : Thread nD τ).loc main_arg12))))
          (m ((c.tc : Thread nD τ).loc main_arg3)) (m ((c.tc : Thread nD τ).loc main_arg13))
          (m ((c.tc : Thread nD τ).loc main_arg14)) (m ((c.tc : Thread nD τ).loc main_arg15))) (m
          ((c.tc : Thread nD τ).loc main_arg4)) :=
  (s3_v158 (W11 (F := Ideal) m ρ c)).trans (by
    rw [W11_v78 m ρ c, W11_v136 m ρ c, W11_v119 m ρ c, W11_v97 m ρ c, W11_v104 m ρ c, W11_v121 m ρ c, W11_arg15 m ρ c,
      W11_arg4 m ρ c] <;> rfl)

end Fold

/-! ## The two results -/

section Results

variable (m : (ℓ : Loc nD τ sig) → Buf (Elt Ideal) ℓ) (ρ : Dev nD → PrngReg)

/-- The second result buffer (the node features) at the end of the run. -/
theorem kernel_x (c : Dev nD) : W12 (F := Ideal) m ρ c (Proc.devRef .tc main_v3_0) = kx m c :=
  W12_v3_0 m ρ c

/-- The first result buffer (the pooled graph outputs) at the end of the run. -/
theorem kernel_y (c : Dev nD) :
    W12 (F := Ideal) m ρ c (Proc.devRef .tc main_v158)
      = finI
          (outK (Cert.Spec.hLo (kx m c) (wcatK (m ((c.tc : Thread nD τ).loc main_arg8)) (m ((c.tc : Thread nD τ).loc main_arg12))))
            (m ((c.tc : Thread nD τ).loc main_arg2)) (m ((c.tc : Thread nD τ).loc main_arg9))
            (m ((c.tc : Thread nD τ).loc main_arg10)) (m ((c.tc : Thread nD τ).loc main_arg11)))
          (outK (Cert.Spec.hHi (kx m c) (wcatK (m ((c.tc : Thread nD τ).loc main_arg8)) (m ((c.tc : Thread nD τ).loc main_arg12))))
            (m ((c.tc : Thread nD τ).loc main_arg3)) (m ((c.tc : Thread nD τ).loc main_arg13))
            (m ((c.tc : Thread nD τ).loc main_arg14)) (m ((c.tc : Thread nD τ).loc main_arg15)))
          (m ((c.tc : Thread nD τ).loc main_arg4)) :=
  W12_v158 m ρ c

end Results

end Cert.KernelIdeal.KRead

end
-- ==== Proof.LibRows.lean ====
/-
  Two facts about the host's row gather and row scatter-add (operand `[N, C]`, one start index per update row):

  * `gather_rows_apply`: the gather of whole rows read at `(p, q)` is the operand at the clamped start index of row `p`,
    column `q`.
  * `scatterAdd_rows_perm`: the accumulating scatter is a sum over the update rows, so presenting the update rows and
    their start indices in another order (the same permutation on both) leaves every result element unchanged.
-/
import Idealize.ShloMosaic.Lib.ValueIdx
import Idealize.ShloMosaic.PureOps.Ideal.Laws

noncomputable section

namespace Cert.LibRows

open Idealize.ShloMosaic Idealize.ShloMosaic.ValueIdx

open scoped BigOperators

/-! ## The row gather -/

/-- The gather of whole rows, read at row `p`, column `q`: the operand at the start index of row `p` (read signed,
    clamped into `[0, N − 1]`) and column `q`. -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (p : Fin n) (q : Fin C) :
    Host.gather d x idx (ix2 p q) = x (ix2 (⟨min (idx (ix2 p (0 : Fin 1))).toInt.toNat (N - 1), by omega⟩ : Fin N) q) := by
  obtain ⟨od, cd, ob, sb, sm, iv, ss, wf⟩ := d
  simp only at hoff hcoll hob hsb hsim hivd hss
  subst hoff hcoll hob hsb hsim hivd hss
  unfold Host.gather
  congr 1
  funext a
  refine Fin.ext ?_
  match a with
  | ⟨0, _⟩ =>
    -- operand axis 0 is collapsed and start-indexed: the operand coordinate is the clamped start alone
    generalize hD : (GatherDims.mk [1] [0] [] [] [0] 1 ![1, C] wf : GatherDims ⟨2, ![N, C]⟩ ⟨2, ![n, 1]⟩ ⟨2, ![n, C]⟩) = D
    have hb : (0 : Fin 2) ∉ D.operandBatchingDims := by subst hD; exact List.not_mem_nil
    have hk : (0 : Fin 2) ∉ D.sKept := by rw [GatherDims.mem_sKept]; subst hD; simp
    have hm : (0 : Fin 2) ∈ D.startIndexMap := by subst hD; exact List.mem_singleton.mpr rfl
    show D.start (ix2 p q) idx 0 + D.batchCoord (ix2 p q) 0 + D.offCoord (ix2 p q) 0 = min (idx (ix2 p 0)).toInt.toNat (N - 1)
    rw [GatherDims.batchCoord_eq_zero _ _ _ hb, GatherDims.offCoord_eq_zero _ _ _ hk, Nat.add_zero]
    unfold GatherDims.start
    rw [dif_pos hm]
    subst hD
    -- the start index of result row `p` is read at `(p, 0)`: the batch coordinate, then component 0 of the index vector
    have hsi : (GatherDims.mk [1] [0] [] [] [0] 1 ![1, C] wf : GatherDims ⟨2, ![N, C]⟩ ⟨2, ![n, 1]⟩ ⟨2, ![n, C]⟩).siIdx (ix2 p q)
        ⟨List.idxOf (0 : Fin 2) [0], List.idxOf_lt_length_iff.2 hm⟩ = ix2 p (0 : Fin 1) := by
      funext b; refine Fin.ext ?_
      match b with
      | ⟨0, _⟩ => rfl
      | ⟨1, _⟩ => rfl
    show min (idx (GatherDims.siIdx _ (ix2 p q) ⟨List.idxOf (0 : Fin 2) [0], _⟩)).toInt.toNat (N - 1) = _
    rw [hsi]
  | ⟨1, _⟩ =>
    -- operand axis 1 is the one offset axis, not start-indexed: the operand coordinate is the result's column
    generalize hD : (GatherDims.mk [1] [0] [] [] [0] 1 ![1, C] wf : GatherDims ⟨2, ![N, C]⟩ ⟨2, ![n, 1]⟩ ⟨2, ![n, C]⟩) = D
    have hb : (1 : Fin 2) ∉ D.operandBatchingDims := by subst hD; exact List.not_mem_nil
    have hk : (1 : Fin 2) ∈ D.sKept := by rw [GatherDims.mem_sKept]; subst hD; simp
    have hm : (1 : Fin 2) ∉ D.startIndexMap := by subst hD; simp
    show D.start (ix2 p q) idx 1 + D.batchCoord (ix2 p q) 1 + D.offCoord (ix2 p q) 1 = q.val
    rw [GatherDims.batchCoord_eq_zero _ _ _ hb, Nat.add_zero]
    unfold GatherDims.start GatherDims.offCoord
    rw [dif_neg hm, dif_pos hk, Nat.zero_add]
    subst hD
    rfl

/-! ## The row scatter-add -/

/-- The result index depends on the update index and the start indices only through the start and the window
    coordinate on each operand axis. -/
theorem resultIdx?_congr {s si u : Shape} (d : ScatterDims s si u) {w : Nat} (j j' : u.Idx) (idx idx' : IVec si w)
    (hs : d.start j idx = d.start j' idx') (hw : d.window j = d.window j') :
    d.resultIdx? j idx = d.resultIdx? j' idx' := by
  have hP : (∀ a, 0 ≤ d.start j idx a + d.window j a ∧ d.start j idx a + d.window j a < s.size a)
      ↔ (∀ a, 0 ≤ d.start j' idx' a + d.window j' a ∧ d.start j' idx' a + d.window j' a < s.size a) := by rw [hs, hw]
  unfold ScatterDims.resultIdx?
  by_cases h : ∀ a, 0 ≤ d.start j idx a + d.window j a ∧ d.start j idx a + d.window j a < s.size a
  · rw [dif_pos h, dif_pos (hP.1 h)]
    congr 1
    funext a
    refine Fin.ext ?_
    show (d.start j idx a + d.window j a).toNat = (d.start j' idx' a + d.window j' a).toNat
    rw [hs, hw]
  · rw [dif_neg h, dif_neg (mt hP.2 h)]

section Rows

variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hivd : d.indexVectorDim = 1)
include huw hiw hsd hivd

/-- On operand axis 0 the window of update `j` starts at the start index of update row `j 0`, read signed at `(j 0, 0)`. -/
theorem start_zero (j : (⟨2, ![n, C]⟩ : Shape).Idx) (idx : IVec ⟨2, ![n, 1]⟩ w) :
    d.start j idx 0 = (idx (ix2 (j 0) (0 : Fin 1))).toInt := by
  obtain ⟨uw, iw, sd, iv, wf⟩ := d
  simp only at huw hiw hsd hivd
  subst huw hiw hsd hivd
  have hm : (0 : Fin 2) ∈ (ScatterDims.mk [1] [0] [0] 1 wf : ScatterDims ⟨2, ![N, C]⟩ ⟨2, ![n, 1]⟩ ⟨2, ![n, C]⟩).scatterDimsToOperandDims :=
    List.mem_singleton.mpr rfl
  unfold ScatterDims.start
  rw [dif_pos hm]
  have hsi : (ScatterDims.mk [1] [0] [0] 1 wf : ScatterDims ⟨2, ![N, C]⟩ ⟨2, ![n, 1]⟩ ⟨2, ![n, C]⟩).siIdx j
      ⟨List.idxOf (0 : Fin 2) [0], List.idxOf_lt_length_iff.2 hm⟩ = ix2 (j 0) (0 : Fin 1) := by
    funext b; refine Fin.ext ?_
    match b with
    | ⟨0, _⟩ => rfl
    | ⟨1, _⟩ => rfl
  show (idx (ScatterDims.siIdx _ j ⟨List.idxOf (0 : Fin 2) [0], _⟩)).toInt = _
  rw [hsi]
  rfl

/-- Operand axis 1 is not a scattered axis: the window starts at 0 there. -/
theorem start_one (j : (⟨2, ![n, C]⟩ : Shape).Idx) (idx : IVec ⟨2, ![n, 1]⟩ w) :
    d.start j idx 1 = 0 := by
  unfold ScatterDims.start
  rw [dif_neg (by rw [hsd]; simp)]

/-- Operand axis 0 is an inserted window axis: the window coordinate is 0 there. -/
theorem window_zero (j : (⟨2, ![n, C]⟩ : Shape).Idx) : d.window j 0 = 0 := by
  unfold ScatterDims.window
  rw [dif_neg (by rw [ScatterDims.sKept, hiw]; simp [Shape.kept])]

/-- On operand axis 1 the window coordinate of update `j` is its column `j 1`. -/
theorem window_one (j : (⟨2, ![n, C]⟩ : Shape).Idx) : d.window j 1 = (j 1).val := by
  obtain ⟨uw, iw, sd, iv, wf⟩ := d
  simp only at huw hiw hsd hivd
  subst huw hiw hsd hivd
  have hk : (1 : Fin 2) ∈ (ScatterDims.mk [1] [0] [0] 1 wf : ScatterDims ⟨2, ![N, C]⟩ ⟨2, ![n, 1]⟩ ⟨2, ![n, C]⟩).sKept := by
    simp [ScatterDims.sKept, Shape.kept]
  unfold ScatterDims.window
  rw [dif_pos hk]
  rfl

end Rows

/-- Permuting the first coordinate of a rank-2 index by `σ` is a bijection of the index set. -/
def rowPerm {n C : Nat} (σ : Equiv.Perm (Fin n)) : (⟨2, ![n, C]⟩ : Shape).Idx ≃ (⟨2, ![n, C]⟩ : Shape).Idx :=
  idxEquiv2.trans ((σ.prodCongr (Equiv.refl (Fin C))).trans idxEquiv2.symm)

theorem rowPerm_apply {n C : Nat} (σ : Equiv.Perm (Fin n)) (j : (⟨2, ![n, C]⟩ : Shape).Idx) :
    rowPerm σ j = ix2 (σ (j 0)) (j 1) := rfl

/-- Update `j` against the permuted start indices lands where update `(σ (j 0), j 1)` lands against the original ones:
    on axis 0 both read the start index of row `σ (j 0)` and have window coordinate 0; on axis 1 both start at 0 with
    window coordinate `j 1`. -/
theorem resultIdx?_rowPerm {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (σ : Equiv.Perm (Fin n)) (idx : IVec ⟨2, ![n, 1]⟩ w) (j : (⟨2, ![n, C]⟩ : Shape).Idx) :
    d.resultIdx? j (fun i => idx (ix2 (σ (i 0 : Fin n)) (0 : Fin 1))) = d.resultIdx? (ix2 (σ (j 0 : Fin n)) (j 1 : Fin C)) idx := by
  apply resultIdx?_congr
  · funext a
    match a with
    | ⟨0, _⟩ =>
      show d.start _ _ 0 = d.start _ _ 0
      rw [start_zero d huw hiw hsd hivd, start_zero d huw hiw hsd hivd]
      rfl
    | ⟨1, _⟩ =>
      show d.start _ _ 1 = d.start _ _ 1
      rw [start_one d huw hiw hsd hivd, start_one d huw hiw hsd hivd]
  · funext a
    match a with
    | ⟨0, _⟩ =>
      show d.window _ 0 = d.window _ 0
      rw [window_zero d huw hiw hsd hivd, window_zero d huw hiw hsd hivd]
    | ⟨1, _⟩ =>
      show d.window _ 1 = d.window _ 1
      rw [window_one d huw hiw hsd hivd, window_one d huw hiw hsd hivd]
      rfl

/-- Permuting the update rows together with their start indices does not change an accumulating row scatter. -/
theorem scatterAdd_rows_perm {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (σ : Equiv.Perm (Fin n))
    (x : FVec Ideal ⟨2, ![N, C]⟩ .f32) (idx : IVec ⟨2, ![n, 1]⟩ w) (upd : FVec Ideal ⟨2, ![n, C]⟩ .f32) :
    Host.scatterAdd d x (fun i => idx (ix2 (σ (i 0 : Fin n)) (0 : Fin 1))) (fun j => upd (ix2 (σ (j 0 : Fin n)) (j 1 : Fin C)))
      = Host.scatterAdd d x idx upd := by
  funext i
  -- each result element is the operand's plus the sum of the updates landing on it
  show x i + ∑ j ∈ Finset.univ.filter (fun j => d.resultIdx? j (fun i => idx (ix2 (σ (i 0 : Fin n)) (0 : Fin 1))) = some i),
        upd (ix2 (σ (j 0 : Fin n)) (j 1 : Fin C))
      = x i + ∑ j ∈ Finset.univ.filter (fun j => d.resultIdx? j idx = some i), upd j
  congr 1
  -- the left sum is the right one re-indexed along the bijection `j ↦ (σ (j 0), j 1)`
  simp only [resultIdx?_rowPerm d huw hiw hsd hivd σ idx]
  rw [Finset.sum_filter, Finset.sum_filter]
  exact Equiv.sum_comp (rowPerm σ) (fun k => if d.resultIdx? k idx = some i then upd k else 0)

end Cert.LibRows

end
-- ==== Proof.LibArgsort.lean ====
/-
  A stable argsort is a permutation: the second component of the two-operand sort of `(keys, iota)` along the one axis
  lists every position exactly once.
-/
import Idealize.ShloMosaic.Lib.ValueIdx
import Idealize.ShloMosaic.Lib.SortFacts

noncomputable section

namespace Cert.LibArgsort

open Idealize.ShloMosaic Idealize.ShloMosaic.ValueIdx

/-- The two ways of writing the rank-1 index at coordinate `e` agree. -/
theorem ix1_eq_ofFin {n : Nat} (e : Fin n) : ix1 e = Shape.Idx.ofFin e := by
  funext d
  match d with
  | ⟨0, _⟩ => exact Fin.ext rfl

/-- On a rank-1 shape the two-operand sort along the one axis reads its second operand through ONE self-map of the
    positions: the stable sorting permutation of the comparator on the pairs of words. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- A natural below `2^31`, as a 32-bit word read signed, is itself. -/
theorem toInt_ofNat32 {k : Nat} (hk : k < 2 ^ 31) : (BitVec.ofNat 32 k).toInt = (k : ℤ) := by
  unfold BitVec.toInt
  simp only [BitVec.toNat_ofNat]
  omega

/-- The argsort of a rank-1 table of `n < 2^31` keys, read as signed integers, is a permutation of the positions. -/
theorem argsort_perm {n : Nat} (hn : n < 2 ^ 31) {α : Type} (cmp : α × BitVec 32 → α × BitVec 32 → BitVec 1)
    (keys : (⟨1, ![n]⟩ : Shape).Idx → α) :
    ∃ σ : Equiv.Perm (Fin n), ∀ e : Fin n,
      ((Host.sort2 ⟨1, ![n]⟩ 0 cmp keys (iotaInDim ⟨1, ![n]⟩ 32 0)).2 (ix1 e)).toInt = ((σ e).val : ℤ) := by
  let before : Fin n → Fin n → Bool := fun k k' =>
    cmp (keys (Shape.Idx.ofFin k), iotaInDim ⟨1, ![n]⟩ 32 0 (Shape.Idx.ofFin k))
      (keys (Shape.Idx.ofFin k'), iotaInDim ⟨1, ![n]⟩ 32 0 (Shape.Idx.ofFin k')) == 1#1
  refine ⟨Equiv.ofBijective (sortedFrom before) ⟨sortedFrom_injective _, sortedFrom_surjective _⟩, fun e => ?_⟩
  rw [sort2_rank1_snd]
  show (BitVec.ofNat 32 ((Shape.Idx.ofFin (sortedFrom before e)) (0 : Fin 1)).val).toInt
    = ((sortedFrom before e).val : ℤ)
  rw [Shape.Idx.ofFin_zero]
  exact toInt_ofNat32 (lt_trans (sortedFrom before e).isLt hn)

end Cert.LibArgsort

end
-- ==== Proof.EdgePerm.lean ====
/-
  Sorting the edges by destination does not change a segment sum: the stable argsort is a permutation `σ` of the edges, every
  per-edge quantity built from the sorted edge lists is the unsorted one read at `σ e`, and the accumulating scatter is a
  sum over the edges.
-/
import proofs.«428299_j83202106458535_3_alg».proof.Proof.EdgeOps
import proofs.«428299_j83202106458535_3_alg».proof.Proof.LibRows
import proofs.«428299_j83202106458535_3_alg».proof.Proof.LibArgsort
import Idealize.ShloMosaic.Lib.StableHlo.Predicate
import Idealize.ShloMosaic.Lib.ValueIdx
import Idealize.ShloMosaic.PureOps.Ideal.Laws

set_option maxRecDepth 16384

noncomputable section

namespace Cert.KernelIdeal.Edge

open Cert.KernelIdeal Cert.KernelIdeal.Gen Idealize.ShloMosaic Idealize.ShloMosaic.ValueIdx

/-- A column laid from an edge-indexed vector reads, at row `i 0`, the vector at that edge. -/
theorem colI_apply {α : Type} (v : S220000.Idx → α) (i : S220000x1.Idx) : colI v i = v (ix1 (i 0)) := by
  unfold colI broadcastInDim
  congr 1
  funext a
  match a with
  | ⟨0, _⟩ => exact Fin.ext rfl

/-- The wrap at one edge: `v + k` when `v` is negative, else `v`. -/
theorem wrapI_apply (k : BitVec 32) (v : IVec S220000 32) (j : S220000.Idx) :
    wrapI k v j = Scalar.select (IntOp.cmpi .slt (v j) 0#32) (IntOp.addi (v j) k) (v j) := rfl

/-- The wrap is pointwise, so it commutes with any re-indexing of the edges. -/
theorem wrapI_comp (k : BitVec 32) (v : IVec S220000 32) (f : S220000.Idx → S220000.Idx) :
    wrapI k (fun j => v (f j)) = fun j => wrapI k v (f j) := rfl

/-- A word whose signed value is a natural number is not negative: the wrap leaves it. -/
theorem wrapI_of_nonneg (k : BitVec 32) (v : IVec S220000 32) (j : S220000.Idx) (m : Nat) (hm : (v j).toInt = (m : ℤ)) :
    wrapI k v j = v j := by
  rw [wrapI_apply]
  have h0 : IntOp.cmpi .slt (v j) 0#32 = 0#1 := by
    unfold IntOp.cmpi
    show BitVec.ofBool ((v j).slt 0#32) = 0#1
    have : (v j).slt 0#32 = false := by
      unfold BitVec.slt
      rw [hm]
      simp
    rw [this]; rfl
  rw [h0, select_zero]

/-- The rank-1 take through a column of start indices: result edge `p` reads the table at the start index of edge
    `p`, read signed and clamped into the table. -/
theorem gather1_col {α : Type} {N : Nat} (hN : 0 < N) (g : GatherDims ⟨1, ![N]⟩ ⟨2, ![220000, 1]⟩ ⟨1, ![220000]⟩)
    (hcoll : g.collapsedSliceDims = [0]) (hob : g.operandBatchingDims = [])
    (hsim : g.startIndexMap = [0]) (hivd : g.indexVectorDim = 1)
    (x : (⟨1, ![N]⟩ : Shape).Idx → α) (w : IVec S220000 32) (p : Fin 220000) :
    Host.gather g x (colI w) (ix1 p) = x (ix1 ⟨min (w (ix1 p)).toInt.toNat (N - 1), by omega⟩) := by
  have h := StableHlo.Predicate.gather_take g hcoll hob hsim hivd x (colI w) p hN
  have hc : colI w (StableHlo.Predicate.ixP p) = w (ix1 p) := colI_apply w (StableHlo.Predicate.ixP p)
  simp only [hc, ← Cert.LibArgsort.ix1_eq_ofFin] at h
  exact h

/-- Reading an edge-indexed vector through the argsort: with `σ` the sorting permutation, position `e` reads edge
    `σ e`. -/
theorem takeI_perm_apply (v o : IVec S220000 32) (σ : Equiv.Perm (Fin 220000))
    (hσ : ∀ e : Fin 220000, (o (ix1 e)).toInt = ((σ e).val : ℤ)) (e : Fin 220000) :
    takeI v o (ix1 e) = v (ix1 (σ e)) := by
  unfold takeI
  have h := gather1_col (by norm_num) gather_S220000_S220000x1_S220000_n_0_n_n_0_1_1 rfl rfl rfl rfl v
    (wrapI 220000#32 o) e
  have hw : wrapI 220000#32 o (ix1 e) = o (ix1 e) := wrapI_of_nonneg _ _ _ (σ e).val (hσ e)
  have hlt := (σ e).isLt
  have hm : min (o (ix1 e)).toInt.toNat (220000 - 1) = (σ e).val := by
    rw [hσ e, Int.toNat_natCast]; omega
  simp only [hw, hm] at h
  exact h

/-- The same, as an equation of vectors. -/
theorem takeI_perm (v o : IVec S220000 32) (σ : Equiv.Perm (Fin 220000))
    (hσ : ∀ e : Fin 220000, (o (ix1 e)).toInt = ((σ e).val : ℤ)) :
    takeI v o = fun j => v (ix1 (σ (j 0 : Fin 220000))) := by
  funext j
  obtain ⟨e, rfl⟩ : ∃ e : Fin 220000, j = ix1 e := ⟨j 0, eq_ix1 j⟩
  exact takeI_perm_apply v o σ hσ e

/-- A column spread over the 128 feature columns reads, at `(p, q)`, the column at row `p`. -/
theorem bcastCol_apply {α : Type} (v : S220000x1.Idx → α) (j : S220000x128.Idx) :
    broadcastInDim S220000x128 ![0, 1] bcast_S220000x1_S220000x128_0_1 v j = v (ix2 (j 0) (0 : Fin 1)) := by
  unfold broadcastInDim
  congr 1
  funext a
  match a with
  | ⟨0, _⟩ => exact Fin.ext rfl
  | ⟨1, _⟩ => exact Fin.ext rfl

/-- The rank-1 take of re-indexed start positions is the take re-indexed. -/
theorem gather1_perm {α : Type} {N : Nat} (hN : 0 < N) (g : GatherDims ⟨1, ![N]⟩ ⟨2, ![220000, 1]⟩ ⟨1, ![220000]⟩)
    (hcoll : g.collapsedSliceDims = [0]) (hob : g.operandBatchingDims = [])
    (hsim : g.startIndexMap = [0]) (hivd : g.indexVectorDim = 1)
    (x : (⟨1, ![N]⟩ : Shape).Idx → α) (w : IVec S220000 32) (σ : Equiv.Perm (Fin 220000)) (e : Fin 220000) :
    Host.gather g x (colI (fun j => w (ix1 (σ (j 0 : Fin 220000))))) (ix1 e) = Host.gather g x (colI w) (ix1 (σ e)) := by
  rw [gather1_col hN g hcoll hob hsim hivd, gather1_col hN g hcoll hob hsim hivd]

/-- The per-edge coefficient of the re-indexed edge lists is the coefficient re-indexed. -/
theorem coefI_perm (dinv : FVec Ideal S100000 .f32) (s d : IVec S220000 32) (σ : Equiv.Perm (Fin 220000)) :
    coefI dinv (fun j => s (ix1 (σ (j 0 : Fin 220000)))) (fun j => d (ix1 (σ (j 0 : Fin 220000))))
      = fun j => coefI dinv s d (ix1 (σ (j 0 : Fin 220000))) := by
  funext j
  obtain ⟨e, rfl⟩ : ∃ e : Fin 220000, j = ix1 e := ⟨j 0, eq_ix1 j⟩
  show Host.gather gather_S100000_S220000x1_S220000_n_0_n_n_0_1_1 dinv
        (colI (fun j => wrapI 100000#32 s (ix1 (σ (j 0 : Fin 220000))))) (ix1 e)
      * Host.gather gather_S100000_S220000x1_S220000_n_0_n_n_0_1_1 dinv
        (colI (fun j => wrapI 100000#32 d (ix1 (σ (j 0 : Fin 220000))))) (ix1 e)
    = Host.gather gather_S100000_S220000x1_S220000_n_0_n_n_0_1_1 dinv (colI (wrapI 100000#32 s)) (ix1 (σ e))
      * Host.gather gather_S100000_S220000x1_S220000_n_0_n_n_0_1_1 dinv (colI (wrapI 100000#32 d)) (ix1 (σ e))
  rw [gather1_perm (by norm_num) gather_S100000_S220000x1_S220000_n_0_n_n_0_1_1 rfl rfl rfl rfl,
    gather1_perm (by norm_num) gather_S100000_S220000x1_S220000_n_0_n_n_0_1_1 rfl rfl rfl rfl]

/-- The row gather of re-indexed start positions is the row gather with its rows re-indexed. -/
theorem gatherRows_perm {α : Type} {N C : Nat} (hN : 0 < N)
    (g : GatherDims ⟨2, ![N, C]⟩ ⟨2, ![220000, 1]⟩ ⟨2, ![220000, C]⟩)
    (hoff : g.offsetDims = [1]) (hcoll : g.collapsedSliceDims = [0]) (hob : g.operandBatchingDims = [])
    (hsb : g.startIndicesBatchingDims = []) (hsim : g.startIndexMap = [0]) (hivd : g.indexVectorDim = 1)
    (hss : g.sliceSizes = ![1, C])
    (x : (⟨2, ![N, C]⟩ : Shape).Idx → α) (w : IVec S220000 32) (σ : Equiv.Perm (Fin 220000)) (p : Fin 220000) (q : Fin C) :
    Host.gather g x (colI (fun j => w (ix1 (σ (j 0 : Fin 220000))))) (ix2 p q) = Host.gather g x (colI w) (ix2 (σ p) q) := by
  rw [Cert.LibRows.gather_rows_apply hN g hoff hcoll hob hsb hsim hivd hss,
    Cert.LibRows.gather_rows_apply hN g hoff hcoll hob hsb hsim hivd hss]
  simp only [colI_apply]

/-- Sorting the edges by destination leaves the 128-column segment sum unchanged. -/
theorem agg128_sorted (h : FVec Ideal S100000x128 .f32) (dinv : FVec Ideal S100000 .f32) (s d : IVec S220000 32) :
    agg128I h (coefI dinv (takeI s (argsortI d)) (takeI d (argsortI d))) (takeI s (argsortI d)) (takeI d (argsortI d))
      = agg128I h (coefI dinv s d) s d := by
  obtain ⟨σ, hσ⟩ := Cert.LibArgsort.argsort_perm (n := 220000) (by norm_num) comparator_i32_i32_d0 d
  have hσ' : ∀ e : Fin 220000, (argsortI d (ix1 e)).toInt = ((σ e).val : ℤ) := hσ
  rw [takeI_perm s _ σ hσ', takeI_perm d _ σ hσ', coefI_perm]
  unfold agg128I
  have hidx : colI (fun j => d (ix1 (σ (j 0 : Fin 220000))))
      = fun i => colI d (ix2 (σ (i 0 : Fin 220000)) (0 : Fin 1)) := by
    funext i
    rw [colI_apply, colI_apply]
  have hupd : mulf (Host.gather gather_S100000x128_S220000x1_S220000x128_1_0_n_n_0_1_1128 h
          (colI (wrapI 100000#32 (fun j => s (ix1 (σ (j 0 : Fin 220000)))))))
        (broadcastInDim S220000x128 ![0, 1] bcast_S220000x1_S220000x128_0_1
          (colI (fun j => coefI dinv s d (ix1 (σ (j 0 : Fin 220000))))))
      = fun j => mulf (Host.gather gather_S100000x128_S220000x1_S220000x128_1_0_n_n_0_1_1128 h (colI (wrapI 100000#32 s)))
          (broadcastInDim S220000x128 ![0, 1] bcast_S220000x1_S220000x128_0_1 (colI (coefI dinv s d)))
          (ix2 (σ (j 0 : Fin 220000)) (j 1 : Fin 128)) := by
    funext j
    obtain ⟨p, q, rfl⟩ : ∃ (p : Fin 220000) (q : Fin 128), j = ix2 p q := ⟨j 0, j 1, eq_ix2 j⟩
    show Host.gather gather_S100000x128_S220000x1_S220000x128_1_0_n_n_0_1_1128 h
          (colI (fun j => wrapI 100000#32 s (ix1 (σ (j 0 : Fin 220000))))) (ix2 p q)
        * broadcastInDim S220000x128 ![0, 1] bcast_S220000x1_S220000x128_0_1
          (colI (fun j => coefI dinv s d (ix1 (σ (j 0 : Fin 220000))))) (ix2 p q)
      = Host.gather gather_S100000x128_S220000x1_S220000x128_1_0_n_n_0_1_1128 h (colI (wrapI 100000#32 s)) (ix2 (σ p) q)
        * broadcastInDim S220000x128 ![0, 1] bcast_S220000x1_S220000x128_0_1 (colI (coefI dinv s d)) (ix2 (σ p) q)
    rw [gatherRows_perm (N := 100000) (C := 128) (by norm_num)
        gather_S100000x128_S220000x1_S220000x128_1_0_n_n_0_1_1128 rfl rfl rfl rfl rfl rfl rfl,
      bcastCol_apply, bcastCol_apply, colI_apply, colI_apply]
  rw [hidx, hupd]
  exact Cert.LibRows.scatterAdd_rows_perm (N := 100000) (C := 128) (n := 220000)
    scatter_S100000x128_S220000x1_S220000x128_1_0_0_1 rfl rfl rfl rfl σ _ (colI d) _

/-- Sorting the edges by destination leaves the one-column segment sum unchanged. -/
theorem agg1_sorted (hh : FVec Ideal S100000x1 .f32) (dinv : FVec Ideal S100000 .f32) (s d : IVec S220000 32) :
    agg1I hh (coefI dinv (takeI s (argsortI d)) (takeI d (argsortI d))) (takeI s (argsortI d)) (takeI d (argsortI d))
      = agg1I hh (coefI dinv s d) s d := by
  obtain ⟨σ, hσ⟩ := Cert.LibArgsort.argsort_perm (n := 220000) (by norm_num) comparator_i32_i32_d0 d
  have hσ' : ∀ e : Fin 220000, (argsortI d (ix1 e)).toInt = ((σ e).val : ℤ) := hσ
  rw [takeI_perm s _ σ hσ', takeI_perm d _ σ hσ', coefI_perm]
  unfold agg1I
  have hidx : colI (fun j => d (ix1 (σ (j 0 : Fin 220000))))
      = fun i => colI d (ix2 (σ (i 0 : Fin 220000)) (0 : Fin 1)) := by
    funext i
    rw [colI_apply, colI_apply]
  have hupd : mulf (Host.gather gather_S100000x1_S220000x1_S220000x1_1_0_n_n_0_1_11 hh
          (colI (wrapI 100000#32 (fun j => s (ix1 (σ (j 0 : Fin 220000)))))))
        (colI (fun j => coefI dinv s d (ix1 (σ (j 0 : Fin 220000)))))
      = fun j => mulf (Host.gather gather_S100000x1_S220000x1_S220000x1_1_0_n_n_0_1_11 hh (colI (wrapI 100000#32 s)))
          (colI (coefI dinv s d)) (ix2 (σ (j 0 : Fin 220000)) (j 1 : Fin 1)) := by
    funext j
    obtain ⟨p, q, rfl⟩ : ∃ (p : Fin 220000) (q : Fin 1), j = ix2 p q := ⟨j 0, j 1, eq_ix2 j⟩
    show Host.gather gather_S100000x1_S220000x1_S220000x1_1_0_n_n_0_1_11 hh
          (colI (fun j => wrapI 100000#32 s (ix1 (σ (j 0 : Fin 220000))))) (ix2 p q)
        * colI (fun j => coefI dinv s d (ix1 (σ (j 0 : Fin 220000)))) (ix2 p q)
      = Host.gather gather_S100000x1_S220000x1_S220000x1_1_0_n_n_0_1_11 hh (colI (wrapI 100000#32 s)) (ix2 (σ p) q)
        * colI (coefI dinv s d) (ix2 (σ p) q)
    rw [gatherRows_perm (N := 100000) (C := 1) (by norm_num)
        gather_S100000x1_S220000x1_S220000x1_1_0_n_n_0_1_11 rfl rfl rfl rfl rfl rfl rfl,
      colI_apply, colI_apply]
  rw [hidx, hupd]
  exact Cert.LibRows.scatterAdd_rows_perm (N := 100000) (C := 1) (n := 220000)
    scatter_S100000x1_S220000x1_S220000x1_1_0_0_1 rfl rfl rfl rfl σ _ (colI d) _

end Cert.KernelIdeal.Edge

end
-- ==== Proof.Branch.lean ====
/-
  One branch computed the fused way equals the branch computed the plain way, for any first-layer product `h`: the sorted
  segment sums are the unsorted ones, the fused combine is the host's maximum followed by the matrix product, and the column
  and row forms made by a reshape are the ones made by a broadcast.
-/
import proofs.«428299_j83202106458535_3_alg».proof.Proof.KVal
import proofs.«428299_j83202106458535_3_alg».proof.Proof.EdgePerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen Cert.KernelIdeal.Edge Idealize.ShloMosaic Idealize.ShloMosaic.ValueIdx

/-! ## A trailing unit axis added to a vector -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The node vector broadcast along a new trailing axis reads, at `(p, q)`, the vector at `p`. -/
theorem bcast_col_apply {α : Type} (x : S100000.Idx → α) (p : Fin 100000) (q : Fin 1) :
    broadcastInDim S100000x1 ![0] bcast_S100000_S100000x1_0 x (ix2 p q) = x (ix1 p) :=
  broadcastInDim_apply _ _ x (ix2 p q) (ix1 p) (fun a => match a with | ⟨0, _⟩ => rfl)

/-- A one-element vector broadcast along a new leading axis reads, at any index, its one element. -/
theorem bcast_one_apply {α : Type} (x : S1.Idx → α) (h : S1.BroadcastsInDim S1x1 ![1]) (p q : Fin 1) :
    broadcastInDim S1x1 ![1] h x (ix2 p q) = x (ix1 q) :=
  broadcastInDim_apply _ h x (ix2 p q) (ix1 q) (fun a => match a with
    | ⟨0, _⟩ => by show q.val = 0; omega)

/-! ## The host matrix product's operand indices -/

theorem lhs_dotCol_0 (i : S100000x1.Idx) (q : dotCol.contr.Idx) : (dotCol.lhsIdx i q 0).val = (i 0).val := by
  unfold DotDims.lhsIdx
  rw [dif_neg (show ¬(0 : Fin S100000x128.rank) ∈ dotCol.lhsBatch by decide),
    dif_pos (show (0 : Fin S100000x128.rank) ∈ dotCol.lhsNonContracting by decide)]
  rfl
theorem lhs_dotCol_1 (i : S100000x1.Idx) (q : dotCol.contr.Idx) : (dotCol.lhsIdx i q 1).val = (q ⟨0, by decide⟩).val :=
  dotCol.lhsIdx_val_of_single rfl i q
theorem rhs_dotCol_0 (i : S100000x1.Idx) (q : dotCol.contr.Idx) : (dotCol.rhsIdx i q 0).val = (q ⟨0, by decide⟩).val :=
  dotCol.rhsIdx_val_of_single rfl i q
theorem rhs_dotCol_1 (i : S100000x1.Idx) (q : dotCol.contr.Idx) : (dotCol.rhsIdx i q 1).val = (i 1).val := by
  unfold DotDims.rhsIdx
  rw [dif_neg (show ¬(1 : Fin S128x1.rank) ∈ dotCol.rhsBatch by decide),
    dif_pos (show (1 : Fin S128x1.rank) ∈ dotCol.rhsNonContracting by decide)]
  rfl

/-- The host product `[100000, 128] @ [128, 1]` at `(p, q)` is the sum over the 128 columns. -/
theorem dotCol_apply (x : FVec Ideal S100000x128 .f32) (w : FVec Ideal S128x1 .f32) (p : Fin 100000) (q : Fin 1) :
    Host.dotGeneral dotCol none x w (ix2 p q) = ∑ k : Fin 128, x (ix2 p k) * w (ix2 k q) := by
  simp only [Host.dotGeneral]
  rw [Ideal.dotGeneral_apply, ← Equiv.sum_comp (contrEquiv1 dotCol 128 rfl rfl).symm]
  refine Finset.sum_congr rfl fun k _ => ?_
  have hk := contrEquiv1_symm_val dotCol 128 rfl rfl k
  have el : dotCol.lhsIdx (ix2 p q) ((contrEquiv1 dotCol 128 rfl rfl).symm k) = ix2 p k :=
    funext fun a => Fin.ext (by
      match a with
      | ⟨0, _⟩ => exact lhs_dotCol_0 _ _
      | ⟨1, _⟩ => exact (lhs_dotCol_1 _ _).trans hk)
  have er : dotCol.rhsIdx (ix2 p q) ((contrEquiv1 dotCol 128 rfl rfl).symm k) = ix2 k q :=
    funext fun a => Fin.ext (by
      match a with
      | ⟨0, _⟩ => exact (rhs_dotCol_0 _ _).trans hk
      | ⟨1, _⟩ => exact rhs_dotCol_1 _ _)
  rw [el, er]

/-! ## The row and column forms read at an index -/

/-- A column broadcast across the 128 features reads, at `(p, k)`, the column at `(p, 0)`. -/
theorem bcast_col128_apply {α : Type} (x : S100000x1.Idx → α) (h : S100000x1.BroadcastsInDim S100000x128 ![0, 1])
    (p : Fin 100000) (k : Fin 128) :
    broadcastInDim S100000x128 ![0, 1] h x (ix2 p k) = x (ix2 p (0 : Fin 1)) :=
  broadcastInDim_apply _ h x (ix2 p k) (ix2 p (0 : Fin 1)) (fun a => match a with
    | ⟨0, _⟩ => rfl
    | ⟨1, _⟩ => rfl)

/-- A one-row matrix broadcast down the nodes reads, at `(p, k)`, the row at `(0, k)`. -/
theorem bcast_row128_apply {α : Type} (x : S1x128.Idx → α) (h : S1x128.BroadcastsInDim S100000x128 ![0, 1])
    (p : Fin 100000) (k : Fin 128) :
    broadcastInDim S100000x128 ![0, 1] h x (ix2 p k) = x (ix2 (0 : Fin 1) k) :=
  broadcastInDim_apply _ h x (ix2 p k) (ix2 (0 : Fin 1) k) (fun a => match a with
    | ⟨0, _⟩ => rfl
    | ⟨1, _⟩ => rfl)

/-- The bias vector broadcast along a new leading axis reads, at `(u, k)`, the vector at `k`. -/
theorem bcast_bias_apply {α : Type} (x : S128.Idx → α) (h : S128.BroadcastsInDim S1x128 ![1]) (u : Fin 1) (k : Fin 128) :
    broadcastInDim S1x128 ![1] h x (ix2 u k) = x (ix1 k) :=
  broadcastInDim_apply _ h x (ix2 u k) (ix1 k) (fun a => match a with | ⟨0, _⟩ => rfl)

/-- `d²` as a column: the reshape of the vector is its broadcast along the new axis. -/
theorem dsqK_eq (dinv : FVec Ideal S100000 .f32) :
    dsqK dinv = broadcastInDim S100000x1 ![0] bcast_S100000_S100000x1_0 (mulf dinv dinv) := by
  funext j
  obtain ⟨p, q, rfl⟩ : ∃ (p : Fin 100000) (q : Fin 1), j = ix2 p q := ⟨j 0, j 1, eq_ix2 j⟩
  unfold dsqK
  rw [bcast_col_apply]
  exact shapeCast_a_a1_apply _ _ p q

/-- The layer-2 bias: the reshape `[1] → [1, 1]` is the broadcast along the new axis. -/
theorem b2K_eq (b2 : FVec Ideal S1 .f32) :
    b2K b2 = broadcastInDim S100000x1 ![0, 1] bcast_S1x1_S100000x1_0_1 (broadcastInDim S1x1 ![1] (by decide) b2) := by
  unfold b2K
  refine congrArg _ (funext fun j => ?_)
  obtain ⟨p, q, rfl⟩ : ∃ (p : Fin 1) (q : Fin 1), j = ix2 p q := ⟨j 0, j 1, eq_ix2 j⟩
  rw [bcast_one_apply]
  have hpq : p = q := Fin.ext (by omega)
  subst hpq
  exact shapeCast_a_a1_apply _ _ p p

/-- The fused combine is the host's `maximum(·, 0)` of `agg + h · d² + b` followed by the product with `W₂`. -/
theorem hhSpec_eq (agg h : FVec Ideal S100000x128 .f32) (dinv : FVec Ideal S100000 .f32) (b1 : FVec Ideal S128 .f32)
    (w2 : FVec Ideal S128x1 .f32) :
    Cert.Spec.hhSpec agg h (dsqK dinv) (rowK b1) w2
      = Host.dotGeneral dotCol none
          (maximumf (addf (addf agg (mulf h (broadcastInDim S100000x128 ![0, 1] (by decide)
              (broadcastInDim S100000x1 ![0] bcast_S100000_S100000x1_0 (mulf dinv dinv)))))
            (broadcastInDim S100000x128 ![0, 1] (by decide) (broadcastInDim S1x128 ![1] (by decide) b1)))
            (broadcastInDim S100000x128 ![] bcast_S_S100000x128 (constant S_ .f32 0x00000000#32))) w2 := by
  funext i
  obtain ⟨p, q, rfl⟩ : ∃ (p : Fin 100000) (q : Fin 1), i = ix2 p q := ⟨i 0, i 1, eq_ix2 i⟩
  rw [dotCol_apply]
  show ∑ k : Fin 128, max ((agg (ix2 p k) + h (ix2 p k) * dsqK dinv (ix2 p (0 : Fin 1))) + rowK b1 (ix2 (0 : Fin 1) k)) 0
      * w2 (ix2 k q) = _
  refine Finset.sum_congr rfl fun k _ => ?_
  rw [maximumf_apply, addf_apply, addf_apply, mulf_apply, bcast_col128_apply, bcast_row128_apply, bcast_col_apply,
    bcast_bias_apply]
  have hd : dsqK dinv (ix2 p (0 : Fin 1)) = mulf dinv dinv (ix1 p) := shapeCast_a_a1_apply _ _ _ _
  have hb : rowK b1 (ix2 (0 : Fin 1) k) = b1 (ix1 k) := shapeCast_a_1a_apply _ _ _ _
  have hz : broadcastInDim S100000x128 ![] bcast_S_S100000x128 (constant (F := Ideal) S_ .f32 0x00000000#32)
      (ix2 p k) = 0 := Ideal.ofBits_zero_f32
  rw [hd, hb, hz]

theorem outK_eq_outR (h : FVec Ideal S100000x128 .f32) (e : IVec S2x220000 32) (b1 : FVec Ideal S128 .f32)
    (w2 : FVec Ideal S128x1 .f32) (b2 : FVec Ideal S1 .f32) : outK h e b1 w2 b2 = outR h e b1 w2 b2 := by
  simp only [outK, outR]
  rw [agg128_sorted, hhSpec_eq, agg1_sorted, dsqK_eq, b2K_eq]

end Cert.KernelIdeal.KVal

end
-- ==== Proof.RefForms.lean ====
/-
  The plain program's node features and first-layer products, as functions of the argument arrays:
  `x = embed_table[tok] + (pe @ Wt + bt)` (the token index wrapped numpy-style at 28, then clamped by the gather) and
  `x @ W`.
-/
import proofs.«428299_j83202106458535_3_alg».proof.Proof.KVal

set_option maxRecDepth 16384

noncomputable section

namespace Cert.KernelIdeal.KVal

open Cert.KernelIdeal Cert.KernelIdeal.Gen Idealize.ShloMosaic

/-- The row gather out of the 28-row embedding table. -/
def gatherEmb : GatherDims S28x128 S100000x1 S100000x128 where
  offsetDims := [1]
  collapsedSliceDims := [0]
  operandBatchingDims := []
  startIndicesBatchingDims := []
  startIndexMap := [0]
  indexVectorDim := 1
  sliceSizes := ![1, 128]
  wf := by decide

/-- `[100000, 5] @ [5, 128]`. -/
def dotPe : DotDims S100000x5 S5x128 S100000x128 where
  lhsContracting := [1]
  rhsContracting := [0]
  lhsNonContracting := [0]
  rhsNonContracting := [1]
  lhsBatch := []
  rhsBatch := []
  wf := by decide

/-- `[100000, 128] @ [128, 128]`. -/
def dotHid : DotDims S100000x128 S128x128 S100000x128 where
  lhsContracting := [1]
  rhsContracting := [0]
  lhsNonContracting := [0]
  rhsNonContracting := [1]
  lhsBatch := []
  rhsBatch := []
  wf := by decide

/-- The tokens as a vector, wrapped numpy-style at the table's 28 rows. -/
def tokWrap (tok : IVec S100000x1 32) : IVec S100000 32 :=
  select (cmpi .slt (shapeCast S100000 tok (by decide)) (broadcastInDim S100000 ![] bcast_S_S100000 (constantI S_ 32 0#32)))
    (addi (shapeCast S100000 tok (by decide)) (broadcastInDim S100000 ![] bcast_S_S100000 (constantI S_ 32 28#32)))
    (shapeCast S100000 tok (by decide))

/-- The plain program's node features. -/
def xRef (tok : IVec S100000x1 32) (pe : FVec Ideal S100000x5 .f32) (emb : FVec Ideal S28x128 .f32)
    (wt : FVec Ideal S5x128 .f32) (bt : FVec Ideal S128 .f32) : FVec Ideal S100000x128 .f32 :=
  addf (Host.gather gatherEmb emb (broadcastInDim S100000x1 ![0] bcast_S100000_S100000x1_0 (tokWrap tok)))
    (addf (Host.dotGeneral dotPe none pe wt)
      (broadcastInDim S100000x128 ![0, 1] (by decide) (broadcastInDim S1x128 ![1] (by decide) bt)))

end Cert.KernelIdeal.KVal

end
-- ==== Proof.RefX.lean ====
/-
  The fused kernel's node features and first-layer products are the plain program's:
  * for a non-negative token the clip into `[0, 27]` and the wrap-then-clamp read the same table row, and the four padding
    rows are never read; the one-hot product, the five added products and the bias are the gathered row, the `5`-term
    contraction and the broadcast bias in another order of addition;
  * columns `j` and `128 + j` of the product with the two weight matrices side by side are the products with each matrix.
-/
import proofs.«428299_j83202106458535_3_alg».proof.Proof.RefForms
import proofs.«428299_j83202106458535_3_alg».proof.Proof.LibRows
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.KVal

open Cert.KernelIdeal Cert.KernelIdeal.Gen Idealize.ShloMosaic Idealize.ShloMosaic.ValueIdx

namespace RefX

/-- Two arrays over a rank-2 shape are equal when they agree at every pair of coordinates. -/
theorem funext_ix2 {α : Type} {n0 n1 : Nat} (f g : (⟨2, ![n0, n1]⟩ : Shape).Idx → α)
    (h : ∀ (p : Fin n0) (q : Fin n1), f (ix2 p q) = g (ix2 p q)) : f = g := by
  funext i
  rw [eq_ix2 i]
  exact h _ _

theorem dotPe_lhs0 (i : S100000x128.Idx) (q : dotPe.contr.Idx) : (dotPe.lhsIdx i q 0).val = (i 0).val := by
  unfold DotDims.lhsIdx
  rw [dif_neg (show ¬(0 : Fin S100000x5.rank) ∈ dotPe.lhsBatch by decide), dif_pos (show (0 : Fin S100000x5.rank) ∈ dotPe.lhsNonContracting by decide)]
  rfl
theorem dotPe_lhs1 (i : S100000x128.Idx) (q : dotPe.contr.Idx) : (dotPe.lhsIdx i q 1).val = (q ⟨0, by decide⟩).val :=
  dotPe.lhsIdx_val_of_single rfl i q
theorem dotPe_rhs0 (i : S100000x128.Idx) (q : dotPe.contr.Idx) : (dotPe.rhsIdx i q 0).val = (q ⟨0, by decide⟩).val :=
  dotPe.rhsIdx_val_of_single rfl i q
theorem dotPe_rhs1 (i : S100000x128.Idx) (q : dotPe.contr.Idx) : (dotPe.rhsIdx i q 1).val = (i 1).val := by
  unfold DotDims.rhsIdx
  rw [dif_neg (show ¬(1 : Fin S5x128.rank) ∈ dotPe.rhsBatch by decide), dif_pos (show (1 : Fin S5x128.rank) ∈ dotPe.rhsNonContracting by decide)]
  rfl

/-- The host product read at `(p, q)`: the sum over the contracted axis. -/
theorem dotPe_apply (x : FVec Ideal S100000x5 .f32) (w : FVec Ideal S5x128 .f32) (p : Fin 100000) (q : Fin 128) :
    Host.dotGeneral dotPe none x w (ix2 p q) = ∑ k : Fin 5, x (ix2 p k) * w (ix2 k q) := by
  simp only [Host.dotGeneral]
  rw [Ideal.dotGeneral_apply, ← Equiv.sum_comp (contrEquiv1 dotPe 5 rfl rfl).symm]
  refine Finset.sum_congr rfl fun k _ => ?_
  have hk := contrEquiv1_symm_val dotPe 5 rfl rfl k
  have el : dotPe.lhsIdx (ix2 p q) ((contrEquiv1 dotPe 5 rfl rfl).symm k) = ix2 p k := funext fun a => Fin.ext (by
    match a with
    | ⟨0, _⟩ => exact dotPe_lhs0 _ _
    | ⟨1, _⟩ => exact (dotPe_lhs1 _ _).trans hk)
  have er : dotPe.rhsIdx (ix2 p q) ((contrEquiv1 dotPe 5 rfl rfl).symm k) = ix2 k q := funext fun a => Fin.ext (by
    match a with
    | ⟨0, _⟩ => exact (dotPe_rhs0 _ _).trans hk
    | ⟨1, _⟩ => exact dotPe_rhs1 _ _)
  rw [el, er]

theorem dotHid_lhs0 (i : S100000x128.Idx) (q : dotHid.contr.Idx) : (dotHid.lhsIdx i q 0).val = (i 0).val := by
  unfold DotDims.lhsIdx
  rw [dif_neg (show ¬(0 : Fin S100000x128.rank) ∈ dotHid.lhsBatch by decide), dif_pos (show (0 : Fin S100000x128.rank) ∈ dotHid.lhsNonContracting by decide)]
  rfl
theorem dotHid_lhs1 (i : S100000x128.Idx) (q : dotHid.contr.Idx) : (dotHid.lhsIdx i q 1).val = (q ⟨0, by decide⟩).val :=
  dotHid.lhsIdx_val_of_single rfl i q
theorem dotHid_rhs0 (i : S100000x128.Idx) (q : dotHid.contr.Idx) : (dotHid.rhsIdx i q 0).val = (q ⟨0, by decide⟩).val :=
  dotHid.rhsIdx_val_of_single rfl i q
theorem dotHid_rhs1 (i : S100000x128.Idx) (q : dotHid.contr.Idx) : (dotHid.rhsIdx i q 1).val = (i 1).val := by
  unfold DotDims.rhsIdx
  rw [dif_neg (show ¬(1 : Fin S128x128.rank) ∈ dotHid.rhsBatch by decide), dif_pos (show (1 : Fin S128x128.rank) ∈ dotHid.rhsNonContracting by decide)]
  rfl

/-- The host product read at `(p, q)`: the sum over the contracted axis. -/
theorem dotHid_apply (x : FVec Ideal S100000x128 .f32) (w : FVec Ideal S128x128 .f32) (p : Fin 100000) (q : Fin 128) :
    Host.dotGeneral dotHid none x w (ix2 p q) = ∑ k : Fin 128, x (ix2 p k) * w (ix2 k q) := by
  simp only [Host.dotGeneral]
  rw [Ideal.dotGeneral_apply, ← Equiv.sum_comp (contrEquiv1 dotHid 128 rfl rfl).symm]
  refine Finset.sum_congr rfl fun k _ => ?_
  have hk := contrEquiv1_symm_val dotHid 128 rfl rfl k
  have el : dotHid.lhsIdx (ix2 p q) ((contrEquiv1 dotHid 128 rfl rfl).symm k) = ix2 p k := funext fun a => Fin.ext (by
    match a with
    | ⟨0, _⟩ => exact dotHid_lhs0 _ _
    | ⟨1, _⟩ => exact (dotHid_lhs1 _ _).trans hk)
  have er : dotHid.rhsIdx (ix2 p q) ((contrEquiv1 dotHid 128 rfl rfl).symm k) = ix2 k q := funext fun a => Fin.ext (by
    match a with
    | ⟨0, _⟩ => exact (dotHid_rhs0 _ _).trans hk
    | ⟨1, _⟩ => exact dotHid_rhs1 _ _)
  rw [el, er]

/-- A non-negative token, wrapped at the table's 28 rows, is itself. -/
theorem tokWrap_apply (tok : IVec S100000x1 32) (n : Fin 100000) (h : 0 ≤ (tok (ix2 n (0 : Fin 1))).toInt) :
    tokWrap tok (ix1 n) = tok (ix2 n (0 : Fin 1)) := by
  have hs : shapeCast S100000 tok (by decide) (ix1 n) = tok (ix2 n (0 : Fin 1)) :=
    shapeCast_apply tok _ (ix1 n) (ix2 n (0 : Fin 1)) (by
      rw [Shape.rowMajor_val_two, Shape.rowMajor_val_one]
      show n.val * 1 + 0 = n.val
      omega)
  have hc : IntOp.cmpi .slt (tok (ix2 n (0 : Fin 1))) 0#32 = 0#1 := by
    have hlt : (tok (ix2 n (0 : Fin 1))).slt 0#32 = false := by
      rw [BitVec.slt, decide_eq_false_iff_not]
      show ¬ (tok (ix2 n (0 : Fin 1))).toInt < 0
      omega
    show BitVec.ofBool ((tok (ix2 n (0 : Fin 1))).slt 0#32) = 0#1
    rw [hlt]
    rfl
  show Scalar.select (IntOp.cmpi .slt (shapeCast S100000 tok _ (ix1 n)) 0#32)
      (IntOp.addi (shapeCast S100000 tok _ (ix1 n)) 28#32) (shapeCast S100000 tok _ (ix1 n)) = _
  rw [hs, hc, select_zero]

/-- A row of the padded table below the 28th is that row of the table. -/
theorem embPadK_apply (emb : FVec Ideal S28x128 .f32) (r : Fin 32) (hr : r.val < 28) (j : Fin 128) :
    embPadK emb (ix2 r j) = emb (ix2 (⟨r.val, hr⟩ : Fin 28) j) := by
  unfold embPadK
  exact pad_apply_of_inside _ _ _ emb _ pads_S28x128_S32x128_040_000 h_S_ (ix2 r j) (ix2 (⟨r.val, hr⟩ : Fin 28) j)
    (fun a => match a with
      | ⟨0, _⟩ => by show r.val = 0 + r.val * (0 + 1); omega
      | ⟨1, _⟩ => by show j.val = 0 + j.val * (0 + 1); omega)

/-- The bias as a one-row matrix, read at column `j`. -/
theorem rowK_apply (bt : FVec Ideal S128 .f32) (j : Fin 128) : rowK bt (ix2 (0 : Fin 1) j) = bt (ix1 j) := by
  unfold rowK
  exact shapeCast_apply bt shapeCasts_S128_S1x128 (ix2 (0 : Fin 1) j) (ix1 j) (by
    rw [Shape.rowMajor_val_one, Shape.rowMajor_val_two]
    show j.val = 0 * 128 + j.val
    omega)

/-- The bias broadcast over the rows, read at `(n, j)`. -/
theorem biasRef_apply (bt : FVec Ideal S128 .f32) (h1 : S128.BroadcastsInDim S1x128 ![1])
    (h2 : S1x128.BroadcastsInDim S100000x128 ![0, 1]) (n : Fin 100000) (j : Fin 128) :
    broadcastInDim S100000x128 ![0, 1] h2 (broadcastInDim S1x128 ![1] h1 bt) (ix2 n j) = bt (ix1 j) := by
  refine (broadcastInDim_apply _ h2 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ h1 bt (ix2 (0 : Fin 1) j) (ix1 j) (fun a => match a with
    | ⟨0, _⟩ => by show j.val = if (128 : Nat) = 1 then 0 else j.val; rw [if_neg (by decide)])

/-- Column `q` of the side-by-side weights is column `q` of the first matrix. -/
theorem wcatK_left (w wv : FVec Ideal S128x128 .f32) (k : Fin 128) (q : Fin 128) :
    wcatK w wv (ix2 k (Fin.castLE (by decide) q : Fin 256)) = w (ix2 k q) := by
  unfold wcatK
  exact concatenate_pair_apply_left (1 : Fin 2) w wv concatenates_S128x128_S128x128_S128x256_d1
    (ix2 k (Fin.castLE (by decide) q : Fin 256)) rfl (ix2 k q) (fun b => match b with
      | ⟨0, _⟩ => rfl
      | ⟨1, _⟩ => rfl)

/-- Column `128 + q` of the side-by-side weights is column `q` of the second matrix. -/
theorem wcatK_right (w wv : FVec Ideal S128x128 .f32) (k : Fin 128) (q : Fin 128) :
    wcatK w wv (ix2 k (Fin.natAdd 128 q : Fin 256)) = wv (ix2 k q) := by
  unfold wcatK
  exact concatenate_pair_apply_right (1 : Fin 2) w wv concatenates_S128x128_S128x128_S128x256_d1
    (ix2 k (Fin.natAdd 128 q : Fin 256)) rfl rfl (ix2 k q) (fun b => match b with
      | ⟨0, _⟩ => fun _ => rfl
      | ⟨1, _⟩ => fun h => absurd rfl h)
    (by show q.val + 128 = 128 + q.val; omega)

end RefX

open RefX

theorem xSpec_eq_xRef (tok : IVec S100000x1 32) (pe : FVec Ideal S100000x5 .f32) (emb : FVec Ideal S28x128 .f32)
    (wt : FVec Ideal S5x128 .f32) (bt : FVec Ideal S128 .f32)
    (htok : ∀ n : Fin 100000, 0 ≤ (tok (ix2 n (0 : Fin 1))).toInt) :
    Cert.Spec.xSpec tok pe (embPadK emb) wt (rowK bt) = xRef tok pe emb wt bt := by
  refine funext_ix2 (n0 := 100000) (n1 := 128) _ _ fun n j => ?_
  have ht := htok n
  -- the start index of row `n` is the token
  have hi : broadcastInDim S100000x1 ![0] bcast_S100000_S100000x1_0 (tokWrap tok) (ix2 n (0 : Fin 1)) = tok (ix2 n (0 : Fin 1)) :=
    (broadcastInDim_apply _ bcast_S100000_S100000x1_0 (tokWrap tok) (ix2 n (0 : Fin 1)) (ix1 n) (fun a => match a with
      | ⟨0, _⟩ => by show n.val = if (100000 : Nat) = 1 then 0 else n.val; rw [if_neg (by decide)])).trans (tokWrap_apply tok n ht)
  -- the gathered row
  have hg : Host.gather gatherEmb emb (broadcastInDim S100000x1 ![0] bcast_S100000_S100000x1_0 (tokWrap tok)) (ix2 n j)
      = emb (ix2 (⟨min (tok (ix2 n (0 : Fin 1))).toInt.toNat 27, by omega⟩ : Fin 28) j) := by
    refine (Cert.LibRows.gather_rows_apply (N := 28) (by decide) gatherEmb rfl rfl rfl rfl rfl rfl rfl emb _ n j).trans ?_
    refine congrArg (fun r : Fin 28 => emb (ix2 r j)) (Fin.ext ?_)
    show min (broadcastInDim S100000x1 ![0] bcast_S100000_S100000x1_0 (tokWrap tok) (ix2 n (0 : Fin 1))).toInt.toNat (28 - 1)
      = min (tok (ix2 n (0 : Fin 1))).toInt.toNat 27
    rw [hi]
  -- the clipped token's row of the padded table
  have hrow : (Cert.Spec.tokRow (tok (ix2 n (0 : Fin 1)))).val = min (tok (ix2 n (0 : Fin 1))).toInt.toNat 27 := by
    show min (max (tok (ix2 n (0 : Fin 1))).toInt 0).toNat 27 = _
    rw [max_eq_left ht]
  have hl : embPadK emb (ix2 (Cert.Spec.tokRow (tok (ix2 n (0 : Fin 1)))) j)
      = emb (ix2 (⟨min (tok (ix2 n (0 : Fin 1))).toInt.toNat 27, by omega⟩ : Fin 28) j) := by
    refine (embPadK_apply emb _ (by rw [hrow]; omega) j).trans ?_
    exact congrArg (fun r : Fin 28 => emb (ix2 r j)) (Fin.ext hrow)
  show (embPadK emb (ix2 (Cert.Spec.tokRow (tok (ix2 n (0 : Fin 1)))) j) + ∑ k : Fin 5, pe (ix2 n k) * wt (ix2 k j))
        + rowK bt (ix2 (0 : Fin 1) j)
      = Host.gather gatherEmb emb (broadcastInDim S100000x1 ![0] bcast_S100000_S100000x1_0 (tokWrap tok)) (ix2 n j)
        + (Host.dotGeneral dotPe none pe wt (ix2 n j)
          + broadcastInDim S100000x128 ![0, 1] _ (broadcastInDim S1x128 ![1] _ bt) (ix2 n j))
  rw [hl, rowK_apply, hg, dotPe_apply, biasRef_apply, add_assoc]

theorem hLo_eq (x : FVec Ideal S100000x128 .f32) (w wv : FVec Ideal S128x128 .f32) :
    Cert.Spec.hLo x (wcatK w wv) = Host.dotGeneral dotHid none x w := by
  refine funext_ix2 (n0 := 100000) (n1 := 128) _ _ fun p q => ?_
  rw [dotHid_apply]
  show ∑ k : Fin 128, x (ix2 p k) * wcatK w wv (ix2 k (Fin.castLE (by decide) q : Fin 256)) = _
  exact Finset.sum_congr rfl fun k _ => by rw [wcatK_left]

theorem hHi_eq (x : FVec Ideal S100000x128 .f32) (w wv : FVec Ideal S128x128 .f32) :
    Cert.Spec.hHi x (wcatK w wv) = Host.dotGeneral dotHid none x wv := by
  refine funext_ix2 (n0 := 100000) (n1 := 128) _ _ fun p q => ?_
  rw [dotHid_apply]
  show ∑ k : Fin 128, x (ix2 p k) * wcatK w wv (ix2 k (Fin.natAdd 128 q : Fin 256)) = _
  exact Finset.sum_congr rfl fun k _ => by rw [wcatK_right]

end Cert.KernelIdeal.KVal

end
-- ==== Proof.RefVal.lean ====
/-
  The plain program's stages, named: its node features are `xRef`, its first-layer products the host products of them, each
  branch's node output `outR` of its first-layer product, and its pooled result `finI` of the two. Every equation here holds
  by unfolding the definitions on both sides: the two programs spell the same host operations.
-/
import proofs.«428299_j83202106458535_3_alg».proof.Proof.Gen.ReferenceIdeal.Read
import proofs.«428299_j83202106458535_3_alg».proof.Proof.RefForms

set_option maxRecDepth 16384

noncomputable section

namespace Cert.Proof.RefVal

open Cert.KernelIdeal.KVal Cert.KernelIdeal.Edge Cert.ReferenceIdeal.Read Idealize.ShloMosaic

variable (x0 : IVec ⟨2, ![100000, 1]⟩ 32) (x1 : FVec Ideal ⟨2, ![100000, 5]⟩ .f32) (x2 x3 : IVec ⟨2, ![2, 220000]⟩ 32)
  (x4 : IVec ⟨1, ![100000]⟩ 32) (x5 : FVec Ideal ⟨2, ![28, 128]⟩ .f32) (x6 : FVec Ideal ⟨2, ![5, 128]⟩ .f32)
  (x7 : FVec Ideal ⟨1, ![128]⟩ .f32) (x8 : FVec Ideal ⟨2, ![128, 128]⟩ .f32) (x9 : FVec Ideal ⟨1, ![128]⟩ .f32)
  (x10 : FVec Ideal ⟨2, ![128, 1]⟩ .f32) (x11 : FVec Ideal ⟨1, ![1]⟩ .f32) (x12 : FVec Ideal ⟨2, ![128, 128]⟩ .f32)
  (x13 : FVec Ideal ⟨1, ![128]⟩ .f32) (x14 : FVec Ideal ⟨2, ![128, 1]⟩ .f32) (x15 : FVec Ideal ⟨1, ![1]⟩ .f32)

/-- The node features. -/
theorem ref_x : val_main_v12 (F := Ideal) x0 x1 x5 x6 x7 = xRef x0 x1 x5 x6 x7 := rfl

/-- The first-layer products. -/
theorem ref_h : val_main_v17 (F := Ideal) x0 x1 x5 x6 x7 x8 = (Host.dotGeneral dotHid none (xRef x0 x1 x5 x6 x7) x8) := rfl
theorem ref_hv : val_main_v108 (F := Ideal) x0 x1 x5 x6 x7 x12 = (Host.dotGeneral dotHid none (xRef x0 x1 x5 x6 x7) x12) := rfl

/-- The degree normalisation and the edge coefficients of branch 1 (the program computes each twice, alike). -/
theorem ref_dinv1 : val_main_v24 (F := Ideal) x2 = dinvI (F := Ideal) (dstI x2) := rfl
theorem ref_dinv1' : val_main_v69 (F := Ideal) x2 = dinvI (F := Ideal) (dstI x2) := rfl
theorem ref_coef1 : val_main_v39 (F := Ideal) x2 = coefI (dinvI (F := Ideal) (dstI x2)) (srcI x2) (dstI x2) := rfl
theorem ref_coef1' : val_main_v84 (F := Ideal) x2 = coefI (dinvI (F := Ideal) (dstI x2)) (srcI x2) (dstI x2) := rfl

/-- Branch 1's first segment sum. -/
theorem ref_agg1 : val_main_v52 (F := Ideal) x0 x1 x2 x5 x6 x7 x8
    = agg128I (Host.dotGeneral dotHid none (xRef x0 x1 x5 x6 x7) x8) (coefI (dinvI (dstI x2)) (srcI x2) (dstI x2)) (srcI x2) (dstI x2) := rfl

/-- Branch 1's node output. -/
theorem ref_out1 : val_main_v103 (F := Ideal) x0 x1 x2 x5 x6 x7 x8 x9 x10 x11 = outR (Host.dotGeneral dotHid none (xRef x0 x1 x5 x6 x7) x8) x2 x9 x10 x11 := rfl

/-- Branch 2's node output. -/
theorem ref_out2 : val_main_v194 (F := Ideal) x0 x1 x3 x5 x6 x7 x12 x13 x14 x15 = outR (Host.dotGeneral dotHid none (xRef x0 x1 x5 x6 x7) x12) x3 x13 x14 x15 := rfl

/-- The pooled result. -/
theorem ref_y : val_main_v199 (F := Ideal) x0 x1 x2 x3 x4 x5 x6 x7 x8 x9 x10 x11 x12 x13 x14 x15
    = finI (outR (Host.dotGeneral dotHid none (xRef x0 x1 x5 x6 x7) x8) x2 x9 x10 x11) (outR (Host.dotGeneral dotHid none (xRef x0 x1 x5 x6 x7) x12) x3 x13 x14 x15) x4 := by
  rw [← ref_out1, ← ref_out2]; rfl

end Cert.Proof.RefVal

end
-- ==== Proof.PreDecode.lean ====
/-
  The precondition's last conjunct read back: every node token is non-negative.
-/
import proofs.«428299_j83202106458535_3_alg».proof.Defs
import proofs.«428299_j83202106458535_3_alg».proof.Proof.Gen.KernelIdeal
import proofs.«428299_j83202106458535_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Proof

open Idealize.ShloMosaic Idealize.ShloMosaic.TcCoe Idealize.ShloMosaic.ValueIdx Idealize.SL.Sem

/-- The last part of the predicate, when it is 1, says every token compares at least 0 (signed). -/
theorem part3_tok {F : FTy → Type} [FloatOps F] (a0 : IVec Cert.Pre_finite_inputs.S100000x1 32)
    (a15 : FVec F Cert.Pre_finite_inputs.S1 .f32) (v48 : IVec Cert.Pre_finite_inputs.S_ 1)
    (v49 v50 : FVec F Cert.Pre_finite_inputs.S128x1 .f32) (j : Cert.Pre_finite_inputs.S_.Idx)
    (e : Cert.Pre_finite_inputs.fn_part3 (F := F) a0 a15 v48 v49 v50 j = 1#1)
    (i : Cert.Pre_finite_inputs.S100000x1.Idx) : 0 ≤ (a0 i).toInt := by
  unfold Cert.Pre_finite_inputs.fn_part3 at e
  dsimp only at e
  have e2 := (IntOp.andi_eq_one.1 e).2
  -- the scalar shape has one index
  haveI : Subsingleton Cert.Pre_finite_inputs.S_.Idx := ⟨fun a b => funext fun d => d.elim0⟩
  have e3 := Host.reduce_andi_all _ _ _ _ j e2 i
  have e4 := IntOp.cmpi_sge.1 e3
  simpa [broadcastInDim, constantI] using e4

theorem tok_nonneg (m : (ℓ : Loc Cert.KernelIdeal.nD Cert.KernelIdeal.τ Cert.KernelIdeal.sig) → Buf (Elt Ideal) ℓ)
    (h : Cert.Pre_KernelIdeal m) (c : Dev Cert.KernelIdeal.nD) (n : Fin 100000) :
    0 ≤ ((m ((c.tc : Thread Cert.KernelIdeal.nD Cert.KernelIdeal.τ).loc Cert.KernelIdeal.main_arg0)
      : IVec ⟨2, ![100000, 1]⟩ 32) (ix2 n (0 : Fin 1))).toInt := by
  have h' := congrFun (h c) ix0
  unfold Cert.Pre_finite_inputs.fn Cert.Pre_finite_inputs.fn_part1 Cert.Pre_finite_inputs.fn_part2 at h'
  exact part3_tok _ _ _ _ _ _ h' (ix2 n (0 : Fin 1))

end Cert.Proof

end
-- ==== Proof.Algebraic.lean ====
/-
  The two programs end with equal results. The fused program's pooled result is `finI` of two branches computed the fused
  way over the node features `xSpec`; the plain program's is `finI` of two branches computed the plain way over `xRef`.
  For non-negative tokens `xSpec = xRef`; the side-by-side product's two column halves are the two host products; and a
  branch computed the fused way equals the branch computed the plain way.
-/
import proofs.«428299_j83202106458535_3_alg».proof.Defs
import proofs.«428299_j83202106458535_3_alg».proof.Proof.Gen.ReferenceIdeal.Run
import proofs.«428299_j83202106458535_3_alg».proof.Proof.Gen.ReferenceIdeal.Read
import proofs.«428299_j83202106458535_3_alg».proof.Proof.KernelRun
import proofs.«428299_j83202106458535_3_alg».proof.Proof.KRead
import proofs.«428299_j83202106458535_3_alg».proof.Proof.Branch
import proofs.«428299_j83202106458535_3_alg».proof.Proof.RefX
import proofs.«428299_j83202106458535_3_alg».proof.Proof.RefVal
import proofs.«428299_j83202106458535_3_alg».proof.Proof.PreDecode

set_option maxRecDepth 16384

noncomputable section

namespace Cert.Proof

open Idealize.ShloMosaic Idealize.ShloMosaic.TcCoe Idealize.SL.Sem
open Cert.KernelIdeal.KVal Cert.KernelIdeal.KRead Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- Under the precondition the fused kernel's node features are the plain program's. -/
theorem kx_eq (hpre : Cert.Pre_KernelIdeal m) (c : Dev Cert.KernelIdeal.nD) :
    kx m c = xRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  xSpec_eq_xRef _ _ _ _ _ (fun n => tok_nonneg m hpre c n)

/-- The node-feature result. -/
theorem x_agree (hpre : Cert.Pre_KernelIdeal m) (c : Dev Cert.KernelIdeal.nD) :
    W12 (F := Ideal) m ρ c (Proc.devRef .tc Cert.KernelIdeal.main_v3_0)
      = Cert.ReferenceIdeal.Read.val_main_v12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [kernel_x, kx_eq m hpre c, RefVal.ref_x]

/-- The pooled result. -/
theorem y_agree (hpre : Cert.Pre_KernelIdeal m) (c : Dev Cert.KernelIdeal.nD) :
    W12 (F := Ideal) m ρ c (Proc.devRef .tc Cert.KernelIdeal.main_v158)
      = Cert.ReferenceIdeal.Read.val_main_v199 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  rw [kernel_y, RefVal.ref_y, kx_eq m hpre c, hLo_eq, hHi_eq, outK_eq_outR, outK_eq_outR]

theorem algebraic : Cert.algebraic_KernelIdeal_ReferenceIdeal := by
  intro m ρ m' ρ' hpre hagree
  refine ⟨fun c => W12 (F := Ideal) m ρ c (Proc.devRef .tc Cert.KernelIdeal.main_v158),
    fun c => W12 (F := Ideal) m ρ c (Proc.devRef .tc Cert.KernelIdeal.main_v3_0),
    Cert.KernelIdeal.GenRun.run_results m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    rw [Cert.ReferenceIdeal.Read.val_main_v199_eq, h0, h1, h2, h3, h4, h5, h6, h7, h8, h9, h10, h11, h12, h13, h14, h15]
    exact (y_agree m ρ hpre c).symm
  · obtain ⟨h0, h1, -, -, -, h5, h6, h7, -⟩ := hagree c
    rw [Cert.ReferenceIdeal.Read.val_main_v12_eq, h0, h1, h5, h6, h7]
    exact (x_agree m ρ hpre c).symm

end Cert.Proof

end
-- ==== Proof.lean ====
/-
  The certificate of the fused graph-convolution program against its plain reference.

  Both programs compute, per node, features `x = embed[token] + pe @ Wt + bt`, and per branch (two edge lists) a two-layer
  graph convolution `D^-1/2 (A + I) D^-1/2 (· W) + b` with a relu between the layers, and pool the sum of the two branches'
  node outputs over the graphs of the batch. The fused program looks the embedding up by a one-hot product over a
  zero-padded table after clipping the token into the table, adds the positional projection term by term, multiplies by
  both first-layer weight matrices side by side, sorts each edge list by destination before its segment sums, and fuses each
  branch's combine with the second-layer product. Over the extended reals these are the same functions of the inputs as
  soon as the tokens are non-negative (the added precondition): a negative token wraps in the plain program and clips in
  the fused one.

  The three frames are the generated ones (the reference's is its generated run with the results dropped), the
  idealization ledger is empty, and the equality of results is `Cert.Proof.algebraic`.
-/
import proofs.«428299_j83202106458535_3_alg».proof.Defs
import proofs.«428299_j83202106458535_3_alg».proof.Proof.Gen.Kernel
import proofs.«428299_j83202106458535_3_alg».proof.Proof.Gen.Kernel.Frame
import proofs.«428299_j83202106458535_3_alg».proof.Proof.Gen.KernelIdeal
import proofs.«428299_j83202106458535_3_alg».proof.Proof.Gen.KernelIdeal.Frame
import proofs.«428299_j83202106458535_3_alg».proof.Proof.Gen.ReferenceIdeal
import proofs.«428299_j83202106458535_3_alg».proof.Proof.Gen.Pre_finite_inputs
import proofs.«428299_j83202106458535_3_alg».proof.Proof.Gen.ReferenceIdeal.Run
import proofs.«428299_j83202106458535_3_alg».proof.Proof.Gen.ReferenceIdeal.Read
import proofs.«428299_j83202106458535_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
